-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x10000 : Shape := ⟨2, ![10000, 10000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg7 : FVec F S64 .f32) (main_arg8 : FVec F S64x32 .f32) (main_arg9 : FVec F S32 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x32 .f32 := Host.absf main_arg8
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  main_v48

def fn_part1 {F : FTy → Type} [FloatOps F] (main_arg4 : FVec F S256x128 .f32) (main_arg5 : FVec F S128 .f32) (main_arg6 : FVec F S128x64 .f32) (main_arg7 : FVec F S64 .f32) (main_arg8 : FVec F S64x32 .f32) (main_arg9 : FVec F S32 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x512 .f32) (main_arg1 : FVec F S10000x10000 .f32) (main_arg2 : FVec F S512x256 .f32) (main_arg3 : FVec F S256 .f32) (main_arg4 : FVec F S256x128 .f32) (main_arg5 : FVec F S128 .f32) (main_arg6 : FVec F S128x64 .f32) (main_arg7 : FVec F S64 .f32) (main_arg8 : FVec F S64x32 .f32) (main_arg9 : FVec F S32 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S10000x512 : Shape := ⟨2, ![10000, 512]⟩
abbrev S10000x10000 : Shape := ⟨2, ![10000, 10000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S10000x256 : Shape := ⟨2, ![10000, 256]⟩
abbrev S2000x512 : Shape := ⟨2, ![2000, 512]⟩
abbrev S2000x256 : Shape := ⟨2, ![2000, 256]⟩
abbrev S1x256 : Shape := ⟨2, ![1, 256]⟩
abbrev S10000x128 : Shape := ⟨2, ![10000, 128]⟩
abbrev S128x10000 : Shape := ⟨2, ![128, 10000]⟩
abbrev S128x128 : Shape := ⟨2, ![128, 128]⟩
abbrev S128x256 : Shape := ⟨2, ![128, 256]⟩
abbrev S1x128 : Shape := ⟨2, ![1, 128]⟩
abbrev S10000x64 : Shape := ⟨2, ![10000, 64]⟩
abbrev S1x64 : Shape := ⟨2, ![1, 64]⟩
abbrev S10000x32 : Shape := ⟨2, ![10000, 32]⟩
abbrev S128x32 : Shape := ⟨2, ![128, 32]⟩
abbrev S1x32 : Shape := ⟨2, ![1, 32]⟩

abbrev nBuf : Space → Nat
  | .hbm => 20
  | .vmem => 34
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S10000x256, .bf16⟩
  | .hbm, ⟨11, _⟩ => ⟨S1x256, .f32⟩
  | .hbm, ⟨12, _⟩ => ⟨S10000x10000, .bf16⟩
  | .hbm, ⟨13, _⟩ => ⟨S10000x128, .bf16⟩
  | .hbm, ⟨14, _⟩ => ⟨S1x128, .f32⟩
  | .hbm, ⟨15, _⟩ => ⟨S10000x64, .bf16⟩
  | .hbm, ⟨16, _⟩ => ⟨S1x64, .f32⟩
  | .hbm, ⟨17, _⟩ => ⟨S10000x32, .bf16⟩
  | .hbm, ⟨18, _⟩ => ⟨S1x32, .f32⟩
  | .hbm, ⟨19, _⟩ => ⟨S10000x32, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .bf16⟩
  | .local _ .vmem, ⟨4, _⟩ => ⟨S2000x256, .bf16⟩
  | .local _ .vmem, ⟨5, _⟩ => ⟨S128x10000, .f32⟩
  | .local _ .vmem, ⟨6, _⟩ => ⟨S128x10000, .f32⟩
  | .local _ .vmem, ⟨7, _⟩ => ⟨S10000x256, .bf16⟩
  | .local _ .vmem, ⟨8, _⟩ => ⟨S1x256, .f32⟩
  | .local _ .vmem, ⟨9, _⟩ => ⟨S256x128, .f32⟩
  | .local _ .vmem, ⟨10, _⟩ => ⟨S128x10000, .bf16⟩
  | .local _ .vmem, ⟨11, _⟩ => ⟨S128x10000, .bf16⟩
  | .local _ .vmem, ⟨12, _⟩ => ⟨S128x128, .bf16⟩
  | .local _ .vmem, ⟨13, _⟩ => ⟨S128x128, .bf16⟩
  | .local _ .vmem, ⟨14, _⟩ => ⟨S128x10000, .bf16⟩
  | .local _ .vmem, ⟨15, _⟩ => ⟨S128x10000, .bf16⟩
  | .local _ .vmem, ⟨16, _⟩ => ⟨S10000x128, .bf16⟩
  | .local _ .vmem, ⟨17, _⟩ => ⟨S1x128, .f32⟩
  | .local _ .vmem, ⟨18, _⟩ => ⟨S128x64, .f32⟩
  | .local _ .vmem, ⟨19, _⟩ => ⟨S128x64, .bf16⟩
  | .local _ .vmem, ⟨20, _⟩ => ⟨S128x64, .bf16⟩
  | .local _ .vmem, ⟨21, _⟩ => ⟨S128x10000, .bf16⟩
  | .local _ .vmem, ⟨22, _⟩ => ⟨S128x10000, .bf16⟩
  | .local _ .vmem, ⟨23, _⟩ => ⟨S10000x64, .bf16⟩
  | .local _ .vmem, ⟨24, _⟩ => ⟨S1x64, .f32⟩
  | .local _ .vmem, ⟨25, _⟩ => ⟨S64x32, .f32⟩
  | .local _ .vmem, ⟨26, _⟩ => ⟨S128x32, .bf16⟩
  | .local _ .vmem, ⟨27, _⟩ => ⟨S128x32, .bf16⟩
  | .local _ .vmem, ⟨28, _⟩ => ⟨S128x10000, .bf16⟩
  | .local _ .vmem, ⟨29, _⟩ => ⟨S128x10000, .bf16⟩
  | .local _ .vmem, ⟨30, _⟩ => ⟨S10000x32, .bf16⟩
  | .local _ .vmem, ⟨31, _⟩ => ⟨S1x32, .f32⟩
  | .local _ .vmem, ⟨32, _⟩ => ⟨S128x32, .f32⟩
  | .local _ .vmem, ⟨33, _⟩ => ⟨S128x32, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![79], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S128x10000 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![79], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S128x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![79], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S128x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x64 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S128x32 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![79], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S128x10000 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x32 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S128x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  inb_S2000x512_S2000x512_0_0 : ∀ a, (![0, 0] : Fin 2 → Nat) a + S2000x512.size a ≤ S2000x512.size a
  h_S2000x512 : 0 < S2000x512.numel
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  shapeCasts_S256_S1x256 : S256.ShapeCasts S1x256
  inb_S128x10000_S128x10000_0_0 : ∀ a, (![0, 0] : Fin 2 → Nat) a + S128x10000.size a ≤ S128x10000.size a
  h_S128x10000 : 0 < S128x10000.numel
  packedbf16_S128x10000_S128x10000_0_0 : (Rect.unit (s := S128x10000) ![0, 0] S128x10000.size inb_S128x10000_S128x10000_0_0).PackedRows (EltTy.packing .bf16)
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  inb_S256x128_S256x128_0_0 : ∀ a, (![0, 0] : Fin 2 → Nat) a + S256x128.size a ≤ S256x128.size a
  h_S256x128 : 0 < S256x128.numel
  inb_S128x128_S128x128_0_0 : ∀ a, (![0, 0] : Fin 2 → Nat) a + S128x128.size a ≤ S128x128.size a
  h_S128x128 : 0 < S128x128.numel
  packedbf16_S128x128_S128x128_0_0 : (Rect.unit (s := S128x128) ![0, 0] S128x128.size inb_S128x128_S128x128_0_0).PackedRows (EltTy.packing .bf16)
  shapeCasts_S128_S1x128 : S128.ShapeCasts S1x128
  shapeCasts_S128x10000_S128x10000 : S128x10000.ShapeCasts S128x10000
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  inb_S128x64_S128x64_0_0 : ∀ a, (![0, 0] : Fin 2 → Nat) a + S128x64.size a ≤ S128x64.size a
  h_S128x64 : 0 < S128x64.numel
  packedbf16_S128x64_S128x64_0_0 : (Rect.unit (s := S128x64) ![0, 0] S128x64.size inb_S128x64_S128x64_0_0).PackedRows (EltTy.packing .bf16)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S128x64 : S1x64.Broadcasts S128x64
  inb_S64x32_S64x32_0_0 : ∀ a, (![0, 0] : Fin 2 → Nat) a + S64x32.size a ≤ S64x32.size a
  h_S64x32 : 0 < S64x32.numel
  inb_S128x32_S128x32_0_0 : ∀ a, (![0, 0] : Fin 2 → Nat) a + S128x32.size a ≤ S128x32.size a
  h_S128x32 : 0 < S128x32.numel
  packedbf16_S128x32_S128x32_0_0 : (Rect.unit (s := S128x32) ![0, 0] S128x32.size inb_S128x32_S128x32_0_0).PackedRows (EltTy.packing .bf16)
  shapeCasts_S32_S1x32 : S32.ShapeCasts S1x32
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S128x32 : S1x32.Broadcasts S128x32
  dot_S2000x512_S512x256_S2000x256_1_0_0_1_n_n_wf : DotDims.WF S2000x512 S512x256 S2000x256 [1] [0] [0] [1] [] []
  dot_S128x10000_S10000x256_S128x256_1_0_0_1_n_n_wf : DotDims.WF S128x10000 S10000x256 S128x256 [1] [0] [0] [1] [] []
  dot_S128x256_S256x128_S128x128_1_0_0_1_n_n_wf : DotDims.WF S128x256 S256x128 S128x128 [1] [0] [0] [1] [] []
  dot_S128x10000_S10000x128_S128x128_1_0_0_1_n_n_wf : DotDims.WF S128x10000 S10000x128 S128x128 [1] [0] [0] [1] [] []
  dot_S128x128_S128x64_S128x64_1_0_0_1_n_n_wf : DotDims.WF S128x128 S128x64 S128x64 [1] [0] [0] [1] [] []
  dot_S128x10000_S10000x64_S128x64_1_0_0_1_n_n_wf : DotDims.WF S128x10000 S10000x64 S128x64 [1] [0] [0] [1] [] []
  dot_S128x64_S64x32_S128x32_1_0_0_1_n_n_wf : DotDims.WF S128x64 S64x32 S128x32 [1] [0] [0] [1] [] []
  dot_S128x10000_S10000x32_S128x32_1_0_0_1_n_n_wf : DotDims.WF S128x10000 S10000x32 S128x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S10000x512.size a
  hwx0_0 : ∀ i : grid0.Coords, EltTy.bits .f32 = 32 ∨ (Rect.block (s := S10000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S10000x256.size a
  hwx0_2 : ∀ i : grid0.Coords, EltTy.bits .bf16 = 32 ∨ (Rect.block (s := S10000x256) S2000x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S128x10000.size a < S10000x10000.size a
  hwx1_0 : ∀ i : grid1.Coords, EltTy.bits .f32 = 32 ∨ (Rect.unit (s := S10000x10000) (fun a => cc1_transform_0 i a * S128x10000.size a) (fun a => (Pipeline.Clip.of (cc1_transform_0 i a) (S128x10000.size a) (S10000x10000.size a)).extent (S128x10000.size a)) fun a => Pipeline.Clip.inb (Pipeline.Clip.ok_of (hstart1_0 i a))).WholeWords (EltTy.packing .f32)
  hwxs1_0 : ∀ i : grid1.Coords, EltTy.bits .f32 = 32 ∨ (Rect.unit (s := S128x10000) (fun _ => 0) (fun a => (Pipeline.Clip.of (cc1_transform_0 i a) (S128x10000.size a) (S10000x10000.size a)).extent (S128x10000.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .bf16 = 32 ∨ (Rect.block (s := S10000x256) S10000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hstart1_4 : ∀ (i : grid1.Coords) a, cc1_transform_4 i a * S128x10000.size a < S10000x10000.size a
  hwx1_4 : ∀ i : grid1.Coords, EltTy.bits .bf16 = 32 ∨ (Rect.unit (s := S10000x10000) (fun a => cc1_transform_4 i a * S128x10000.size a) (fun a => (Pipeline.Clip.of (cc1_transform_4 i a) (S128x10000.size a) (S10000x10000.size a)).extent (S128x10000.size a)) fun a => Pipeline.Clip.inb (Pipeline.Clip.ok_of (hstart1_4 i a))).WholeWords (EltTy.packing .bf16)
  hwxs1_4 : ∀ i : grid1.Coords, EltTy.bits .bf16 = 32 ∨ (Rect.unit (s := S128x10000) (fun _ => 0) (fun a => (Pipeline.Clip.of (cc1_transform_4 i a) (S128x10000.size a) (S10000x10000.size a)).extent (S128x10000.size a)) fun a => (Nat.zero_add _).trans_le (Pipeline.Clip.extent_le (Pipeline.Clip.ok_of (hstart1_4 i a)))).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hstart1_5 : ∀ (i : grid1.Coords) a, cc1_transform_5 i a * S128x128.size a < S10000x128.size a
  hwx1_5 : ∀ i : grid1.Coords, EltTy.bits .bf16 = 32 ∨ (Rect.unit (s := S10000x128) (fun a => cc1_transform_5 i a * S128x128.size a) (fun a => (Pipeline.Clip.of (cc1_transform_5 i a) (S128x128.size a) (S10000x128.size a)).extent (S128x128.size a)) fun a => Pipeline.Clip.inb (Pipeline.Clip.ok_of (hstart1_5 i a))).WholeWords (EltTy.packing .bf16)
  hwxs1_5 : ∀ i : grid1.Coords, EltTy.bits .bf16 = 32 ∨ (Rect.unit (s := S128x128) (fun _ => 0) (fun a => (Pipeline.Clip.of (cc1_transform_5 i a) (S128x128.size a) (S10000x128.size a)).extent (S128x128.size a)) fun a => (Nat.zero_add _).trans_le (Pipeline.Clip.extent_le (Pipeline.Clip.ok_of (hstart1_5 i a)))).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S128x10000.size a < S10000x10000.size a
  hwx2_0 : ∀ i : grid2.Coords, EltTy.bits .bf16 = 32 ∨ (Rect.unit (s := S10000x10000) (fun a => cc2_transform_0 i a * S128x10000.size a) (fun a => (Pipeline.Clip.of (cc2_transform_0 i a) (S128x10000.size a) (S10000x10000.size a)).extent (S128x10000.size a)) fun a => Pipeline.Clip.inb (Pipeline.Clip.ok_of (hstart2_0 i a))).WholeWords (EltTy.packing .bf16)
  hwxs2_0 : ∀ i : grid2.Coords, EltTy.bits .bf16 = 32 ∨ (Rect.unit (s := S128x10000) (fun _ => 0) (fun a => (Pipeline.Clip.of (cc2_transform_0 i a) (S128x10000.size a) (S10000x10000.size a)).extent (S128x10000.size a)) fun a => (Nat.zero_add _).trans_le (Pipeline.Clip.extent_le (Pipeline.Clip.ok_of (hstart2_0 i a)))).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hstart2_4 : ∀ (i : grid2.Coords) a, cc2_transform_4 i a * S128x64.size a < S10000x64.size a
  hwx2_4 : ∀ i : grid2.Coords, EltTy.bits .bf16 = 32 ∨ (Rect.unit (s := S10000x64) (fun a => cc2_transform_4 i a * S128x64.size a) (fun a => (Pipeline.Clip.of (cc2_transform_4 i a) (S128x64.size a) (S10000x64.size a)).extent (S128x64.size a)) fun a => Pipeline.Clip.inb (Pipeline.Clip.ok_of (hstart2_4 i a))).WholeWords (EltTy.packing .bf16)
  hwxs2_4 : ∀ i : grid2.Coords, EltTy.bits .bf16 = 32 ∨ (Rect.unit (s := S128x64) (fun _ => 0) (fun a => (Pipeline.Clip.of (cc2_transform_4 i a) (S128x64.size a) (S10000x64.size a)).extent (S128x64.size a)) fun a => (Nat.zero_add _).trans_le (Pipeline.Clip.extent_le (Pipeline.Clip.ok_of (hstart2_4 i a)))).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hstart3_0 : ∀ (i : grid3.Coords) a, cc3_transform_0 i a * S128x10000.size a < S10000x10000.size a
  hwx3_0 : ∀ i : grid3.Coords, EltTy.bits .bf16 = 32 ∨ (Rect.unit (s := S10000x10000) (fun a => cc3_transform_0 i a * S128x10000.size a) (fun a => (Pipeline.Clip.of (cc3_transform_0 i a) (S128x10000.size a) (S10000x10000.size a)).extent (S128x10000.size a)) fun a => Pipeline.Clip.inb (Pipeline.Clip.ok_of (hstart3_0 i a))).WholeWords (EltTy.packing .bf16)
  hwxs3_0 : ∀ i : grid3.Coords, EltTy.bits .bf16 = 32 ∨ (Rect.unit (s := S128x10000) (fun _ => 0) (fun a => (Pipeline.Clip.of (cc3_transform_0 i a) (S128x10000.size a) (S10000x10000.size a)).extent (S128x10000.size a)) fun a => (Nat.zero_add _).trans_le (Pipeline.Clip.extent_le (Pipeline.Clip.ok_of (hstart3_0 i a)))).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S10000x64.size a
  hwx3_1 : ∀ i : grid3.Coords, EltTy.bits .bf16 = 32 ∨ (Rect.block (s := S10000x64) S10000x64.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x32.size a ≤ S64x32.size a
  hwx3_3 : ∀ i : grid3.Coords, EltTy.bits .f32 = 32 ∨ (Rect.block (s := S64x32) S64x32.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hstart3_4 : ∀ (i : grid3.Coords) a, cc3_transform_4 i a * S128x32.size a < S10000x32.size a
  hwx3_4 : ∀ i : grid3.Coords, EltTy.bits .bf16 = 32 ∨ (Rect.unit (s := S10000x32) (fun a => cc3_transform_4 i a * S128x32.size a) (fun a => (Pipeline.Clip.of (cc3_transform_4 i a) (S128x32.size a) (S10000x32.size a)).extent (S128x32.size a)) fun a => Pipeline.Clip.inb (Pipeline.Clip.ok_of (hstart3_4 i a))).WholeWords (EltTy.packing .bf16)
  hwxs3_4 : ∀ i : grid3.Coords, EltTy.bits .bf16 = 32 ∨ (Rect.unit (s := S128x32) (fun _ => 0) (fun a => (Pipeline.Clip.of (cc3_transform_4 i a) (S128x32.size a) (S10000x32.size a)).extent (S128x32.size a)) fun a => (Nat.zero_add _).trans_le (Pipeline.Clip.extent_le (Pipeline.Clip.ok_of (hstart3_4 i a)))).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hstart4_0 : ∀ (i : grid4.Coords) a, cc4_transform_0 i a * S128x10000.size a < S10000x10000.size a
  hwx4_0 : ∀ i : grid4.Coords, EltTy.bits .bf16 = 32 ∨ (Rect.unit (s := S10000x10000) (fun a => cc4_transform_0 i a * S128x10000.size a) (fun a => (Pipeline.Clip.of (cc4_transform_0 i a) (S128x10000.size a) (S10000x10000.size a)).extent (S128x10000.size a)) fun a => Pipeline.Clip.inb (Pipeline.Clip.ok_of (hstart4_0 i a))).WholeWords (EltTy.packing .bf16)
  hwxs4_0 : ∀ i : grid4.Coords, EltTy.bits .bf16 = 32 ∨ (Rect.unit (s := S128x10000) (fun _ => 0) (fun a => (Pipeline.Clip.of (cc4_transform_0 i a) (S128x10000.size a) (S10000x10000.size a)).extent (S128x10000.size a)) fun a => (Nat.zero_add _).trans_le (Pipeline.Clip.extent_le (Pipeline.Clip.ok_of (hstart4_0 i a)))).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x32.size a ≤ S10000x32.size a
  hwx4_1 : ∀ i : grid4.Coords, EltTy.bits .bf16 = 32 ∨ (Rect.block (s := S10000x32) S10000x32.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hstart4_3 : ∀ (i : grid4.Coords) a, cc4_transform_3 i a * S128x32.size a < S10000x32.size a
  hwx4_3 : ∀ i : grid4.Coords, EltTy.bits .f32 = 32 ∨ (Rect.unit (s := S10000x32) (fun a => cc4_transform_3 i a * S128x32.size a) (fun a => (Pipeline.Clip.of (cc4_transform_3 i a) (S128x32.size a) (S10000x32.size a)).extent (S128x32.size a)) fun a => Pipeline.Clip.inb (Pipeline.Clip.ok_of (hstart4_3 i a))).WholeWords (EltTy.packing .f32)
  hwxs4_3 : ∀ i : grid4.Coords, EltTy.bits .f32 = 32 ∨ (Rect.unit (s := S128x32) (fun _ => 0) (fun a => (Pipeline.Clip.of (cc4_transform_3 i a) (S128x32.size a) (S10000x32.size a)).extent (S128x32.size a)) fun a => (Nat.zero_add _).trans_le (Pipeline.Clip.extent_le (Pipeline.Clip.ok_of (hstart4_3 i a)))).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def dot_S128x10000_S10000x256_S128x256_1_0_0_1_n_n : DotDims S128x10000 S10000x256 S128x256 where
  lhsContracting := [1]
  rhsContracting := [0]
  lhsNonContracting := [0]
  rhsNonContracting := [1]
  lhsBatch := []
  rhsBatch := []
  wf := dot_S128x10000_S10000x256_S128x256_1_0_0_1_n_n_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf
def dot_S128x10000_S10000x128_S128x128_1_0_0_1_n_n : DotDims S128x10000 S10000x128 S128x128 where
  lhsContracting := [1]
  rhsContracting := [0]
  lhsNonContracting := [0]
  rhsNonContracting := [1]
  lhsBatch := []
  rhsBatch := []
  wf := dot_S128x10000_S10000x128_S128x128_1_0_0_1_n_n_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf
def dot_S128x10000_S10000x64_S128x64_1_0_0_1_n_n : DotDims S128x10000 S10000x64 S128x64 where
  lhsContracting := [1]
  rhsContracting := [0]
  lhsNonContracting := [0]
  rhsNonContracting := [1]
  lhsBatch := []
  rhsBatch := []
  wf := dot_S128x10000_S10000x64_S128x64_1_0_0_1_n_n_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf
def dot_S128x10000_S10000x32_S128x32_1_0_0_1_n_n : DotDims S128x10000 S10000x32 S128x32 where
  lhsContracting := [1]
  rhsContracting := [0]
  lhsNonContracting := [0]
  rhsNonContracting := [1]
  lhsBatch := []
  rhsBatch := []
  wf := dot_S128x10000_S10000x32_S128x32_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpecClip (Memref.whole main_arg1) S128x10000.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_v0) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpecClip (Memref.whole main_v2_0) S128x10000.size cc1_transform_4 reads1_4 true false 2 stage1_4 sem1_4
    hrank1 hreads1_4 hstart1_4 nbuf1_4 (Memref.isWhole_whole _) hwx1_4 hwxs1_4 hstage1_4

abbrev win1_5 : Pipeline.Window sig grid1 :=
  Pipeline.Window.ofSpecClip (Memref.whole main_v2_1) S128x128.size cc1_transform_5 reads1_5 true false 2 stage1_5 sem1_5
    hrank1 hreads1_5 hstart1_5 nbuf1_5 (Memref.isWhole_whole _) hwx1_5 hwxs1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpecClip (Memref.whole main_v2_0) S128x10000.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpec (Memref.whole main_v2_1) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpecClip (Memref.whole main_v4) S128x64.size cc2_transform_4 reads2_4 true false 2 stage2_4 sem2_4
    hrank2 hreads2_4 hstart2_4 nbuf2_4 (Memref.isWhole_whole _) hwx2_4 hwxs2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpecClip (Memref.whole main_v2_0) S128x10000.size cc3_transform_0 reads3_0 false false 2 stage3_0 sem3_0
    hrank3 hreads3_0 hstart3_0 nbuf3_0 (Memref.isWhole_whole _) hwx3_0 hwxs3_0 hstage3_0

abbrev win3_1 : Pipeline.Window sig grid3 :=
  Pipeline.Window.ofSpec (Memref.whole main_v4) S10000x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v5) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S64x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpecClip (Memref.whole main_v6) S128x32.size cc3_transform_4 reads3_4 true false 2 stage3_4 sem3_4
    hrank3 hreads3_4 hstart3_4 nbuf3_4 (Memref.isWhole_whole _) hwx3_4 hwxs3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpecClip (Memref.whole main_v2_0) S128x10000.size cc4_transform_0 reads4_0 false false 2 stage4_0 sem4_0
    hrank4 hreads4_0 hstart4_0 nbuf4_0 (Memref.isWhole_whole _) hwx4_0 hwxs4_0 hstage4_0

abbrev win4_1 : Pipeline.Window sig grid4 :=
  Pipeline.Window.ofSpec (Memref.whole main_v6) S10000x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v7) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpecClip (Memref.whole main_v8) S128x32.size cc4_transform_3 reads4_3 true false 2 stage4_3 sem4_3
    hrank4 hreads4_3 hstart4_3 nbuf4_3 (Memref.isWhole_whole _) hwx4_3 hwxs4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S10000x512 : Shape := ⟨2, ![10000, 512]⟩
abbrev S10000x10000 : Shape := ⟨2, ![10000, 10000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S10000x256 : Shape := ⟨2, ![10000, 256]⟩
abbrev S1x256 : Shape := ⟨2, ![1, 256]⟩
abbrev S_ : Shape := ⟨0, ![]⟩
abbrev S10000x128 : Shape := ⟨2, ![10000, 128]⟩
abbrev S1x128 : Shape := ⟨2, ![1, 128]⟩
abbrev S10000x64 : Shape := ⟨2, ![10000, 64]⟩
abbrev S1x64 : Shape := ⟨2, ![1, 64]⟩
abbrev S10000x32 : Shape := ⟨2, ![10000, 32]⟩
abbrev S1x32 : Shape := ⟨2, ![1, 32]⟩

abbrev nBuf : Space → Nat
  | .hbm => 42
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S10000x512, .f32⟩
  | .hbm, ⟨11, _⟩ => ⟨S10000x256, .f32⟩
  | .hbm, ⟨12, _⟩ => ⟨S1x256, .f32⟩
  | .hbm, ⟨13, _⟩ => ⟨S10000x256, .f32⟩
  | .hbm, ⟨14, _⟩ => ⟨S10000x256, .f32⟩
  | .hbm, ⟨15, _⟩ => ⟨S_, .f32⟩
  | .hbm, ⟨16, _⟩ => ⟨S10000x256, .f32⟩
  | .hbm, ⟨17, _⟩ => ⟨S10000x256, .f32⟩
  | .hbm, ⟨18, _⟩ => ⟨S10000x256, .f32⟩
  | .hbm, ⟨19, _⟩ => ⟨S10000x128, .f32⟩
  | .hbm, ⟨20, _⟩ => ⟨S1x128, .f32⟩
  | .hbm, ⟨21, _⟩ => ⟨S10000x128, .f32⟩
  | .hbm, ⟨22, _⟩ => ⟨S10000x128, .f32⟩
  | .hbm, ⟨23, _⟩ => ⟨S_, .f32⟩
  | .hbm, ⟨24, _⟩ => ⟨S10000x128, .f32⟩
  | .hbm, ⟨25, _⟩ => ⟨S10000x128, .f32⟩
  | .hbm, ⟨26, _⟩ => ⟨S10000x128, .f32⟩
  | .hbm, ⟨27, _⟩ => ⟨S10000x64, .f32⟩
  | .hbm, ⟨28, _⟩ => ⟨S1x64, .f32⟩
  | .hbm, ⟨29, _⟩ => ⟨S10000x64, .f32⟩
  | .hbm, ⟨30, _⟩ => ⟨S10000x64, .f32⟩
  | .hbm, ⟨31, _⟩ => ⟨S_, .f32⟩
  | .hbm, ⟨32, _⟩ => ⟨S10000x64, .f32⟩
  | .hbm, ⟨33, _⟩ => ⟨S10000x64, .f32⟩
  | .hbm, ⟨34, _⟩ => ⟨S10000x64, .f32⟩
  | .hbm, ⟨35, _⟩ => ⟨S10000x32, .f32⟩
  | .hbm, ⟨36, _⟩ => ⟨S1x32, .f32⟩
  | .hbm, ⟨37, _⟩ => ⟨S10000x32, .f32⟩
  | .hbm, ⟨38, _⟩ => ⟨S10000x32, .f32⟩
  | .hbm, ⟨39, _⟩ => ⟨S_, .f32⟩
  | .hbm, ⟨40, _⟩ => ⟨S10000x32, .f32⟩
  | .hbm, ⟨41, _⟩ => ⟨S10000x32, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_cst : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call2_cst : Ref sig .tc := ⟨.hbm, 31, rfl⟩
abbrev main_call2_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call3_cst : Ref sig .tc := ⟨.hbm, 39, rfl⟩
abbrev main_call3_v0 : Ref sig .tc := ⟨.hbm, 40, rfl⟩
abbrev main_v23 : Ref sig .tc := ⟨.hbm, 41, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S10000x32 : S_.BroadcastsInDim S10000x32 (![] : Fin 0 → Fin S10000x32.rank)
  dot_S10000x10000_S10000x512_S10000x512_1_0_0_1_n_n_wf : DotDims.WF S10000x10000 S10000x512 S10000x512 [1] [0] [0] [1] [] []
  dot_S10000x512_S512x256_S10000x256_1_0_0_1_n_n_wf : DotDims.WF S10000x512 S512x256 S10000x256 [1] [0] [0] [1] [] []
  dot_S10000x10000_S10000x256_S10000x256_1_0_0_1_n_n_wf : DotDims.WF S10000x10000 S10000x256 S10000x256 [1] [0] [0] [1] [] []
  dot_S10000x256_S256x128_S10000x128_1_0_0_1_n_n_wf : DotDims.WF S10000x256 S256x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x32_S10000x32_1_0_0_1_n_n_wf : DotDims.WF S10000x64 S64x32 S10000x32 [1] [0] [0] [1] [] []

variable [Facts₀]

def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf

class Facts : Prop extends Facts₀ where

variable [Facts]
-- ==== Proof.KBody.lean ====
/-
  The five kernel bodies run on whole staging buffers.  Each body loads its operands whole, computes, and stores each
  result whole: so it runs without a fault from any contents of the result buffers, leaves the operand buffers as
  they were, and leaves in each result buffer the body's arithmetic of the loaded operands.  Stated at any
  interpretation of the floats.
-/
import proofs.«164197_g26036091748832_cont_9to1_1945_4_alg».proof.Proof.Gen.Kernel.Launch
import proofs.«164197_g26036091748832_cont_9to1_1945_4_alg».proof.Proof.Gen.Kernel.Skeleton
import proofs.«164197_g26036091748832_cont_9to1_1945_4_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- Offsets `![0, 0]` are the zero offsets: every access of the bodies is at the origin of its buffer. -/
private theorem hz2 : (![0, 0] : Fin 2 → Nat) = fun _ => 0 := funext fun a => by fin_cases a <;> rfl

set_option maxHeartbeats 1000000 in
/-- The body of region 0 on whole staging memrefs: from the inputs' memrefs at `x…` and the outputs' at anything it runs,
    without a fault, to the inputs' as they were and each output's at the body's arithmetic of the loaded values. -/
theorem sound_kernel0 (c : Dev nD) (E : Set ℕ) (i : grid0.Coords) (arg1 : Memref sig .tc .vmem S2000x512 .f32) (harg1 : arg1.IsWhole) (arg2 : Memref sig .tc .vmem S512x256 .f32) (harg2 : arg2.IsWhole) (arg3 : Memref sig .tc .vmem S2000x256 .bf16) (harg3 : arg3.IsWhole)
    (x1 : Vec F S2000x512 .f32) (x2 : Vec F S512x256 .f32) (K : PUnit → sProp 𝕄) :
    iprop(owns (c : Thread nD τ) arg1 fullShare x1 ∗ owns (c : Thread nD τ) arg2 fullShare x2 ∗ (∃ d, owns (c : Thread nD τ) arg3 fullShare d)
        ∗ (iprop(owns (c : Thread nD τ) arg1 fullShare x1 ∗ owns (c : Thread nD τ) arg2 fullShare x2 ∗ owns (c : Thread nD τ) arg3 fullShare (k0_pay1 x1 x2)) -∗ K ⟨⟩))
      ⊢ wp frame (wpE (defs₀ (F := F)) Variants.none c none) E (cc0__xw_body i arg1 harg1 arg2 harg2 arg3 harg3) K := by
  simp only [cc0__xw_body_eq_skeleton]; unfold cc0__xw_body_skel
  -- ownership of a memref at contents `x` is its cells at some raw contents that read `x`
  unfold owns
  iintro ⟨⟨%f1, %hf1, H1⟩, ⟨%f2, %hf2, H2⟩, ⟨%d3, %f3, -, H3⟩, Hk⟩
  subst hf1; subst hf2
  -- run the loads and the stores: every access is in range, each buffer is held whole
  sl_exec
  sl_step
  iapply Hk
  -- the operand buffers were only read: they hold what they held
  isplitl [H1]
  · iexists f1; isplitr; · ipureintro; rfl
    iexact H1
  isplitl [H2]
  · iexists f2; isplitr; · ipureintro; rfl
    iexact H2
  iexists _; isplitr
  swap; · iexact H3
  -- one store over the whole buffer leaves its payload, and a load of a whole buffer reads its contents
  ipureintro
  rw [View.read_writes_eq_canon _ _ _ (fun y => ⟨_, List.mem_singleton_self _, View.mem_set_unit_zero hz2 inb_S2000x256_S2000x256_0_0 y⟩),
      View.canon_unit_zero hz2 inb_S2000x256_S2000x256_0_0, View.readAt_eq_ld, View.readAt_eq_ld,
      View.ld_unit_zero (S := S2000x512) hz2 inb_S2000x512_S2000x512_0_0, View.ld_unit_zero (S := S512x256) hz2 inb_S512x256_S512x256_0_0]

set_option maxHeartbeats 1000000 in
/-- The body of region 1 on whole staging memrefs: from the inputs' memrefs at `x…` and the outputs' at anything it runs,
    without a fault, to the inputs' as they were and each output's at the body's arithmetic of the loaded values. -/
theorem sound_kernel1 (c : Dev nD) (E : Set ℕ) (i : grid1.Coords) (arg1 : Memref sig .tc .vmem S128x10000 .f32) (harg1 : arg1.IsWhole) (arg2 : Memref sig .tc .vmem S10000x256 .bf16) (harg2 : arg2.IsWhole) (arg3 : Memref sig .tc .vmem S1x256 .f32) (harg3 : arg3.IsWhole) (arg4 : Memref sig .tc .vmem S256x128 .f32) (harg4 : arg4.IsWhole) (arg5 : Memref sig .tc .vmem S128x10000 .bf16) (harg5 : arg5.IsWhole) (arg6 : Memref sig .tc .vmem S128x128 .bf16) (harg6 : arg6.IsWhole)
    (x1 : Vec F S128x10000 .f32) (x2 : Vec F S10000x256 .bf16) (x3 : Vec F S1x256 .f32) (x4 : Vec F S256x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (k1_pay1 x1) ∗ owns (c : Thread nD τ) arg6 fullShare (k1_pay2 x1 x2 x3 x4)) -∗ K ⟨⟩))
      ⊢ wp frame (wpE (defs₀ (F := F)) Variants.none c none) E (cc1__layer1_body i arg1 harg1 arg2 harg2 arg3 harg3 arg4 harg4 arg5 harg5 arg6 harg6) K := by
  simp only [cc1__layer1_body_eq_skeleton]; unfold cc1__layer1_body_skel
  -- ownership of a memref at contents `x` is its cells at some raw contents that read `x`
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1; subst hf2; subst hf3; subst hf4
  -- run the loads and the stores: every access is in range, each buffer is held whole
  sl_exec
  sl_step
  iapply Hk
  -- the operand buffers were only read: they hold what they held
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    -- one store over the whole buffer leaves its payload, and a load of a whole buffer reads its contents
    ipureintro
    rw [View.read_writes_eq_canon _ _ _ (fun y => ⟨_, List.mem_singleton_self _, View.mem_set_unit_zero hz2 inb_S128x10000_S128x10000_0_0 y⟩),
      View.canon_unit_zero hz2 inb_S128x10000_S128x10000_0_0, View.readAt_eq_ld,
      View.ld_unit_zero (S := S128x10000) hz2 inb_S128x10000_S128x10000_0_0]
  iexists _; isplitr
  swap; · iexact H6
  -- one store over the whole buffer leaves its payload, and a load of a whole buffer reads its contents
  ipureintro
  rw [View.read_writes_eq_canon _ _ _ (fun y => ⟨_, List.mem_singleton_self _, View.mem_set_unit_zero hz2 inb_S128x128_S128x128_0_0 y⟩),
      View.canon_unit_zero hz2 inb_S128x128_S128x128_0_0, View.readAt_eq_ld, View.readAt_eq_ld, View.readAt_eq_ld, View.readAt_eq_ld,
      View.ld_unit_zero (S := S128x10000) hz2 inb_S128x10000_S128x10000_0_0, View.ld_unit_zero (S := S10000x256) hz2 inb_S10000x256_S10000x256_0_0, View.ld_unit_zero (S := S1x256) hz2 inb_S1x256_S1x256_0_0, View.ld_unit_zero (S := S256x128) hz2 inb_S256x128_S256x128_0_0]

set_option maxHeartbeats 1000000 in
/-- The body of region 2 on whole staging memrefs: from the inputs' memrefs at `x…` and the outputs' at anything it runs,
    without a fault, to the inputs' as they were and each output's at the body's arithmetic of the loaded values. -/
theorem sound_kernel2 (c : Dev nD) (E : Set ℕ) (i : grid2.Coords) (arg1 : Memref sig .tc .vmem S128x10000 .bf16) (harg1 : arg1.IsWhole) (arg2 : Memref sig .tc .vmem S10000x128 .bf16) (harg2 : arg2.IsWhole) (arg3 : Memref sig .tc .vmem S1x128 .f32) (harg3 : arg3.IsWhole) (arg4 : Memref sig .tc .vmem S128x64 .f32) (harg4 : arg4.IsWhole) (arg5 : Memref sig .tc .vmem S128x64 .bf16) (harg5 : arg5.IsWhole)
    (x1 : Vec F S128x10000 .bf16) (x2 : Vec F S10000x128 .bf16) (x3 : Vec F S1x128 .f32) (x4 : Vec F S128x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (k2_pay1 x1 x2 x3 x4)) -∗ K ⟨⟩))
      ⊢ wp frame (wpE (defs₀ (F := F)) Variants.none c none) E (cc2__layer_body i arg1 harg1 arg2 harg2 arg3 harg3 arg4 harg4 arg5 harg5) K := by
  simp only [cc2__layer_body_eq_skeleton]; unfold cc2__layer_body_skel
  -- ownership of a memref at contents `x` is its cells at some raw contents that read `x`
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  -- run the loads and the stores: every access is in range, each buffer is held whole
  sl_exec
  sl_step
  iapply Hk
  -- the operand buffers were only read: they hold what they held
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  -- one store over the whole buffer leaves its payload, and a load of a whole buffer reads its contents
  ipureintro
  rw [View.read_writes_eq_canon _ _ _ (fun y => ⟨_, List.mem_singleton_self _, View.mem_set_unit_zero hz2 inb_S128x64_S128x64_0_0 y⟩),
      View.canon_unit_zero hz2 inb_S128x64_S128x64_0_0, View.readAt_eq_ld, View.readAt_eq_ld, View.readAt_eq_ld, View.readAt_eq_ld,
      View.ld_unit_zero (S := S128x10000) hz2 inb_S128x10000_S128x10000_0_0, View.ld_unit_zero (S := S10000x128) hz2 inb_S10000x128_S10000x128_0_0, View.ld_unit_zero (S := S1x128) hz2 inb_S1x128_S1x128_0_0, View.ld_unit_zero (S := S128x64) hz2 inb_S128x64_S128x64_0_0]

set_option maxHeartbeats 1000000 in
/-- The body of region 3 on whole staging memrefs: from the inputs' memrefs at `x…` and the outputs' at anything it runs,
    without a fault, to the inputs' as they were and each output's at the body's arithmetic of the loaded values. -/
theorem sound_kernel3 (c : Dev nD) (E : Set ℕ) (i : grid3.Coords) (arg1 : Memref sig .tc .vmem S128x10000 .bf16) (harg1 : arg1.IsWhole) (arg2 : Memref sig .tc .vmem S10000x64 .bf16) (harg2 : arg2.IsWhole) (arg3 : Memref sig .tc .vmem S1x64 .f32) (harg3 : arg3.IsWhole) (arg4 : Memref sig .tc .vmem S64x32 .f32) (harg4 : arg4.IsWhole) (arg5 : Memref sig .tc .vmem S128x32 .bf16) (harg5 : arg5.IsWhole)
    (x1 : Vec F S128x10000 .bf16) (x2 : Vec F S10000x64 .bf16) (x3 : Vec F S1x64 .f32) (x4 : Vec F S64x32 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (k3_pay1 x1 x2 x3 x4)) -∗ K ⟨⟩))
      ⊢ wp frame (wpE (defs₀ (F := F)) Variants.none c none) E (cc3__layer_body i arg1 harg1 arg2 harg2 arg3 harg3 arg4 harg4 arg5 harg5) K := by
  simp only [cc3__layer_body_eq_skeleton]; unfold cc3__layer_body_skel
  -- ownership of a memref at contents `x` is its cells at some raw contents that read `x`
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  -- run the loads and the stores: every access is in range, each buffer is held whole
  sl_exec
  sl_step
  iapply Hk
  -- the operand buffers were only read: they hold what they held
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  -- one store over the whole buffer leaves its payload, and a load of a whole buffer reads its contents
  ipureintro
  rw [View.read_writes_eq_canon _ _ _ (fun y => ⟨_, List.mem_singleton_self _, View.mem_set_unit_zero hz2 inb_S128x32_S128x32_0_0 y⟩),
      View.canon_unit_zero hz2 inb_S128x32_S128x32_0_0, View.readAt_eq_ld, View.readAt_eq_ld, View.readAt_eq_ld, View.readAt_eq_ld,
      View.ld_unit_zero (S := S128x10000) hz2 inb_S128x10000_S128x10000_0_0, View.ld_unit_zero (S := S10000x64) hz2 inb_S10000x64_S10000x64_0_0, View.ld_unit_zero (S := S1x64) hz2 inb_S1x64_S1x64_0_0, View.ld_unit_zero (S := S64x32) hz2 inb_S64x32_S64x32_0_0]

set_option maxHeartbeats 1000000 in
/-- The body of region 4 on whole staging memrefs: from the inputs' memrefs at `x…` and the outputs' at anything it runs,
    without a fault, to the inputs' as they were and each output's at the body's arithmetic of the loaded values. -/
theorem sound_kernel4 (c : Dev nD) (E : Set ℕ) (i : grid4.Coords) (arg1 : Memref sig .tc .vmem S128x10000 .bf16) (harg1 : arg1.IsWhole) (arg2 : Memref sig .tc .vmem S10000x32 .bf16) (harg2 : arg2.IsWhole) (arg3 : Memref sig .tc .vmem S1x32 .f32) (harg3 : arg3.IsWhole) (arg4 : Memref sig .tc .vmem S128x32 .f32) (harg4 : arg4.IsWhole)
    (x1 : Vec F S128x10000 .bf16) (x2 : Vec F S10000x32 .bf16) (x3 : Vec F S1x32 .f32) (K : PUnit → sProp 𝕄) :
    iprop(owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg1 fullShare x1 ∗ owns (c : Thread nD τ) arg2 fullShare x2 ∗ owns (c : Thread nD τ) arg3 fullShare x3 ∗ owns (c : Thread nD τ) arg4 fullShare (k4_pay1 x1 x2 x3)) -∗ K ⟨⟩))
      ⊢ wp frame (wpE (defs₀ (F := F)) Variants.none c none) E (cc4__last_body i arg1 harg1 arg2 harg2 arg3 harg3 arg4 harg4) K := by
  simp only [cc4__last_body_eq_skeleton]; unfold cc4__last_body_skel
  -- ownership of a memref at contents `x` is its cells at some raw contents that read `x`
  unfold owns
  iintro ⟨⟨%f1, %hf1, H1⟩, ⟨%f2, %hf2, H2⟩, ⟨%f3, %hf3, H3⟩, ⟨%d4, %f4, -, H4⟩, Hk⟩
  subst hf1; subst hf2; subst hf3
  -- run the loads and the stores: every access is in range, each buffer is held whole
  sl_exec
  sl_step
  iapply Hk
  -- the operand buffers were only read: they hold what they held
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  -- one store over the whole buffer leaves its payload, and a load of a whole buffer reads its contents
  ipureintro
  rw [View.read_writes_eq_canon _ _ _ (fun y => ⟨_, List.mem_singleton_self _, View.mem_set_unit_zero hz2 inb_S128x32_S128x32_0_0 y⟩),
      View.canon_unit_zero hz2 inb_S128x32_S128x32_0_0, View.readAt_eq_ld, View.readAt_eq_ld, View.readAt_eq_ld,
      View.ld_unit_zero (S := S128x10000) hz2 inb_S128x10000_S128x10000_0_0, View.ld_unit_zero (S := S10000x32) hz2 inb_S10000x32_S10000x32_0_0, View.ld_unit_zero (S := S1x32) hz2 inb_S1x32_S1x32_0_0]

end Cert.Kernel.Hand

end
-- ==== Proof.KRDat.lean ====
/-
  The word-level kernel program's regions as the pipeline's proof data.
  Region 0 walks blocks that tile its arrays exactly, so what it leaves is a named function of what it finds.
  Regions 1 to 4 walk 128-row blocks of which the last overhangs the arrays' 10000 rows; the words a cut fetch leaves
  past the array's end are not named, and at the word level a matrix product is one opaque function of its whole
  left operand: so of what those bodies leave in a staging buffer nothing is claimed, only that they run.
-/
import proofs.«164197_g26036091748832_cont_9to1_1945_4_alg».proof.Proof.KBody
import Idealize.ShloMosaic.Lib.Pipeline.FrameBody
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Pipeline (RDat)

variable {F : FTy → Type} [FloatOps F]

local notation "𝕄" => MT nD τ sig Unit (Elt F) ℕ (UR sig nD τ) ℕ

/-! ## Region 0, exactly -/

/-- Window `w`'s block at point `t`, read off its array as region 0 finds it. -/
def iblk0 (V : Dev nD → Valuation τ sig (Elt F)) (c : Dev nD) (w : Fin cfg0.W) (t : Fin cfg0.N) :
    ((cfg0.win w).xblock (cfg0.grid.coords t)).Idx → Elt F (cfg0.win w).elt :=
  ((cfg0.win w).blk t).view.read (Elt F) (V c (Proc.devRef .tc (Pipeline.arrRef spec0 w)))

/-- Region 0's exact proof data: after the body each operand's buffer holds its block and the result's the product of the two blocks. -/
def dat0 (V : Dev nD → Valuation τ sig (Elt F)) (c : Dev nD) : Dat τ (Elt F) Unit ℕ (UR sig nD τ) ℕ cfg0 c where
  A w := V c (Proc.devRef .tc (Pipeline.arrRef spec0 w))
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

/-- The proof data's arrays are the entry contents. -/
private theorem A_eq0 (V : Dev nD → Valuation τ sig (Elt F)) (c : Dev nD) (w : Fin cfg0.W) :
    (dat0 V c).A w = V c (Proc.devRef .tc (Pipeline.arrRef spec0 w)) := by
  dsimp only [dat0]

/-- What the body leaves, window by window. -/
private theorem after0_0 (V : Dev nD → Valuation τ sig (Elt F)) (c : Dev nD) (t : Fin cfg0.N) :
    (dat0 V c).after 0 t = iblk0 V c 0 t := by dsimp only [dat0]
private theorem after0_1 (V : Dev nD → Valuation τ sig (Elt F)) (c : Dev nD) (t : Fin cfg0.N) :
    (dat0 V c).after 1 t = iblk0 V c 1 t := by dsimp only [dat0]
private theorem after0_2 (V : Dev nD → Valuation τ sig (Elt F)) (c : Dev nD) (t : Fin cfg0.N) :
    (dat0 V c).after 2 t = k0_pay1 (iblk0 V c 0 t) (iblk0 V c 1 t) := by dsimp only [dat0]

/-- Operand window 0's current staging buffer holds its block at every point: the window is uncut and never idle,
    the body leaves the block in place, and an unfetched point has the block index of the point before it. -/
private theorem before0_0 (V : Dev nD → Valuation τ sig (Elt F)) (c : Dev nD) (t : Fin cfg0.N) (d) :
    (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- Operand window 1 is the whole weight array, fetched at the first point only: at every later point its block
    index has not moved, so its buffer still holds the array. -/
private theorem before0_1 (V : Dev nD → Valuation τ sig (Elt F)) (c : Dev nD) (t : Fin cfg0.N) (d) :
    (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- What the body is called with at point `t`, the windows one by one, -/
private def bodyPre0 (V : Dev nD → Valuation τ sig (Elt F)) (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
private def bodyPost0 (V : Dev nD → Valuation τ sig (Elt F)) (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the operands' buffers hold their blocks, so the body's triple applies; the invariant and
    what the core owes pass through unread. -/
private theorem sound_body0 (V : Dev nD → Valuation τ sig (Elt F)) (c : Dev nD) (t : Fin cfg0.N) :
    bodyPre0 V c t ⊢ wp frame (wpE (defs₀ (F := F)) Variants.none c none) Set.univ (Gen.bodyAt0 t) (fun _ => bodyPost0 V c t) := by
  unfold bodyPre0 bodyPost0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The exact body obligation of region 0. -/
theorem body0 (V : Dev nD → Valuation τ sig (Elt F)) (c : Dev nD) :
    BodyObligation (dat0 V c) (defs₀ (F := F)) Variants.none () Set.univ := fun t => by
  rw [Gen.bigSep_W0, Gen.bigSep_W0]
  exact sound_body0 V c t

/-! ## Regions 1 to 4, relationally -/

/-- Region 1's relational proof data on core `c`: the arrays as the region finds them (`V`); of what the body leaves in a
    staging buffer nothing is said; the invariant that rides along untouched; nothing owed; full shares. -/
def rdat1 (V : Dev nD → Valuation τ sig (Elt F)) (c : Dev nD) : RDat τ (Elt F) Unit ℕ (UR sig nD τ) ℕ cfg1 c where
  A w := V c (Proc.devRef .tc (Pipeline.arrRef spec1 w))
  after _ _ _ _ := True
  Φ _ := Pipeline.ΦA spec1 c
  q _ := fullShare
  owed _ := 0

/-- The body runs at every grid point from whatever the staging buffers hold, and leaves them holding something. -/
theorem rbody1 (V : Dev nD → Valuation τ sig (Elt F)) (c : Dev nD) :
    (rdat1 V c).BodyObligation (defs₀ (F := F)) Variants.none () Set.univ := fun t Y _ => by
  rw [Gen.bigSep_W1, Gen.bigSep_W1]
  show iprop((rdat1 V c).Φ t.castSucc ∗ (rdat1 V c).owesAt () t.castSucc
        ∗ owns (c : Thread nD τ) (st1_0 t) fullShare (Y 0) ∗ owns (c : Thread nD τ) (st1_1 t) fullShare (Y 1)
        ∗ owns (c : Thread nD τ) (st1_2 t) fullShare (Y 2) ∗ owns (c : Thread nD τ) (st1_3 t) fullShare (Y 3)
        ∗ owns (c : Thread nD τ) (st1_4 t) fullShare (Y 4) ∗ owns (c : Thread nD τ) (st1_5 t) fullShare (Y 5))
      ⊢ wp frame (wpE (defs₀ (F := F)) Variants.none c none) Set.univ (Gen.bodyAt1 t) _
  iintro ⟨HΦ, Ho, H0, H1, H2, H3, H4, H5⟩
  iapply (sound_kernel1 c Set.univ _ _ _ _ _ _ _ _ _ _ _ _ _ (Y 0) (Y 1) (Y 2) (Y 3) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  rw [show (rdat1 V c).Φ t.succ = (rdat1 V c).Φ t.castSucc from rfl,
    show (rdat1 V c).owesAt () t.succ = (rdat1 V c).owesAt () t.castSucc from rfl]
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  isplitl [H3]
  · iexists (Y 3); isplitr; · ipureintro; trivial
    iexact H3
  isplitl [H4]
  · iexists (k1_pay1 (Y 0)); isplitr; · ipureintro; trivial
    iexact H4
  · iexists (k1_pay2 (Y 0) (Y 1) (Y 2) (Y 3)); isplitr; · ipureintro; trivial
    iexact H5

/-- Region 2's relational proof data on core `c`: the arrays as the region finds them (`V`); of what the body leaves in a
    staging buffer nothing is said; the invariant that rides along untouched; nothing owed; full shares. -/
def rdat2 (V : Dev nD → Valuation τ sig (Elt F)) (c : Dev nD) : RDat τ (Elt F) Unit ℕ (UR sig nD τ) ℕ cfg2 c where
  A w := V c (Proc.devRef .tc (Pipeline.arrRef spec2 w))
  after _ _ _ _ := True
  Φ _ := Pipeline.ΦA spec2 c
  q _ := fullShare
  owed _ := 0

/-- The body runs at every grid point from whatever the staging buffers hold, and leaves them holding something. -/
theorem rbody2 (V : Dev nD → Valuation τ sig (Elt F)) (c : Dev nD) :
    (rdat2 V c).BodyObligation (defs₀ (F := F)) Variants.none () Set.univ := fun t Y _ => by
  rw [Gen.bigSep_W2, Gen.bigSep_W2]
  show iprop((rdat2 V c).Φ t.castSucc ∗ (rdat2 V c).owesAt () t.castSucc
        ∗ owns (c : Thread nD τ) (st2_0 t) fullShare (Y 0) ∗ owns (c : Thread nD τ) (st2_1 t) fullShare (Y 1)
        ∗ owns (c : Thread nD τ) (st2_2 t) fullShare (Y 2) ∗ owns (c : Thread nD τ) (st2_3 t) fullShare (Y 3)
        ∗ owns (c : Thread nD τ) (st2_4 t) fullShare (Y 4))
      ⊢ wp frame (wpE (defs₀ (F := F)) Variants.none c none) Set.univ (Gen.bodyAt2 t) _
  iintro ⟨HΦ, Ho, H0, H1, H2, H3, H4⟩
  iapply (sound_kernel2 c Set.univ _ _ _ _ _ _ _ _ _ _ _ (Y 0) (Y 1) (Y 2) (Y 3) _)
  isplitl [H0]; · iexact H0
  isplitl [H1]; · iexact H1
  isplitl [H2]; · iexact H2
  isplitl [H3]; · iexact H3
  isplitl [H4]; · iexists _; iexact H4
  iintro ⟨H0, H1, H2, H3, H4⟩
  rw [show (rdat2 V c).Φ t.succ = (rdat2 V c).Φ t.castSucc from rfl,
    show (rdat2 V c).owesAt () t.succ = (rdat2 V c).owesAt () t.castSucc from rfl]
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  isplitl [H3]
  · iexists (Y 3); isplitr; · ipureintro; trivial
    iexact H3
  · iexists (k2_pay1 (Y 0) (Y 1) (Y 2) (Y 3)); isplitr; · ipureintro; trivial
    iexact H4

/-- Region 3's relational proof data on core `c`: the arrays as the region finds them (`V`); of what the body leaves in a
    staging buffer nothing is said; the invariant that rides along untouched; nothing owed; full shares. -/
def rdat3 (V : Dev nD → Valuation τ sig (Elt F)) (c : Dev nD) : RDat τ (Elt F) Unit ℕ (UR sig nD τ) ℕ cfg3 c where
  A w := V c (Proc.devRef .tc (Pipeline.arrRef spec3 w))
  after _ _ _ _ := True
  Φ _ := Pipeline.ΦA spec3 c
  q _ := fullShare
  owed _ := 0

/-- The body runs at every grid point from whatever the staging buffers hold, and leaves them holding something. -/
theorem rbody3 (V : Dev nD → Valuation τ sig (Elt F)) (c : Dev nD) :
    (rdat3 V c).BodyObligation (defs₀ (F := F)) Variants.none () Set.univ := fun t Y _ => by
  rw [Gen.bigSep_W3, Gen.bigSep_W3]
  show iprop((rdat3 V c).Φ t.castSucc ∗ (rdat3 V c).owesAt () t.castSucc
        ∗ owns (c : Thread nD τ) (st3_0 t) fullShare (Y 0) ∗ owns (c : Thread nD τ) (st3_1 t) fullShare (Y 1)
        ∗ owns (c : Thread nD τ) (st3_2 t) fullShare (Y 2) ∗ owns (c : Thread nD τ) (st3_3 t) fullShare (Y 3)
        ∗ owns (c : Thread nD τ) (st3_4 t) fullShare (Y 4))
      ⊢ wp frame (wpE (defs₀ (F := F)) Variants.none c none) Set.univ (Gen.bodyAt3 t) _
  iintro ⟨HΦ, Ho, H0, H1, H2, H3, H4⟩
  iapply (sound_kernel3 c Set.univ _ _ _ _ _ _ _ _ _ _ _ (Y 0) (Y 1) (Y 2) (Y 3) _)
  isplitl [H0]; · iexact H0
  isplitl [H1]; · iexact H1
  isplitl [H2]; · iexact H2
  isplitl [H3]; · iexact H3
  isplitl [H4]; · iexists _; iexact H4
  iintro ⟨H0, H1, H2, H3, H4⟩
  rw [show (rdat3 V c).Φ t.succ = (rdat3 V c).Φ t.castSucc from rfl,
    show (rdat3 V c).owesAt () t.succ = (rdat3 V c).owesAt () t.castSucc from rfl]
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  isplitl [H3]
  · iexists (Y 3); isplitr; · ipureintro; trivial
    iexact H3
  · iexists (k3_pay1 (Y 0) (Y 1) (Y 2) (Y 3)); isplitr; · ipureintro; trivial
    iexact H4

/-- Region 4's relational proof data on core `c`: the arrays as the region finds them (`V`); of what the body leaves in a
    staging buffer nothing is said; the invariant that rides along untouched; nothing owed; full shares. -/
def rdat4 (V : Dev nD → Valuation τ sig (Elt F)) (c : Dev nD) : RDat τ (Elt F) Unit ℕ (UR sig nD τ) ℕ cfg4 c where
  A w := V c (Proc.devRef .tc (Pipeline.arrRef spec4 w))
  after _ _ _ _ := True
  Φ _ := Pipeline.ΦA spec4 c
  q _ := fullShare
  owed _ := 0

/-- The body runs at every grid point from whatever the staging buffers hold, and leaves them holding something. -/
theorem rbody4 (V : Dev nD → Valuation τ sig (Elt F)) (c : Dev nD) :
    (rdat4 V c).BodyObligation (defs₀ (F := F)) Variants.none () Set.univ := fun t Y _ => by
  rw [Gen.bigSep_W4, Gen.bigSep_W4]
  show iprop((rdat4 V c).Φ t.castSucc ∗ (rdat4 V c).owesAt () t.castSucc
        ∗ owns (c : Thread nD τ) (st4_0 t) fullShare (Y 0) ∗ owns (c : Thread nD τ) (st4_1 t) fullShare (Y 1)
        ∗ owns (c : Thread nD τ) (st4_2 t) fullShare (Y 2) ∗ owns (c : Thread nD τ) (st4_3 t) fullShare (Y 3))
      ⊢ wp frame (wpE (defs₀ (F := F)) Variants.none c none) Set.univ (Gen.bodyAt4 t) _
  iintro ⟨HΦ, Ho, H0, H1, H2, H3⟩
  iapply (sound_kernel4 c Set.univ _ _ _ _ _ _ _ _ _ (Y 0) (Y 1) (Y 2) _)
  isplitl [H0]; · iexact H0
  isplitl [H1]; · iexact H1
  isplitl [H2]; · iexact H2
  isplitl [H3]; · iexists _; iexact H3
  iintro ⟨H0, H1, H2, H3⟩
  rw [show (rdat4 V c).Φ t.succ = (rdat4 V c).Φ t.castSucc from rfl,
    show (rdat4 V c).owesAt () t.succ = (rdat4 V c).owesAt () t.castSucc from rfl]
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  · iexists (k4_pay1 (Y 0) (Y 1) (Y 2)); isplitr; · ipureintro; trivial
    iexact H3

end Cert.Kernel.Hand

end
-- ==== Proof.KRReg.lean ====
/-
  Regions 1 to 4 of the word-level kernel program as steps between thread states.  Between two items of the program a
  core holds every buffer that outlives a region whole, at some contents.  A region is entered with those contents
  known (`V`); it splits its own arrays out, runs its pipeline, and puts the arrays back at whatever the pipeline left:
  contents nothing names, of which only this is kept — every buffer that is not one of the region's result arrays
  holds what it held.
-/
import proofs.«164197_g26036091748832_cont_9to1_1945_4_alg».proof.Proof.KRDat
import proofs.«164197_g26036091748832_cont_9to1_1945_4_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Pipeline (RDat)

variable {F : FTy → Type} [FloatOps F]

local notation "𝕄" => MT nD τ sig Unit (Elt F) ℕ (UR sig nD τ) ℕ

/-- No kernel variant. -/
abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the core's generator register at some state and its debts, none. -/
abbrev R (c : Dev nD) : sProp 𝕄 := iprop((∃ r, prngReg c r) ∗ ∃ W, owes (c : Thread nD τ) (0 : CellTallies nD τ sig Unit) W)

/-! ## The protocol of a region whose data name nothing of what it leaves

Four facts, each for any pipeline of any family of relational data: the thread state splits into what the region's
entry wants; the class invariant is made of, and gives back, the generator register and the scoped buffers no window
stages; and at the exit the arrays, each at SOME contents its write-backs may have left, go back among the buffers at a
valuation that differs from the entry's only at the arrays of output windows. -/

section Protocol

variable {P : Type} (pcs : P → Pipeline.PCfg sig Λ₀ (Elt F)) (a : (p : P) → (pcs p).Adm)
  (rds : (p : P) → (c : Dev nD) → RDat τ (Elt F) Unit ℕ (UR sig nD τ) ℕ (Pipeline.pin pcs a p) c)

/-- A core owing nothing, whatever its waits have recorded, owes the data's tallies at a point where these are none and
    every pair may have been recorded. -/
theorem owesAt_of_owes {cfg : Cfg sig Λ₀} {c : Dev nD} (rd : RDat τ (Elt F) Unit ℕ (UR sig nD τ) ℕ cfg c) (t : Fin (cfg.N + 1))
    (h0 : rd.owed t = 0) (hrec : ∀ x, x ∈ rd.recorded t) :
    (iprop(∃ W, owes (c : Thread nD τ) (0 : CellTallies nD τ sig Unit) W) : sProp 𝕄) ⊢ rd.owesAt () t := by
  unfold Pipeline.RDat.owesAt Pipeline.owesWithin
  rw [h0]
  iintro ⟨%W, H⟩
  iexists W
  isplitr
  · ipureintro; exact fun x _ => Or.inl (hrec x)
  iexact H

/-- And back: what is known of the recorded pairs is forgotten. -/
theorem owes_of_owesAt {cfg : Cfg sig Λ₀} {c : Dev nD} (rd : RDat τ (Elt F) Unit ℕ (UR sig nD τ) ℕ cfg c) (t : Fin (cfg.N + 1))
    (h0 : rd.owed t = 0) :
    (rd.owesAt () t : sProp 𝕄) ⊢ iprop(∃ W, owes (c : Thread nD τ) (0 : CellTallies nD τ sig Unit) W) := by
  unfold Pipeline.RDat.owesAt Pipeline.owesWithin
  rw [h0]
  iintro ⟨%W, -, H⟩
  iexists W
  iexact H

/-- ENTRY. The buffers held at `W` are the pipeline's arrays at the data's entry contents (read off `W`) beside the
    buffers that bypass the region; a pipeline without prefetched tables holds none; the debts, none, are the data's first
    tallies; the generator register enters the invariant. Whatever else is at hand (`E`) is dropped. -/
theorem entry_of_held {p : P} (hw : Pipeline.WinFacts (Pipeline.pin pcs a p).spec)
    (harr : ∀ w, ((Pipeline.pin pcs a p).spec w).arr.IsWhole) (c : Dev nD)
    (hshare : ∀ w, (rds p c).share w = fullShare) (W : Valuation τ sig (Elt F))
    (hA : ∀ w, (rds p c).A w = W (Proc.devRef .tc (Pipeline.arrRef (Pipeline.pin pcs a p).spec w)))
    (h0 : (rds p c).owed 0 = 0) (hrec : ∀ x, x ∈ (rds p c).recorded 0)
    (hpre : IsEmpty (Fin (pcs p).pre.K)) (E : sProp 𝕄) :
    iprop((StableHlo.held (c : Thread nD τ) (Pipeline.ucRefs τ sig) W ∗ R c) ∗ E)
      ⊢ |={Set.univ}=> iprop((rds p c).arrays (rds p c).A ∗ Pipeline.prefHeld (pcs p).pre c (fun _ => fullShare) (a p).1
          ∗ (rds p c).owesAt () 0 ∗ (∃ r, prngReg c r)
          ∗ Pipeline.unscopedRest (Ix := Unit) (Name := ℕ) (U := UR sig nD τ) (Lvl := ℕ) (Pipeline.pin pcs a p).spec c
              (fun b => W (Proc.devRef .tc b))) := by
  have hsplit := Pipeline.RDat.arrays_of_unscopedBufs pcs a rds hw harr c hshare (fun b => W (Proc.devRef .tc b)) hA
  rw [Pipeline.unscopedBufs_held] at hsplit
  have hnone : (Pipeline.prefHeld (Ix := Unit) (Name := ℕ) (U := UR sig nD τ) (Lvl := ℕ) (pcs p).pre c (fun _ => fullShare) (a p).1 : sProp 𝕄)
      = BI.emp := by
    unfold Pipeline.prefHeld
    rw [Finset.univ_eq_empty, BI.bigSep_empty]
  rw [hnone]
  iintro ⟨⟨Hbufs, Hreg, Howes⟩, -⟩
  ihave Hs := hsplit $$ Hbufs
  icases Hs with ⟨Harr, Hrest⟩
  ihave Ho := (owesAt_of_owes (rds p c) 0 h0 hrec) $$ Howes
  imodintro
  isplitl [Harr]; · iexact Harr
  isplitr; · iempintro
  isplitl [Ho]; · iexact Ho
  isplitl [Hreg]; · iexact Hreg
  iexact Hrest

/-- The class invariant from the generator register and the scoped buffers no window stages; the tables, none, are dropped. -/
theorem ΦA_of_in {gr W : ℕ} (win : Fin W → Pipeline.WinSpec sig gr) (c : Dev nD) (T : sProp 𝕄) :
    iprop((∃ r, prngReg c r) ∗ T ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hreg, -, Hsc⟩
  isplitl [Hsc]; · iexact Hsc
  iexact Hreg

/-- The class invariant gives them back, beside the kernel's own semaphores, of which there are none. -/
theorem out_of_ΦA {gr W : ℕ} (win : Fin W → Pipeline.WinSpec sig gr) (c : Dev nD) :
    (Pipeline.ΦA win c : sProp 𝕄)
      ⊢ iprop((∃ r, prngReg c r) ∗ Pipeline.ownSems0 (fun k : PEmpty => k.elim) c
          ∗ Pipeline.scopedRest (Ix := Unit) (Name := ℕ) (U := UR sig nD τ) (Lvl := ℕ) (Val := Elt F) win c) := by
  rw [Pipeline.ownSems0_none]; unfold Pipeline.ΦA
  iintro ⟨Hsc, Hreg⟩
  isplitl [Hreg]; · iexact Hreg
  isplitr; · iempintro
  iexact Hsc

/-- EXIT. Each array is held at some contents its write-backs may have left; gather them into one family `G`, and let
    `V'` be `W` with the arrays at `G`. Then the arrays and the bypassing buffers are all the buffers held at `V'`.
    Off `outs`, `V'` is `W`: a buffer that is no array of the region is untouched; an array of an input window is never
    written back, so what it may hold is its entry contents, which `W` names; and an output window's array is in `outs`. -/
theorem post_of_exit {p : P} (hw : Pipeline.WinFacts (Pipeline.pin pcs a p).spec)
    (harr : ∀ w, ((Pipeline.pin pcs a p).spec w).arr.IsWhole) (c : Dev nD)
    (hshare : ∀ w, (rds p c).share w = fullShare) (W : Valuation τ sig (Elt F))
    (hA : ∀ w, (rds p c).A w = W (Proc.devRef .tc (Pipeline.arrRef (Pipeline.pin pcs a p).spec w)))
    (outs : List (Ref sig .tc))
    (houts : ∀ w, ((Pipeline.pin pcs a p).win w).isOut = true → Pipeline.arrRef (Pipeline.pin pcs a p).spec w ∈ outs)
    (n : ℕ) (t : Fin ((Pipeline.pin pcs a p).N + 1)) (h0 : (rds p c).owed t = 0) :
    iprop((rds p c).arraysAt n ∗ (rds p c).owesAt () t ∗ (∃ r, prngReg c r)
        ∗ Pipeline.unscopedRest (Ix := Unit) (Name := ℕ) (U := UR sig nD τ) (Lvl := ℕ) (Pipeline.pin pcs a p).spec c
            (fun b => W (Proc.devRef .tc b)))
      ⊢ |={Set.univ}=> iprop(∃ V' : Valuation τ sig (Elt F),
          ⌜∀ b : Ref sig .tc, b ∉ outs → V' (Proc.devRef .tc b) = W (Proc.devRef .tc b)⌝
          ∗ StableHlo.held (c : Thread nD τ) (Pipeline.ucRefs τ sig) V' ∗ R c) := by
  classical
  unfold Pipeline.RDat.arraysAt
  iintro ⟨Harr, Ho, Hreg, Hrest⟩
  -- one family of contents for all the arrays, each member one its array may hold
  ihave Hpi := (BI.bigSep_exists_pi Finset.univ (fun w G => iprop(⌜(rds p c).ArrAt w n G⌝
      ∗ ((Pipeline.pin pcs a p).win w).arr.view.loc (c : Thread nD τ) ↦[((Pipeline.pin pcs a p).win w).arr.view.set]{(rds p c).share w} G))) $$ Harr
  icases Hpi with ⟨%G, Harr⟩
  ihave Hps := (BI.bigSep_pure_sep Finset.univ (fun w => (rds p c).ArrAt w n (G w))
      (fun w => ((Pipeline.pin pcs a p).win w).arr.view.loc (c : Thread nD τ) ↦[((Pipeline.pin pcs a p).win w).arr.view.set]{(rds p c).share w} G w)) $$ Harr
  icases Hps with ⟨%hG, Harr⟩
  ihave Howes := (owes_of_owesAt (rds p c) t h0) $$ Ho
  imodintro
  iexists (Pipeline.withArrays (Pipeline.pin pcs a p).spec c W G)
  isplitr
  · ipureintro
    intro b hb
    by_cases h : ∃ w, Pipeline.arrRef (Pipeline.pin pcs a p).spec w = b
    · obtain ⟨w, rfl⟩ := h
      have hin : ((Pipeline.pin pcs a p).win w).isOut = false := by
        cases h' : ((Pipeline.pin pcs a p).win w).isOut
        · rfl
        · exact absurd (houts w h') hb
      have hw' := hG w (Finset.mem_univ w)
      rw [(rds p c).ArrAt_in w hin] at hw'
      rw [Pipeline.withArrays_arr _ hw.arr_inj c W G w, hw', hA w]
    · exact Pipeline.withArrays_of_ne _ c W G b fun w e => h ⟨w, e⟩
  isplitl [Harr Hrest]
  · rw [← Pipeline.unscopedBufs_held, Pipeline.unscopedBufs_split (Pipeline.pin pcs a) p hw.arr_unscoped hw.arr_inj c]
    isplitl [Harr]
    · iapply (Entails.of_eq (bigSep_congr (fun w _ => by
          rw [(harr w).set_eq_univ, hshare w, Pipeline.withArrays_arr _ hw.arr_inj c W G w]) :
        (bigSep Finset.univ fun w => (((Pipeline.pin pcs a p).win w).arr.view.loc (c : Thread nD τ) ↦[((Pipeline.pin pcs a p).win w).arr.view.set]{(rds p c).share w} G w : sProp 𝕄))
          = bigSep Finset.univ fun w => (((c : Thread nD τ).loc (Pipeline.arrRef (Pipeline.pin pcs a p).spec w)) ↦{fullShare}
              Pipeline.withArrays (Pipeline.pin pcs a p).spec c W G (Proc.devRef .tc (Pipeline.arrRef (Pipeline.pin pcs a p).spec w)) : sProp 𝕄)))
      iexact Harr
    · unfold Pipeline.unscopedRest
      iapply (Entails.of_eq (bigSep_congr (fun b hb => by
          rw [Pipeline.withArrays_of_ne (Pipeline.pin pcs a p).spec c W G b fun w e =>
            (Finset.mem_sdiff.mp hb).2 (Finset.mem_image.mpr ⟨w, Finset.mem_univ _, e⟩)]) :
        (bigSep ((Finset.univ.filter fun b : Ref sig .tc => ¬ b.isScoped) \ Finset.univ.image (Pipeline.arrRef (Pipeline.pin pcs a p).spec))
            fun b => (((c : Thread nD τ).loc b) ↦{fullShare} W (Proc.devRef .tc b) : sProp 𝕄))
          = bigSep ((Finset.univ.filter fun b : Ref sig .tc => ¬ b.isScoped) \ Finset.univ.image (Pipeline.arrRef (Pipeline.pin pcs a p).spec))
            fun b => (((c : Thread nD τ).loc b) ↦{fullShare}
              Pipeline.withArrays (Pipeline.pin pcs a p).spec c W G (Proc.devRef .tc b) : sProp 𝕄)))
      iexact Hrest
  isplitl [Hreg]; · iexact Hreg
  iexact Howes

end Protocol

/-- Region 0's data read relationally with nothing said (a member of the family below; its region is run from exact data). -/
def rdat0 (V : Dev nD → Valuation τ sig (Elt F)) (c : Dev nD) : RDat τ (Elt F) Unit ℕ (UR sig nD τ) ℕ cfg0 c where
  A w := V c (Proc.devRef .tc (Pipeline.arrRef spec0 w))
  after _ _ _ _ := True
  Φ _ := Pipeline.ΦA spec0 c
  q _ := fullShare
  owed _ := 0

/-- Every pipeline's relational data at ONE valuation of the buffers: the step that runs region `K` instantiates it at the
    contents region `K` is entered with. A literal match, so that at a numeral it reduces to that region's data. -/
def rdats (V : Dev nD → Valuation τ sig (Elt F)) : (p : Fin 5) → (c : Dev nD) → RDat τ (Elt F) Unit ℕ (UR sig nD τ) ℕ (Pipeline.pin (pcfgs (F := F)) adm p) c
  | ⟨0, _⟩ => fun c => rdat0 V c
  | ⟨1, _⟩ => fun c => rdat1 V c
  | ⟨2, _⟩ => fun c => rdat2 V c
  | ⟨3, _⟩ => fun c => rdat3 V c
  | ⟨4, _⟩ => fun c => rdat4 V c

/-- The thread state a region leaves: every unscoped buffer held at SOME contents that agree with the entry contents
    `V c` off the listed references, beside what rides along. -/
def regPost (outs : List (Ref sig .tc)) (V : Dev nD → Valuation τ sig (Elt F)) (c : Dev nD) : sProp 𝕄 :=
  iprop(∃ V' : Valuation τ sig (Elt F), ⌜∀ b : Ref sig .tc, b ∉ outs → V' (Proc.devRef .tc b) = V c (Proc.devRef .tc b)⌝
    ∗ StableHlo.held (c : Thread nD τ) (Pipeline.ucRefs τ sig) V' ∗ R c)

/-- The buffers region 1 may change. -/
abbrev outs1 : List (Ref sig .tc) := [main_v2_0, main_v2_1]
/-- Region 1's output windows write only these. -/
theorem outs1_of_isOut : ∀ w : Fin cfg1.W, (cfg1.win w).isOut = true → Pipeline.arrRef spec1 w ∈ outs1 := by decide

-- the entry and exit lemmas are stated over the pinned configuration: unification may unfold plain definitions in a
-- metavariable's type
set_option backward.isDefEq.respectTransparency.types false in
/-- REGION 1 over the thread state, at any entry contents `V`: entered from every unscoped buffer held at `V c`, left at SOME
    contents that agree with `V c` off the region's result arrays. -/
def rreg1 (V : Dev nD → Valuation τ sig (Elt F)) :
    Pipeline.RDat.RegionSeg (pcfgs (F := F)) adm (rdats V) () defs₀ 𝒱₀ L lv (1 : Fin 5) where
  win := launch1.win.to₀
  block_pos := launch1.block_pos
  stage_whole := launch1.stage_whole
  K := PEmpty
  osem k := k.elim
  ho := Pipeline.OwnSemFacts.none _
  hbody c := rbody1 V c
  hwaits := Pipeline.RDat.hwaits_of_owed_zero _ _ _ _ L lv 1 fun _ _ => rfl
  pre c := iprop(StableHlo.held (c : Thread nD τ) (Pipeline.ucRefs τ sig) (V c) ∗ R c)
  post c := regPost outs1 V c
  X c := iprop(∃ r, prngReg c r)
  Y c := iprop(∃ r, prngReg c r)
  Z c := Pipeline.unscopedRest (Ix := Unit) (Name := ℕ) (U := UR sig nD τ) (Lvl := ℕ) spec1 c (fun b => V c (Proc.devRef .tc b))
  hentry c :=
    entry_of_held (pcfgs (F := F)) adm (rdats V) (p := 1) launch1.win launch1.arr_whole c
      ((rdats V 1 c).share_full fun _ => rfl) (V c) (fun _ => rfl) rfl (fun _ => trivial) (inferInstanceAs (IsEmpty (Fin 0))) _
  hin c := ΦA_of_in spec1 c _
  hout c := out_of_ΦA spec1 c
  hexit c :=
    post_of_exit (pcfgs (F := F)) adm (rdats V) (p := 1) launch1.win launch1.arr_whole c
      ((rdats V 1 c).share_full fun _ => rfl) (V c) (fun _ => rfl) outs1 outs1_of_isOut _ _ rfl

theorem rreg1_pre (V : Dev nD → Valuation τ sig (Elt F)) (c : Dev nD) :
    (rreg1 V).pre c = iprop(StableHlo.held (c : Thread nD τ) (Pipeline.ucRefs τ sig) (V c) ∗ R c) := rfl
theorem rreg1_post (V : Dev nD → Valuation τ sig (Elt F)) (c : Dev nD) : (rreg1 V).post c = regPost outs1 V c := rfl

/-- The buffers region 2 may change. -/
abbrev outs2 : List (Ref sig .tc) := [main_v4]
/-- Region 2's output windows write only these. -/
theorem outs2_of_isOut : ∀ w : Fin cfg2.W, (cfg2.win w).isOut = true → Pipeline.arrRef spec2 w ∈ outs2 := by decide

-- the entry and exit lemmas are stated over the pinned configuration: unification may unfold plain definitions in a
-- metavariable's type
set_option backward.isDefEq.respectTransparency.types false in
/-- REGION 2 over the thread state, at any entry contents `V`: entered from every unscoped buffer held at `V c`, left at SOME
    contents that agree with `V c` off the region's result arrays. -/
def rreg2 (V : Dev nD → Valuation τ sig (Elt F)) :
    Pipeline.RDat.RegionSeg (pcfgs (F := F)) adm (rdats V) () defs₀ 𝒱₀ L lv (2 : Fin 5) where
  win := launch2.win.to₀
  block_pos := launch2.block_pos
  stage_whole := launch2.stage_whole
  K := PEmpty
  osem k := k.elim
  ho := Pipeline.OwnSemFacts.none _
  hbody c := rbody2 V c
  hwaits := Pipeline.RDat.hwaits_of_owed_zero _ _ _ _ L lv 2 fun _ _ => rfl
  pre c := iprop(StableHlo.held (c : Thread nD τ) (Pipeline.ucRefs τ sig) (V c) ∗ R c)
  post c := regPost outs2 V c
  X c := iprop(∃ r, prngReg c r)
  Y c := iprop(∃ r, prngReg c r)
  Z c := Pipeline.unscopedRest (Ix := Unit) (Name := ℕ) (U := UR sig nD τ) (Lvl := ℕ) spec2 c (fun b => V c (Proc.devRef .tc b))
  hentry c :=
    entry_of_held (pcfgs (F := F)) adm (rdats V) (p := 2) launch2.win launch2.arr_whole c
      ((rdats V 2 c).share_full fun _ => rfl) (V c) (fun _ => rfl) rfl (fun _ => trivial) (inferInstanceAs (IsEmpty (Fin 0))) _
  hin c := ΦA_of_in spec2 c _
  hout c := out_of_ΦA spec2 c
  hexit c :=
    post_of_exit (pcfgs (F := F)) adm (rdats V) (p := 2) launch2.win launch2.arr_whole c
      ((rdats V 2 c).share_full fun _ => rfl) (V c) (fun _ => rfl) outs2 outs2_of_isOut _ _ rfl

theorem rreg2_pre (V : Dev nD → Valuation τ sig (Elt F)) (c : Dev nD) :
    (rreg2 V).pre c = iprop(StableHlo.held (c : Thread nD τ) (Pipeline.ucRefs τ sig) (V c) ∗ R c) := rfl
theorem rreg2_post (V : Dev nD → Valuation τ sig (Elt F)) (c : Dev nD) : (rreg2 V).post c = regPost outs2 V c := rfl

/-- The buffers region 3 may change. -/
abbrev outs3 : List (Ref sig .tc) := [main_v6]
/-- Region 3's output windows write only these. -/
theorem outs3_of_isOut : ∀ w : Fin cfg3.W, (cfg3.win w).isOut = true → Pipeline.arrRef spec3 w ∈ outs3 := by decide

-- the entry and exit lemmas are stated over the pinned configuration: unification may unfold plain definitions in a
-- metavariable's type
set_option backward.isDefEq.respectTransparency.types false in
/-- REGION 3 over the thread state, at any entry contents `V`: entered from every unscoped buffer held at `V c`, left at SOME
    contents that agree with `V c` off the region's result arrays. -/
def rreg3 (V : Dev nD → Valuation τ sig (Elt F)) :
    Pipeline.RDat.RegionSeg (pcfgs (F := F)) adm (rdats V) () defs₀ 𝒱₀ L lv (3 : Fin 5) where
  win := launch3.win.to₀
  block_pos := launch3.block_pos
  stage_whole := launch3.stage_whole
  K := PEmpty
  osem k := k.elim
  ho := Pipeline.OwnSemFacts.none _
  hbody c := rbody3 V c
  hwaits := Pipeline.RDat.hwaits_of_owed_zero _ _ _ _ L lv 3 fun _ _ => rfl
  pre c := iprop(StableHlo.held (c : Thread nD τ) (Pipeline.ucRefs τ sig) (V c) ∗ R c)
  post c := regPost outs3 V c
  X c := iprop(∃ r, prngReg c r)
  Y c := iprop(∃ r, prngReg c r)
  Z c := Pipeline.unscopedRest (Ix := Unit) (Name := ℕ) (U := UR sig nD τ) (Lvl := ℕ) spec3 c (fun b => V c (Proc.devRef .tc b))
  hentry c :=
    entry_of_held (pcfgs (F := F)) adm (rdats V) (p := 3) launch3.win launch3.arr_whole c
      ((rdats V 3 c).share_full fun _ => rfl) (V c) (fun _ => rfl) rfl (fun _ => trivial) (inferInstanceAs (IsEmpty (Fin 0))) _
  hin c := ΦA_of_in spec3 c _
  hout c := out_of_ΦA spec3 c
  hexit c :=
    post_of_exit (pcfgs (F := F)) adm (rdats V) (p := 3) launch3.win launch3.arr_whole c
      ((rdats V 3 c).share_full fun _ => rfl) (V c) (fun _ => rfl) outs3 outs3_of_isOut _ _ rfl

theorem rreg3_pre (V : Dev nD → Valuation τ sig (Elt F)) (c : Dev nD) :
    (rreg3 V).pre c = iprop(StableHlo.held (c : Thread nD τ) (Pipeline.ucRefs τ sig) (V c) ∗ R c) := rfl
theorem rreg3_post (V : Dev nD → Valuation τ sig (Elt F)) (c : Dev nD) : (rreg3 V).post c = regPost outs3 V c := rfl

/-- The buffers region 4 may change. -/
abbrev outs4 : List (Ref sig .tc) := [main_v8]
/-- Region 4's output windows write only these. -/
theorem outs4_of_isOut : ∀ w : Fin cfg4.W, (cfg4.win w).isOut = true → Pipeline.arrRef spec4 w ∈ outs4 := by decide

-- the entry and exit lemmas are stated over the pinned configuration: unification may unfold plain definitions in a
-- metavariable's type
set_option backward.isDefEq.respectTransparency.types false in
/-- REGION 4 over the thread state, at any entry contents `V`: entered from every unscoped buffer held at `V c`, left at SOME
    contents that agree with `V c` off the region's result arrays. -/
def rreg4 (V : Dev nD → Valuation τ sig (Elt F)) :
    Pipeline.RDat.RegionSeg (pcfgs (F := F)) adm (rdats V) () defs₀ 𝒱₀ L lv (4 : Fin 5) where
  win := launch4.win.to₀
  block_pos := launch4.block_pos
  stage_whole := launch4.stage_whole
  K := PEmpty
  osem k := k.elim
  ho := Pipeline.OwnSemFacts.none _
  hbody c := rbody4 V c
  hwaits := Pipeline.RDat.hwaits_of_owed_zero _ _ _ _ L lv 4 fun _ _ => rfl
  pre c := iprop(StableHlo.held (c : Thread nD τ) (Pipeline.ucRefs τ sig) (V c) ∗ R c)
  post c := regPost outs4 V c
  X c := iprop(∃ r, prngReg c r)
  Y c := iprop(∃ r, prngReg c r)
  Z c := Pipeline.unscopedRest (Ix := Unit) (Name := ℕ) (U := UR sig nD τ) (Lvl := ℕ) spec4 c (fun b => V c (Proc.devRef .tc b))
  hentry c :=
    entry_of_held (pcfgs (F := F)) adm (rdats V) (p := 4) launch4.win launch4.arr_whole c
      ((rdats V 4 c).share_full fun _ => rfl) (V c) (fun _ => rfl) rfl (fun _ => trivial) (inferInstanceAs (IsEmpty (Fin 0))) _
  hin c := ΦA_of_in spec4 c _
  hout c := out_of_ΦA spec4 c
  hexit c :=
    post_of_exit (pcfgs (F := F)) adm (rdats V) (p := 4) launch4.win launch4.arr_whole c
      ((rdats V 4 c).share_full fun _ => rfl) (V c) (fun _ => rfl) outs4 outs4_of_isOut _ _ rfl

theorem rreg4_pre (V : Dev nD → Valuation τ sig (Elt F)) (c : Dev nD) :
    (rreg4 V).pre c = iprop(StableHlo.held (c : Thread nD τ) (Pipeline.ucRefs τ sig) (V c) ∗ R c) := rfl
theorem rreg4_post (V : Dev nD → Valuation τ sig (Elt F)) (c : Dev nD) : (rreg4 V).post c = regPost outs4 V c := rfl

end Cert.Kernel.Hand

end
-- ==== Proof.KFrame.lean ====
/-
  The word-level kernel program runs to the end, faults nowhere, and leaves its ten argument arrays as launched.

  Region 0 is launched from exact data: its blocks tile its arrays, so its result array is a named function of the
  arguments.  What follows it — a bias reshaped into one row, then a region, four times — is run as the launch's
  continuation: before each region the core holds every buffer that outlives a region at SOME contents; the region's
  relational data are chosen at those contents; at its exit the contents of its result arrays are whatever its
  pipeline left, and only this is kept of them: no other buffer changed.  No item writes an argument array, so each
  argument is carried, unchanged, through all nine items.
-/
import proofs.«164197_g26036091748832_cont_9to1_1945_4_alg».proof.Proof.KRReg

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => m (c, b)

/-- Every pipeline's exact data at the launch contents: region 0's is the one the launch runs; the others are never run
    from (their regions are run from relational data chosen at their entry). A literal match. -/
def pdats : (p : Fin 5) → (c : Dev nD) → Dat τ (Elt F) Unit ℕ (UR sig nD τ) ℕ (Pipeline.pin (pcfgs (F := F)) adm p) c
  | ⟨0, _⟩ => fun c => dat0 (W0 m) c
  | ⟨1, _⟩ => fun c => { A := fun w => W0 m c (Proc.devRef .tc (Pipeline.arrRef spec1 w)), after := fun _ _ => Classical.arbitrary _, Φ := fun _ => Pipeline.ΦA spec1 c, q := fun _ => fullShare, owed := fun _ => 0 }
  | ⟨2, _⟩ => fun c => { A := fun w => W0 m c (Proc.devRef .tc (Pipeline.arrRef spec2 w)), after := fun _ _ => Classical.arbitrary _, Φ := fun _ => Pipeline.ΦA spec2 c, q := fun _ => fullShare, owed := fun _ => 0 }
  | ⟨3, _⟩ => fun c => { A := fun w => W0 m c (Proc.devRef .tc (Pipeline.arrRef spec3 w)), after := fun _ _ => Classical.arbitrary _, Φ := fun _ => Pipeline.ΦA spec3 c, q := fun _ => fullShare, owed := fun _ => 0 }
  | ⟨4, _⟩ => fun c => { A := fun w => W0 m c (Proc.devRef .tc (Pipeline.arrRef spec4 w)), after := fun _ _ => Classical.arbitrary _, Φ := fun _ => Pipeline.ΦA spec4 c, q := fun _ => fullShare, owed := fun _ => 0 }

/-- The program after region 0. -/
abbrev rest : Prog (TpuEff nD τ sig (Elt F) (Pipeline.Sig Λ₀ (Fin 5) fun p => (pcfgs (F := F) p).Adm) .tc) PUnit :=
  Pipeline.chain
    [ StableHlo.seq hostOps1,
      Prog.lift (.customCall (Pipeline.entry 1) ()),
      StableHlo.seq hostOps2,
      Prog.lift (.customCall (Pipeline.entry 2) ()),
      StableHlo.seq hostOps3,
      Prog.lift (.customCall (Pipeline.entry 3) ()),
      StableHlo.seq hostOps4,
      Prog.lift (.customCall (Pipeline.entry 4) ()) ]

theorem main_eq (c : Dev nD) : main (F := F) c = .op (.customCall (Pipeline.entry (0 : Fin 5)) ()) fun _ => rest (F := F) := by
  rw [main_chain c]; rfl

/-- The argument arrays no window of region 0 stages. -/
abbrev keptArgs : List (Ref sig .tc) := [main_arg1, main_arg3, main_arg4, main_arg5, main_arg6, main_arg7, main_arg8, main_arg9]

/-- Each of them is an unscoped buffer that is no array of region 0. -/
theorem keptArgs_rest : ∀ b ∈ keptArgs, b ∈ (Finset.univ.filter fun b : Ref sig .tc => ¬ b.isScoped) \ Finset.univ.image (Pipeline.arrRef spec0) := by
  decide

/-- What the continuation hands back beside region 0's arrays: the buffers region 0 bypasses, at contents that hold every
    argument among them as launched. -/
def Zend (c : Dev nD) : sProp 𝕄 :=
  iprop(∃ G : (b : Ref sig .tc) → Buf (Elt F) ((c : Thread nD τ).loc b), ⌜∀ b ∈ keptArgs, G b = m ((c : Thread nD τ).loc b)⌝
    ∗ Pipeline.unscopedRest (Ix := Unit) (Name := ℕ) (U := UR sig nD τ) (Lvl := ℕ) spec0 c G)

/-- Region 0's arrays after its pipeline's write-backs. -/
abbrev A0 (c : Dev nD) : (w : Fin cfg0.W) → Buf (Elt F) ((cfg0.win w).arr.view.loc (c.tc : Thread nD τ)) :=
  fun w => (pdats m 0 c).arrAt w cfg0.N

/-- Core `c`'s buffers after region 0: its arrays at what the pipeline left, every other buffer as launched. -/
abbrev W1 (c : Dev nD) : Valuation τ sig (Elt F) := Pipeline.withArrays spec0 c (W0 m c) (A0 m c)

/-- Region 0's arrays at contents `A` beside the buffers it bypasses at `V` are every unscoped buffer held at any valuation
    that has the arrays at `A` and agrees with `V` elsewhere. -/
theorem join0 (c : Dev nD) (A : (w : Fin cfg0.W) → Buf (Elt F) ((cfg0.win w).arr.view.loc (c.tc : Thread nD τ)))
    (V V' : (b : Ref sig .tc) → Buf (Elt F) ((c : Thread nD τ).loc b)) (hA : ∀ w, V' (Pipeline.arrRef spec0 w) = A w)
    (hrest : ∀ b, b ∉ Finset.univ.image (Pipeline.arrRef spec0) → V' b = V b) :
    iprop((bigSep Finset.univ fun w : Fin cfg0.W => (((c.tc : Thread nD τ).loc (Pipeline.arrRef spec0 w)) ↦{fullShare} A w : sProp 𝕄))
        ∗ Pipeline.unscopedRest (Ix := Unit) (Name := ℕ) (U := UR sig nD τ) (Lvl := ℕ) spec0 c V)
      ⊢ (unscopedBufs c V' : sProp 𝕄) := by
  rw [Pipeline.unscopedBufs_split cfgs (0 : Fin 5) launch0.win.arr_unscoped launch0.win.arr_inj c V']
  refine BIClass.sep_mono (Entails.of_eq (bigSep_congr fun w _ => by
    rw [show V' (Pipeline.arrRef (cfgs (0 : Fin 5)).spec w) = A w from hA w]; rfl)) (Entails.of_eq ?_)
  unfold Pipeline.unscopedRest
  exact (bigSep_congr fun b hb => by rw [hrest b (Finset.mem_sdiff.mp hb).2])

/-- Conversely, every unscoped buffer held at `V'` is region 0's arrays at `V'`'s contents beside the buffers it bypasses. -/
theorem split0 (c : Dev nD) (A : (w : Fin cfg0.W) → Buf (Elt F) ((cfg0.win w).arr.view.loc (c.tc : Thread nD τ)))
    (V' : (b : Ref sig .tc) → Buf (Elt F) ((c : Thread nD τ).loc b)) (hA : ∀ w, V' (Pipeline.arrRef spec0 w) = A w) :
    (unscopedBufs c V' : sProp 𝕄)
      ⊢ iprop((bigSep Finset.univ fun w : Fin cfg0.W => (((c.tc : Thread nD τ).loc (Pipeline.arrRef spec0 w)) ↦{fullShare} A w : sProp 𝕄))
        ∗ Pipeline.unscopedRest (Ix := Unit) (Name := ℕ) (U := UR sig nD τ) (Lvl := ℕ) spec0 c V') := by
  rw [Pipeline.unscopedBufs_split cfgs (0 : Fin 5) launch0.win.arr_unscoped launch0.win.arr_inj c V']
  exact BIClass.sep_mono (Entails.of_eq (bigSep_congr fun w _ => by
    rw [show V' (Pipeline.arrRef (cfgs (0 : Fin 5)).spec w) = A w from hA w]; rfl)) .rfl

/-- The buffers no later item may change: the ten arguments and region 0's result. -/
abbrev keep : List (Ref sig .tc) := [main_arg0, main_arg1, main_arg2, main_arg3, main_arg4, main_arg5, main_arg6, main_arg7, main_arg8, main_arg9, main_v0]

/-- Through four host stretches and four regions, each region leaving every buffer that is not one of its result arrays as
    it found it and each stretch writing one fresh bias row, the ten arguments and region 0's result hold what they held. -/
theorem keep_chain (U1 U3 U5 U7 U9 : Valuation τ sig (Elt F))
    (h3 : ∀ b : Ref sig .tc, b ∉ outs1 → U3 (Proc.devRef .tc b) = StableHlo.after hostOps1 U1 (Proc.devRef .tc b))
    (h5 : ∀ b : Ref sig .tc, b ∉ outs2 → U5 (Proc.devRef .tc b) = StableHlo.after hostOps2 U3 (Proc.devRef .tc b))
    (h7 : ∀ b : Ref sig .tc, b ∉ outs3 → U7 (Proc.devRef .tc b) = StableHlo.after hostOps3 U5 (Proc.devRef .tc b))
    (h9 : ∀ b : Ref sig .tc, b ∉ outs4 → U9 (Proc.devRef .tc b) = StableHlo.after hostOps4 U7 (Proc.devRef .tc b))
    (b : Ref sig .tc) (hb : b ∈ keep) : U9 (Proc.devRef .tc b) = U1 (Proc.devRef .tc b) := by
  have hn : b ∉ outs1 ∧ b ∉ outs2 ∧ b ∉ outs3 ∧ b ∉ outs4 ∧ b ∉ hostOps1_W ∧ b ∉ hostOps2_W ∧ b ∉ hostOps3_W ∧ b ∉ hostOps4_W := by
    revert b; decide
  obtain ⟨n1, n2, n3, n4, w1, w2, w3, w4⟩ := hn
  rw [h9 b n4, StableHlo.after_of_writes_sub hostOps4 _ hostOps4_writes w4,
    h7 b n3, StableHlo.after_of_writes_sub hostOps3 _ hostOps3_writes w3,
    h5 b n2, StableHlo.after_of_writes_sub hostOps2 _ hostOps2_writes w2,
    h3 b n1, StableHlo.after_of_writes_sub hostOps1 _ hostOps1_writes w1]

/-- A host stretch as a step between thread states: every unscoped buffer held at `W`, what rides along beside it. -/
abbrev hseg (ops : List (HloOp τ sig (Elt F))) (hsub : ops.Forall fun op => op.bufs ⊆ StableHlo.tcRefs τ sig)
    (hfresh : ops.Forall fun op => op.fresh = ∅) (W : Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) (fun _ => W) R

theorem hseg_pre (ops : List (HloOp τ sig (Elt F))) (hsub : ops.Forall fun op => op.bufs ⊆ StableHlo.tcRefs τ sig)
    (hfresh : ops.Forall fun op => op.fresh = ∅) (W : Valuation τ sig (Elt F)) (c : Dev nD) :
    (hseg ops hsub hfresh W).pre c = iprop(StableHlo.held (c.tc : Thread nD τ) (Pipeline.ucRefs τ sig) W ∗ R c) := rfl
theorem hseg_post (ops : List (HloOp τ sig (Elt F))) (hsub : ops.Forall fun op => op.bufs ⊆ StableHlo.tcRefs τ sig)
    (hfresh : ops.Forall fun op => op.fresh = ∅) (W : Valuation τ sig (Elt F)) (c : Dev nD) :
    (hseg ops hsub hfresh W).post c = iprop(StableHlo.held (c.tc : Thread nD τ) (Pipeline.ucRefs τ sig) (StableHlo.after ops W) ∗ R c) := rfl

-- the region step and the host step are stated for any thread: unification may unfold plain definitions in a metavariable's type
set_option backward.isDefEq.respectTransparency.types false in
/-- THE CONTINUATION after region 0, on core `c`: holding region 0's arrays at what its pipeline left, the buffers it
    bypassed as launched, the generator register, nothing owed, and the other four pipelines' ghost state, the rest of
    the program runs and hands region 0's arrays back as they were beside the bypassed buffers with every argument among
    them as launched. -/
theorem tail_wp (c : Dev nD) (Q' : PUnit → sProp 𝕄) :
    iprop((iprop((bigSep Finset.univ fun w : Fin cfg0.W => (((c.tc : Thread nD τ).loc (Pipeline.arrRef spec0 w)) ↦{fullShare} (pdats m 0 c).arrAt w cfg0.N : sProp 𝕄))
              ∗ (∃ r, prngReg c r) ∗ Zend m c ∗ (∃ W, owes (c.tc : Thread nD τ) (0 : CellTallies nD τ sig Unit) W)) -∗ Q' ⟨⟩)
          ∗ boundary (c.tc : Thread nD τ)
          ∗ (bigSep Finset.univ fun w : Fin cfg0.W => (((c.tc : Thread nD τ).loc (Pipeline.arrRef spec0 w)) ↦{fullShare} (pdats m 0 c).arrAt w cfg0.N : sProp 𝕄))
          ∗ (∃ r, prngReg c r)
          ∗ Pipeline.unscopedRest (Ix := Unit) (Name := ℕ) (U := UR sig nD τ) (Lvl := ℕ) spec0 c (fun b => W0 m c (Proc.devRef .tc b))
          ∗ (pdats m 0 c).owesAt () (Fin.last cfg0.N) ∗ levAts L lv ∗ Pipeline.restGhost (pcfgs (F := F)) adm (0 : Fin 5) emb₁ c)
        ⊢ wp frame (wpE (Pipeline.defs (pcfgs (F := F)) defs₀) (Variants.lift 𝒱₀) (c.tc : Thread nD τ) none) Set.univ (rest (F := F)) Q' := by
  rw [show (Pipeline.restGhost (pcfgs (F := F)) adm (0 : Fin 5) emb₁ c : sProp 𝕄)
        = Pipeline.PerCore.ghostOn (pcfgs (F := F)) (fun _ => adm) emb₁ (Finset.univ.erase (0 : Fin 5)) c from rfl,
    Pipeline.PerCore.ghostOn_erase (pcfgs (F := F)) (fun _ => adm) emb₁ (p := (1 : Fin 5)) (by decide) c,
    Pipeline.PerCore.ghostOn_erase (pcfgs (F := F)) (fun _ => adm) emb₁ (p := (2 : Fin 5)) (by decide) c,
    Pipeline.PerCore.ghostOn_erase (pcfgs (F := F)) (fun _ => adm) emb₁ (p := (3 : Fin 5)) (by decide) c,
    Pipeline.PerCore.ghostOn_erase (pcfgs (F := F)) (fun _ => adm) emb₁ (p := (4 : Fin 5)) (by decide) c]
  have hA1 : ∀ w, (fun b : Ref sig .tc => W1 m c (Proc.devRef .tc b)) (Pipeline.arrRef spec0 w) = A0 m c w :=
    fun w => Pipeline.withArrays_arr spec0 launch0.win.arr_inj c _ _ w
  have hrest1 : ∀ b, b ∉ Finset.univ.image (Pipeline.arrRef spec0) →
      (fun b : Ref sig .tc => W1 m c (Proc.devRef .tc b)) b = (fun b : Ref sig .tc => W0 m c (Proc.devRef .tc b)) b :=
    fun b hb => Pipeline.withArrays_of_ne spec0 c _ _ b fun w e => hb (Finset.mem_image.mpr ⟨w, Finset.mem_univ _, e⟩)
  have hjoin := (join0 c (A0 m c) (fun b => W0 m c (Proc.devRef .tc b)) (fun b => W1 m c (Proc.devRef .tc b)) hA1 hrest1).trans
    (Entails.of_eq (Pipeline.unscopedBufs_held (Ix := Unit) (Name := ℕ) (U := UR sig nD τ) (Lvl := ℕ) c (W1 m c)))
  iintro ⟨Hk, Hb, Ha, Hp, HZ, HO, #Hla, ⟨Hc1, Ht1⟩, ⟨Hc2, Ht2⟩, ⟨Hc3, Ht3⟩, ⟨Hc4, Ht4⟩, -⟩
  ihave Hh := hjoin $$ [Ha HZ]
  · isplitl [Ha] <;> iassumption
  ihave HW := (show ((pdats m 0 c).owesAt () (Fin.last cfg0.N) : sProp 𝕄)
      ⊢ iprop(∃ W, owes (c.tc : Thread nD τ) (0 : CellTallies nD τ sig Unit) W) from by
    unfold Pipeline.Dat.owesAt Pipeline.owesWithin
    iintro ⟨%W, -, HO⟩; iexists W; iexact HO) $$ HO
  ihave HR := (show iprop((∃ r, prngReg c r) ∗ ∃ W, owes (c.tc : Thread nD τ) (0 : CellTallies nD τ sig Unit) W) ⊢ (R c : sProp 𝕄) from .rfl) $$ [Hp HW]
  · isplitl [Hp] <;> iassumption
  -- the bias of layer 1 reshaped into one row
  iapply ((hseg hostOps1 hostOps1_sub hostOps1_fresh (W1 m c)).run c _ _)
  isplitr [Hb Hh HR]
  swap
  · isplitl [Hb]; · iexact Hb
    isplitl [Hh HR]
    · iapply (Entails.of_eq (hseg_pre hostOps1 hostOps1_sub hostOps1_fresh (W1 m c) c).symm)
      isplitl [Hh]; · iexact Hh
      iexact HR
    iexact Hla
  iintro ⟨Hb, Hpost⟩
  ihave Hpost := (Entails.of_eq (hseg_post hostOps1 hostOps1_sub hostOps1_fresh (W1 m c) c)) $$ Hpost
  icases Hpost with ⟨Hh, HR⟩
  -- region 1, from relational data chosen at the contents it is entered with
  iapply (Pipeline.RDat.RegionSeg.wp (pcfgs (F := F)) adm (rdats (fun _ => StableHlo.after hostOps1 (W1 m c))) () cellOf_inj emb₁ defs₀ 𝒱₀ L lv
    (rreg1 (fun _ => StableHlo.after hostOps1 (W1 m c))) c none (fun u hu => by cases hu) _ _)
  isplitr [Hb Hh HR Hc1 Ht1]
  swap
  · isplitl [Hb]; · iexact Hb
    isplitl [Hh HR]
    · iapply (Entails.of_eq (rreg1_pre (fun _ => StableHlo.after hostOps1 (W1 m c)) c).symm)
      isplitl [Hh]; · iexact Hh
      iexact HR
    isplitr [Hc1 Ht1]; · iexact Hla
    isplitl [Hc1]; · iexact Hc1
    iexact Ht1
  iintro ⟨Hb, Hpost⟩
  ihave Hpost := (Entails.of_eq (rreg1_post (fun _ => StableHlo.after hostOps1 (W1 m c)) c)) $$ Hpost
  unfold regPost
  icases Hpost with ⟨%U3, %h3, Hh, HR⟩
  -- the bias of layer 2 reshaped into one row
  iapply ((hseg hostOps2 hostOps2_sub hostOps2_fresh (U3)).run c _ _)
  isplitr [Hb Hh HR]
  swap
  · isplitl [Hb]; · iexact Hb
    isplitl [Hh HR]
    · iapply (Entails.of_eq (hseg_pre hostOps2 hostOps2_sub hostOps2_fresh (U3) c).symm)
      isplitl [Hh]; · iexact Hh
      iexact HR
    iexact Hla
  iintro ⟨Hb, Hpost⟩
  ihave Hpost := (Entails.of_eq (hseg_post hostOps2 hostOps2_sub hostOps2_fresh (U3) c)) $$ Hpost
  icases Hpost with ⟨Hh, HR⟩
  -- region 2, from relational data chosen at the contents it is entered with
  iapply (Pipeline.RDat.RegionSeg.wp (pcfgs (F := F)) adm (rdats (fun _ => StableHlo.after hostOps2 U3)) () cellOf_inj emb₁ defs₀ 𝒱₀ L lv
    (rreg2 (fun _ => StableHlo.after hostOps2 U3)) c none (fun u hu => by cases hu) _ _)
  isplitr [Hb Hh HR Hc2 Ht2]
  swap
  · isplitl [Hb]; · iexact Hb
    isplitl [Hh HR]
    · iapply (Entails.of_eq (rreg2_pre (fun _ => StableHlo.after hostOps2 U3) c).symm)
      isplitl [Hh]; · iexact Hh
      iexact HR
    isplitr [Hc2 Ht2]; · iexact Hla
    isplitl [Hc2]; · iexact Hc2
    iexact Ht2
  iintro ⟨Hb, Hpost⟩
  ihave Hpost := (Entails.of_eq (rreg2_post (fun _ => StableHlo.after hostOps2 U3) c)) $$ Hpost
  unfold regPost
  icases Hpost with ⟨%U5, %h5, Hh, HR⟩
  -- the bias of layer 3 reshaped into one row
  iapply ((hseg hostOps3 hostOps3_sub hostOps3_fresh (U5)).run c _ _)
  isplitr [Hb Hh HR]
  swap
  · isplitl [Hb]; · iexact Hb
    isplitl [Hh HR]
    · iapply (Entails.of_eq (hseg_pre hostOps3 hostOps3_sub hostOps3_fresh (U5) c).symm)
      isplitl [Hh]; · iexact Hh
      iexact HR
    iexact Hla
  iintro ⟨Hb, Hpost⟩
  ihave Hpost := (Entails.of_eq (hseg_post hostOps3 hostOps3_sub hostOps3_fresh (U5) c)) $$ Hpost
  icases Hpost with ⟨Hh, HR⟩
  -- region 3, from relational data chosen at the contents it is entered with
  iapply (Pipeline.RDat.RegionSeg.wp (pcfgs (F := F)) adm (rdats (fun _ => StableHlo.after hostOps3 U5)) () cellOf_inj emb₁ defs₀ 𝒱₀ L lv
    (rreg3 (fun _ => StableHlo.after hostOps3 U5)) c none (fun u hu => by cases hu) _ _)
  isplitr [Hb Hh HR Hc3 Ht3]
  swap
  · isplitl [Hb]; · iexact Hb
    isplitl [Hh HR]
    · iapply (Entails.of_eq (rreg3_pre (fun _ => StableHlo.after hostOps3 U5) c).symm)
      isplitl [Hh]; · iexact Hh
      iexact HR
    isplitr [Hc3 Ht3]; · iexact Hla
    isplitl [Hc3]; · iexact Hc3
    iexact Ht3
  iintro ⟨Hb, Hpost⟩
  ihave Hpost := (Entails.of_eq (rreg3_post (fun _ => StableHlo.after hostOps3 U5) c)) $$ Hpost
  unfold regPost
  icases Hpost with ⟨%U7, %h7, Hh, HR⟩
  -- the bias of layer 4 reshaped into one row
  iapply ((hseg hostOps4 hostOps4_sub hostOps4_fresh (U7)).run c _ _)
  isplitr [Hb Hh HR]
  swap
  · isplitl [Hb]; · iexact Hb
    isplitl [Hh HR]
    · iapply (Entails.of_eq (hseg_pre hostOps4 hostOps4_sub hostOps4_fresh (U7) c).symm)
      isplitl [Hh]; · iexact Hh
      iexact HR
    iexact Hla
  iintro ⟨Hb, Hpost⟩
  ihave Hpost := (Entails.of_eq (hseg_post hostOps4 hostOps4_sub hostOps4_fresh (U7) c)) $$ Hpost
  icases Hpost with ⟨Hh, HR⟩
  -- region 4, from relational data chosen at the contents it is entered with
  iapply (Pipeline.RDat.RegionSeg.wp (pcfgs (F := F)) adm (rdats (fun _ => StableHlo.after hostOps4 U7)) () cellOf_inj emb₁ defs₀ 𝒱₀ L lv
    (rreg4 (fun _ => StableHlo.after hostOps4 U7)) c none (fun u hu => by cases hu) _ _)
  isplitr [Hb Hh HR Hc4 Ht4]
  swap
  · isplitl [Hb]; · iexact Hb
    isplitl [Hh HR]
    · iapply (Entails.of_eq (rreg4_pre (fun _ => StableHlo.after hostOps4 U7) c).symm)
      isplitl [Hh]; · iexact Hh
      iexact HR
    isplitr [Hc4 Ht4]; · iexact Hla
    isplitl [Hc4]; · iexact Hc4
    iexact Ht4
  iintro ⟨Hb, Hpost⟩
  ihave Hpost := (Entails.of_eq (rreg4_post (fun _ => StableHlo.after hostOps4 U7) c)) $$ Hpost
  unfold regPost
  icases Hpost with ⟨%U9, %h9, Hh, HR⟩
  -- the return: region 0's arrays are as its pipeline left them, every argument as launched
  have hkeep : ∀ b ∈ keep, U9 (Proc.devRef .tc b) = W1 m c (Proc.devRef .tc b) := fun b hb =>
    keep_chain (W1 m c) U3 U5 U7 U9 h3 h5 h7 h9 b hb
  have hA9 : ∀ w, (fun b : Ref sig .tc => U9 (Proc.devRef .tc b)) (Pipeline.arrRef spec0 w) = A0 m c w := fun w =>
    (hkeep (Pipeline.arrRef spec0 w) (by revert w; decide)).trans (hA1 w)
  have hsplit := (Entails.of_eq (Pipeline.unscopedBufs_held (Ix := Unit) (Name := ℕ) (U := UR sig nD τ) (Lvl := ℕ) c U9).symm).trans
    (split0 c (A0 m c) (fun b => U9 (Proc.devRef .tc b)) hA9)
  ihave Hs := hsplit $$ Hh
  icases Hs with ⟨Ha, HZ⟩
  icases HR with ⟨Hp, HW⟩
  iapply (show (iprop(|={Set.univ}[frame]=> Q' ⟨⟩) : sProp 𝕄)
      ⊢ wp frame (wpE (Pipeline.defs (pcfgs (F := F)) defs₀) (Variants.lift 𝒱₀) (c.tc : Thread nD τ) none) Set.univ (Prog.ret ⟨⟩) Q'
    from Entails.of_eq (wp_ret _ _ _ _ _).symm)
  imodintro
  iapply Hk
  isplitl [Ha]; · iexact Ha
  isplitl [Hp]; · iexact Hp
  isplitl [HZ]
  · unfold Zend
    iexists (fun b : Ref sig .tc => U9 (Proc.devRef .tc b))
    isplitr
    · ipureintro
      intro b hb
      refine (hkeep b (by revert b hb; decide)).trans ?_
      exact (Pipeline.withArrays_of_ne spec0 c _ _ b (by revert b hb; decide)).trans rfl
    · iexact HZ
  iexact HW

set_option backward.isDefEq.respectTransparency.types false in
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_region_owing_pf_tail (pcfgs (F := F)) adm (pdats m) () cellOf_inj (0 : Fin 5)
    launch0.win.to₀ (Pipeline.OwnSemFacts.none _) (Pipeline.PreFacts.none _) emb₁ defs₀ 𝒱₀ m ρ main (fun _ => rest (F := F))
    (hmain := main_eq)
    (hbody := fun c => (body0 (W0 m) c).loose)
    (hne := launch0.block_pos) (harr := launch0.arr_whole) (hstage := launch0.stage_whole)
    (hshare := fun c => (pdats m 0 c).share_full fun _ => rfl) (hdistinct := launch0.win.arr_inj)
    (O₀ := 0) (howed₀ := fun _ => rfl) (L := L) (lv := lv) (hL := fun _ _ => rfl)
    (hwaits := Pipeline.hwaits_of_owed_zero _ _ _ _ L lv 0 fun _ _ => rfl)
    (G := fun _ => iprop(emp)) (G' := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (hglob := by
      iintro -; imodintro
      iapply (show (BI.emp : sProp 𝕄) ⊢ bigSep Finset.univ (fun _ : Dev nD => (BI.emp : sProp 𝕄)) from by rw [BI.bigSep_emp_const])
      iempintro)
    (hA := fun _ _ => rfl) (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (fun b => W0 m c (Proc.devRef .tc b)))
    (Y' := fun c => iprop(∃ r, prngReg c r)) (Z' := Zend m)
    (hX := fun c => by
      rw [Pipeline.unscopedRestP_none]
      iintro ⟨HU, -, -, -, Hp, -⟩; imodintro
      isplitl [Hp]; · iexists _; iexact Hp
      iexact HU)
    (hin := fun c => by
      rw [show (pdats m 0 c).Φ 0 = Pipeline.ΦA spec0 c from rfl]; unfold Pipeline.ΦA
      iintro ⟨Hp, -, Hr⟩
      isplitl [Hr]; · iexact Hr
      iexact Hp)
    (hout := fun c => by
      rw [Pipeline.ownSems0_none, show (pdats m 0 c).Φ (Fin.last _) = Pipeline.ΦA spec0 c from rfl]; unfold Pipeline.ΦA
      iintro ⟨Hr, Hp⟩
      isplitl [Hp]; · iexact Hp
      isplitr; · iempintro
      iexact Hr)
    (htail := fun c Q' => tail_wp m c Q')
    (QY := fun c s => ∀ b ∈ keptArgs, s.mem ((c.tc : Thread nD τ).loc b) = m ((c.tc : Thread nD τ).loc b))
    (hY := fun c s' => by
      iintro ⟨-, HZ, HSI⟩
      unfold Zend
      icases HZ with ⟨%G, %hG, HZ⟩
      unfold Pipeline.unscopedRest
      ihave HZ' := (pointsTo_read_all _ (fun b => (c.tc : Thread nD τ).loc b) G s') $$ [HZ HSI]
      · isplitl [HZ] <;> iassumption
      icases HZ' with ⟨%hZ, HSI⟩
      imodintro
      isplitr
      · ipureintro; intro b hb
        rw [hZ b (keptArgs_rest b hb)]; exact hG b hb
      · iexact HSI)
    (hQ := fun s h c => by
      have h0 : s.mem ((c.tc : Thread nD τ).loc main_arg0) = m ((c.tc : Thread nD τ).loc main_arg0) :=
        ((h c).1 0).trans ((pdats m 0 c).arrAt_in 0 rfl _)
      have h2 : s.mem ((c.tc : Thread nD τ).loc main_arg2) = m ((c.tc : Thread nD τ).loc main_arg2) :=
        ((h c).1 1).trans ((pdats m 0 c).arrAt_in 1 rfl _)
      have hk := (h c).2.2
      exact ⟨h0, hk main_arg1 (by decide), h2, hk main_arg3 (by decide), hk main_arg4 (by decide), hk main_arg5 (by decide),
        hk main_arg6 (by decide), hk main_arg7 (by decide), hk main_arg8 (by decide), hk main_arg9 (by decide)⟩)

end Cert.Kernel.Hand

end
-- ==== Proof.IBody.lean ====
/-
  The five kernel bodies run on whole staging buffers.  Each body loads its operands whole, computes, and stores each
  result whole: so it runs without a fault from any contents of the result buffers, leaves the operand buffers as
  they were, and leaves in each result buffer the body's arithmetic of the loaded operands.  Stated at any
  interpretation of the floats.
-/
import proofs.«164197_g26036091748832_cont_9to1_1945_4_alg».proof.Proof.Gen.KernelIdeal.Launch
import proofs.«164197_g26036091748832_cont_9to1_1945_4_alg».proof.Proof.Gen.KernelIdeal.Skeleton
import proofs.«164197_g26036091748832_cont_9to1_1945_4_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- Offsets `![0, 0]` are the zero offsets: every access of the bodies is at the origin of its buffer. -/
private theorem hz2 : (![0, 0] : Fin 2 → Nat) = fun _ => 0 := funext fun a => by fin_cases a <;> rfl

set_option maxHeartbeats 1000000 in
/-- The body of region 0 on whole staging memrefs: from the inputs' memrefs at `x…` and the outputs' at anything it runs,
    without a fault, to the inputs' as they were and each output's at the body's arithmetic of the loaded values. -/
theorem sound_kernel0 (c : Dev nD) (E : Set ℕ) (i : grid0.Coords) (arg1 : Memref sig .tc .vmem S2000x512 .f32) (harg1 : arg1.IsWhole) (arg2 : Memref sig .tc .vmem S512x256 .f32) (harg2 : arg2.IsWhole) (arg3 : Memref sig .tc .vmem S2000x256 .bf16) (harg3 : arg3.IsWhole)
    (x1 : Vec F S2000x512 .f32) (x2 : Vec F S512x256 .f32) (K : PUnit → sProp 𝕄) :
    iprop(owns (c : Thread nD τ) arg1 fullShare x1 ∗ owns (c : Thread nD τ) arg2 fullShare x2 ∗ (∃ d, owns (c : Thread nD τ) arg3 fullShare d)
        ∗ (iprop(owns (c : Thread nD τ) arg1 fullShare x1 ∗ owns (c : Thread nD τ) arg2 fullShare x2 ∗ owns (c : Thread nD τ) arg3 fullShare (k0_pay1 x1 x2)) -∗ K ⟨⟩))
      ⊢ wp frame (wpE (defs₀ (F := F)) Variants.none c none) E (cc0__xw_body i arg1 harg1 arg2 harg2 arg3 harg3) K := by
  simp only [cc0__xw_body_eq_skeleton]; unfold cc0__xw_body_skel
  -- ownership of a memref at contents `x` is its cells at some raw contents that read `x`
  unfold owns
  iintro ⟨⟨%f1, %hf1, H1⟩, ⟨%f2, %hf2, H2⟩, ⟨%d3, %f3, -, H3⟩, Hk⟩
  subst hf1; subst hf2
  -- run the loads and the stores: every access is in range, each buffer is held whole
  sl_exec
  sl_step
  iapply Hk
  -- the operand buffers were only read: they hold what they held
  isplitl [H1]
  · iexists f1; isplitr; · ipureintro; rfl
    iexact H1
  isplitl [H2]
  · iexists f2; isplitr; · ipureintro; rfl
    iexact H2
  iexists _; isplitr
  swap; · iexact H3
  -- one store over the whole buffer leaves its payload, and a load of a whole buffer reads its contents
  ipureintro
  rw [View.read_writes_eq_canon _ _ _ (fun y => ⟨_, List.mem_singleton_self _, View.mem_set_unit_zero hz2 inb_S2000x256_S2000x256_0_0 y⟩),
      View.canon_unit_zero hz2 inb_S2000x256_S2000x256_0_0, View.readAt_eq_ld, View.readAt_eq_ld,
      View.ld_unit_zero (S := S2000x512) hz2 inb_S2000x512_S2000x512_0_0, View.ld_unit_zero (S := S512x256) hz2 inb_S512x256_S512x256_0_0]

set_option maxHeartbeats 1000000 in
/-- The body of region 1 on whole staging memrefs: from the inputs' memrefs at `x…` and the outputs' at anything it runs,
    without a fault, to the inputs' as they were and each output's at the body's arithmetic of the loaded values. -/
theorem sound_kernel1 (c : Dev nD) (E : Set ℕ) (i : grid1.Coords) (arg1 : Memref sig .tc .vmem S128x10000 .f32) (harg1 : arg1.IsWhole) (arg2 : Memref sig .tc .vmem S10000x256 .bf16) (harg2 : arg2.IsWhole) (arg3 : Memref sig .tc .vmem S1x256 .f32) (harg3 : arg3.IsWhole) (arg4 : Memref sig .tc .vmem S256x128 .f32) (harg4 : arg4.IsWhole) (arg5 : Memref sig .tc .vmem S128x10000 .bf16) (harg5 : arg5.IsWhole) (arg6 : Memref sig .tc .vmem S128x128 .bf16) (harg6 : arg6.IsWhole)
    (x1 : Vec F S128x10000 .f32) (x2 : Vec F S10000x256 .bf16) (x3 : Vec F S1x256 .f32) (x4 : Vec F S256x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (k1_pay1 x1) ∗ owns (c : Thread nD τ) arg6 fullShare (k1_pay2 x1 x2 x3 x4)) -∗ K ⟨⟩))
      ⊢ wp frame (wpE (defs₀ (F := F)) Variants.none c none) E (cc1__layer1_body i arg1 harg1 arg2 harg2 arg3 harg3 arg4 harg4 arg5 harg5 arg6 harg6) K := by
  simp only [cc1__layer1_body_eq_skeleton]; unfold cc1__layer1_body_skel
  -- ownership of a memref at contents `x` is its cells at some raw contents that read `x`
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1; subst hf2; subst hf3; subst hf4
  -- run the loads and the stores: every access is in range, each buffer is held whole
  sl_exec
  sl_step
  iapply Hk
  -- the operand buffers were only read: they hold what they held
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    -- one store over the whole buffer leaves its payload, and a load of a whole buffer reads its contents
    ipureintro
    rw [View.read_writes_eq_canon _ _ _ (fun y => ⟨_, List.mem_singleton_self _, View.mem_set_unit_zero hz2 inb_S128x10000_S128x10000_0_0 y⟩),
      View.canon_unit_zero hz2 inb_S128x10000_S128x10000_0_0, View.readAt_eq_ld,
      View.ld_unit_zero (S := S128x10000) hz2 inb_S128x10000_S128x10000_0_0]
  iexists _; isplitr
  swap; · iexact H6
  -- one store over the whole buffer leaves its payload, and a load of a whole buffer reads its contents
  ipureintro
  rw [View.read_writes_eq_canon _ _ _ (fun y => ⟨_, List.mem_singleton_self _, View.mem_set_unit_zero hz2 inb_S128x128_S128x128_0_0 y⟩),
      View.canon_unit_zero hz2 inb_S128x128_S128x128_0_0, View.readAt_eq_ld, View.readAt_eq_ld, View.readAt_eq_ld, View.readAt_eq_ld,
      View.ld_unit_zero (S := S128x10000) hz2 inb_S128x10000_S128x10000_0_0, View.ld_unit_zero (S := S10000x256) hz2 inb_S10000x256_S10000x256_0_0, View.ld_unit_zero (S := S1x256) hz2 inb_S1x256_S1x256_0_0, View.ld_unit_zero (S := S256x128) hz2 inb_S256x128_S256x128_0_0]

set_option maxHeartbeats 1000000 in
/-- The body of region 2 on whole staging memrefs: from the inputs' memrefs at `x…` and the outputs' at anything it runs,
    without a fault, to the inputs' as they were and each output's at the body's arithmetic of the loaded values. -/
theorem sound_kernel2 (c : Dev nD) (E : Set ℕ) (i : grid2.Coords) (arg1 : Memref sig .tc .vmem S128x10000 .bf16) (harg1 : arg1.IsWhole) (arg2 : Memref sig .tc .vmem S10000x128 .bf16) (harg2 : arg2.IsWhole) (arg3 : Memref sig .tc .vmem S1x128 .f32) (harg3 : arg3.IsWhole) (arg4 : Memref sig .tc .vmem S128x64 .f32) (harg4 : arg4.IsWhole) (arg5 : Memref sig .tc .vmem S128x64 .bf16) (harg5 : arg5.IsWhole)
    (x1 : Vec F S128x10000 .bf16) (x2 : Vec F S10000x128 .bf16) (x3 : Vec F S1x128 .f32) (x4 : Vec F S128x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (k2_pay1 x1 x2 x3 x4)) -∗ K ⟨⟩))
      ⊢ wp frame (wpE (defs₀ (F := F)) Variants.none c none) E (cc2__layer_body i arg1 harg1 arg2 harg2 arg3 harg3 arg4 harg4 arg5 harg5) K := by
  simp only [cc2__layer_body_eq_skeleton]; unfold cc2__layer_body_skel
  -- ownership of a memref at contents `x` is its cells at some raw contents that read `x`
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  -- run the loads and the stores: every access is in range, each buffer is held whole
  sl_exec
  sl_step
  iapply Hk
  -- the operand buffers were only read: they hold what they held
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  -- one store over the whole buffer leaves its payload, and a load of a whole buffer reads its contents
  ipureintro
  rw [View.read_writes_eq_canon _ _ _ (fun y => ⟨_, List.mem_singleton_self _, View.mem_set_unit_zero hz2 inb_S128x64_S128x64_0_0 y⟩),
      View.canon_unit_zero hz2 inb_S128x64_S128x64_0_0, View.readAt_eq_ld, View.readAt_eq_ld, View.readAt_eq_ld, View.readAt_eq_ld,
      View.ld_unit_zero (S := S128x10000) hz2 inb_S128x10000_S128x10000_0_0, View.ld_unit_zero (S := S10000x128) hz2 inb_S10000x128_S10000x128_0_0, View.ld_unit_zero (S := S1x128) hz2 inb_S1x128_S1x128_0_0, View.ld_unit_zero (S := S128x64) hz2 inb_S128x64_S128x64_0_0]

set_option maxHeartbeats 1000000 in
/-- The body of region 3 on whole staging memrefs: from the inputs' memrefs at `x…` and the outputs' at anything it runs,
    without a fault, to the inputs' as they were and each output's at the body's arithmetic of the loaded values. -/
theorem sound_kernel3 (c : Dev nD) (E : Set ℕ) (i : grid3.Coords) (arg1 : Memref sig .tc .vmem S128x10000 .bf16) (harg1 : arg1.IsWhole) (arg2 : Memref sig .tc .vmem S10000x64 .bf16) (harg2 : arg2.IsWhole) (arg3 : Memref sig .tc .vmem S1x64 .f32) (harg3 : arg3.IsWhole) (arg4 : Memref sig .tc .vmem S64x32 .f32) (harg4 : arg4.IsWhole) (arg5 : Memref sig .tc .vmem S128x32 .bf16) (harg5 : arg5.IsWhole)
    (x1 : Vec F S128x10000 .bf16) (x2 : Vec F S10000x64 .bf16) (x3 : Vec F S1x64 .f32) (x4 : Vec F S64x32 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (k3_pay1 x1 x2 x3 x4)) -∗ K ⟨⟩))
      ⊢ wp frame (wpE (defs₀ (F := F)) Variants.none c none) E (cc3__layer_body i arg1 harg1 arg2 harg2 arg3 harg3 arg4 harg4 arg5 harg5) K := by
  simp only [cc3__layer_body_eq_skeleton]; unfold cc3__layer_body_skel
  -- ownership of a memref at contents `x` is its cells at some raw contents that read `x`
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  -- run the loads and the stores: every access is in range, each buffer is held whole
  sl_exec
  sl_step
  iapply Hk
  -- the operand buffers were only read: they hold what they held
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  -- one store over the whole buffer leaves its payload, and a load of a whole buffer reads its contents
  ipureintro
  rw [View.read_writes_eq_canon _ _ _ (fun y => ⟨_, List.mem_singleton_self _, View.mem_set_unit_zero hz2 inb_S128x32_S128x32_0_0 y⟩),
      View.canon_unit_zero hz2 inb_S128x32_S128x32_0_0, View.readAt_eq_ld, View.readAt_eq_ld, View.readAt_eq_ld, View.readAt_eq_ld,
      View.ld_unit_zero (S := S128x10000) hz2 inb_S128x10000_S128x10000_0_0, View.ld_unit_zero (S := S10000x64) hz2 inb_S10000x64_S10000x64_0_0, View.ld_unit_zero (S := S1x64) hz2 inb_S1x64_S1x64_0_0, View.ld_unit_zero (S := S64x32) hz2 inb_S64x32_S64x32_0_0]

set_option maxHeartbeats 1000000 in
/-- The body of region 4 on whole staging memrefs: from the inputs' memrefs at `x…` and the outputs' at anything it runs,
    without a fault, to the inputs' as they were and each output's at the body's arithmetic of the loaded values. -/
theorem sound_kernel4 (c : Dev nD) (E : Set ℕ) (i : grid4.Coords) (arg1 : Memref sig .tc .vmem S128x10000 .bf16) (harg1 : arg1.IsWhole) (arg2 : Memref sig .tc .vmem S10000x32 .bf16) (harg2 : arg2.IsWhole) (arg3 : Memref sig .tc .vmem S1x32 .f32) (harg3 : arg3.IsWhole) (arg4 : Memref sig .tc .vmem S128x32 .f32) (harg4 : arg4.IsWhole)
    (x1 : Vec F S128x10000 .bf16) (x2 : Vec F S10000x32 .bf16) (x3 : Vec F S1x32 .f32) (K : PUnit → sProp 𝕄) :
    iprop(owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg1 fullShare x1 ∗ owns (c : Thread nD τ) arg2 fullShare x2 ∗ owns (c : Thread nD τ) arg3 fullShare x3 ∗ owns (c : Thread nD τ) arg4 fullShare (k4_pay1 x1 x2 x3)) -∗ K ⟨⟩))
      ⊢ wp frame (wpE (defs₀ (F := F)) Variants.none c none) E (cc4__last_body i arg1 harg1 arg2 harg2 arg3 harg3 arg4 harg4) K := by
  simp only [cc4__last_body_eq_skeleton]; unfold cc4__last_body_skel
  -- ownership of a memref at contents `x` is its cells at some raw contents that read `x`
  unfold owns
  iintro ⟨⟨%f1, %hf1, H1⟩, ⟨%f2, %hf2, H2⟩, ⟨%f3, %hf3, H3⟩, ⟨%d4, %f4, -, H4⟩, Hk⟩
  subst hf1; subst hf2; subst hf3
  -- run the loads and the stores: every access is in range, each buffer is held whole
  sl_exec
  sl_step
  iapply Hk
  -- the operand buffers were only read: they hold what they held
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  -- one store over the whole buffer leaves its payload, and a load of a whole buffer reads its contents
  ipureintro
  rw [View.read_writes_eq_canon _ _ _ (fun y => ⟨_, List.mem_singleton_self _, View.mem_set_unit_zero hz2 inb_S128x32_S128x32_0_0 y⟩),
      View.canon_unit_zero hz2 inb_S128x32_S128x32_0_0, View.readAt_eq_ld, View.readAt_eq_ld, View.readAt_eq_ld,
      View.ld_unit_zero (S := S128x10000) hz2 inb_S128x10000_S128x10000_0_0, View.ld_unit_zero (S := S10000x32) hz2 inb_S10000x32_S10000x32_0_0, View.ld_unit_zero (S := S1x32) hz2 inb_S1x32_S1x32_0_0]

end Cert.KernelIdeal.Hand

end
-- ==== Proof.Spec.lean ====
/-
  The mathematics of the two programs, on matrices of extended reals.

  A graph-convolution layer sends node features `H` to `relu (A · H · W + b)`.  One program multiplies
  left to right, `(A · H) · W`; the other first projects, `A · (H · W)`.  The two agree whenever every
  entry is a real number, by associativity of the matrix product over the reals; four layers are stacked,
  and each layer's output is again real because sums, products and `max · 0` of reals are real.
-/
import Mathlib.Data.EReal.Operations
import Mathlib.Algebra.BigOperators.Group.Finset.Basic
import Mathlib.Algebra.BigOperators.Ring.Finset
import Mathlib.Algebra.Order.BigOperators.Group.Finset

noncomputable section

open scoped BigOperators

namespace Cert.Spec

/-- An `M × N` matrix of extended reals. -/
abbrev Mat (M N : ℕ) : Type := Fin M → Fin N → EReal

variable {M K N n d e : ℕ}

/-- The matrix product. -/
def mm (A : Mat M K) (B : Mat K N) : Mat M N := fun r s => ∑ k : Fin K, A r k * B k s

/-- Add a row vector to every row, then clamp below at zero. -/
def act (Z : Mat M N) (b : Fin N → EReal) : Mat M N := fun r s => max (Z r s + b s) 0

/-- One layer as the reference computes it: `relu ((A · H) · W + b)`. -/
def refLayer (A : Mat n n) (H : Mat n d) (W : Mat d e) (b : Fin e → EReal) : Mat n e := act (mm (mm A H) W) b

/-- One layer as the kernel computes it from the projected features `G = H · W`: `relu (A · G + b)`. -/
def kerLayer (A : Mat n n) (G : Mat n e) (b : Fin e → EReal) : Mat n e := act (mm A G) b

/-- Every entry is a real number. -/
def IsReal (Z : Mat M N) : Prop := ∀ r s, ∃ x : ℝ, Z r s = (x : EReal)
/-- Every entry of a vector is a real number. -/
def IsRealV (b : Fin N → EReal) : Prop := ∀ s, ∃ x : ℝ, b s = (x : EReal)

/-- The coercion of reals into the extended reals commutes with finite sums. -/
private theorem coe_sum {ι : Type*} (t : Finset ι) (f : ι → ℝ) :
    (∑ i ∈ t, ((f i : ℝ) : EReal)) = ((∑ i ∈ t, f i : ℝ) : EReal) := by
  classical
  induction t using Finset.induction_on with
  | empty => simp
  | insert a t ha ih => rw [Finset.sum_insert ha, Finset.sum_insert ha, ih, EReal.coe_add]

/-- The product of two matrices with real witnesses is the coercion of the real matrix product. -/
private theorem mm_coe {A : Mat M K} {B : Mat K N} {a : Fin M → Fin K → ℝ} {b : Fin K → Fin N → ℝ}
    (ha : ∀ r k, A r k = (a r k : EReal)) (hb : ∀ k s, B k s = (b k s : EReal)) (r : Fin M) (s : Fin N) :
    mm A B r s = ((∑ k : Fin K, a r k * b k s : ℝ) : EReal) := by
  unfold mm
  rw [← coe_sum]
  refine Finset.sum_congr rfl (fun k _ => ?_)
  rw [ha, hb, EReal.coe_mul]

theorem isReal_mm {A : Mat M K} {B : Mat K N} (hA : IsReal A) (hB : IsReal B) : IsReal (mm A B) := by
  choose a ha using hA
  choose b hb using hB
  intro r s
  exact ⟨∑ k : Fin K, a r k * b k s, mm_coe ha hb r s⟩

theorem isReal_act {Z : Mat M N} {b : Fin N → EReal} (hZ : IsReal Z) (hb : IsRealV b) : IsReal (act Z b) := by
  intro r s
  obtain ⟨z, hz⟩ := hZ r s
  obtain ⟨c, hc⟩ := hb s
  refine ⟨max (z + c) 0, ?_⟩
  unfold act
  -- The coercion is monotone, hence commutes with the maximum.
  rw [hz, hc, ← EReal.coe_add, ← EReal.coe_zero]
  exact (EReal.coe_strictMono.monotone.map_max).symm

/-- Associativity of the product of real matrices, stated on the extended reals. -/
theorem mm_assoc {A : Mat M K} {B : Mat K N} {C : Mat N n} (hA : IsReal A) (hB : IsReal B) (hC : IsReal C) :
    mm (mm A B) C = mm A (mm B C) := by
  choose a ha using hA
  choose b hb using hB
  choose c hc using hC
  funext r s
  -- Both sides are coercions of real double sums; these agree by distributivity, exchange of the
  -- order of summation, and associativity of multiplication over the reals.
  rw [mm_coe (fun r k => mm_coe ha hb r k) hc r s, mm_coe ha (fun k s => mm_coe hb hc k s) r s]
  congr 1
  simp only [Finset.sum_mul, Finset.mul_sum]
  rw [Finset.sum_comm]
  refine Finset.sum_congr rfl (fun k _ => Finset.sum_congr rfl (fun j _ => ?_))
  rw [mul_assoc]

/-- The reference's four layers. -/
def refNet (A : Mat n n) (X : Mat n 512) (W1 : Mat 512 256) (b1 : Fin 256 → EReal) (W2 : Mat 256 128) (b2 : Fin 128 → EReal)
    (W3 : Mat 128 64) (b3 : Fin 64 → EReal) (W4 : Mat 64 32) (b4 : Fin 32 → EReal) : Mat n 32 :=
  refLayer A (refLayer A (refLayer A (refLayer A X W1 b1) W2 b2) W3 b3) W4 b4

/-- The kernel's five stages: project, then three fused layers each followed by the next projection, then the last layer. -/
def kerNet (A : Mat n n) (X : Mat n 512) (W1 : Mat 512 256) (b1 : Fin 256 → EReal) (W2 : Mat 256 128) (b2 : Fin 128 → EReal)
    (W3 : Mat 128 64) (b3 : Fin 64 → EReal) (W4 : Mat 64 32) (b4 : Fin 32 → EReal) : Mat n 32 :=
  kerLayer A (mm (kerLayer A (mm (kerLayer A (mm (kerLayer A (mm X W1) b1) W2) b2) W3) b3) W4) b4

/-- On real inputs the two networks agree. -/
theorem kerNet_eq_refNet {A : Mat n n} {X : Mat n 512} {W1 : Mat 512 256} {b1 : Fin 256 → EReal} {W2 : Mat 256 128} {b2 : Fin 128 → EReal}
    {W3 : Mat 128 64} {b3 : Fin 64 → EReal} {W4 : Mat 64 32} {b4 : Fin 32 → EReal}
    (hA : IsReal A) (hX : IsReal X) (hW1 : IsReal W1) (hb1 : IsRealV b1) (hW2 : IsReal W2) (hb2 : IsRealV b2)
    (hW3 : IsReal W3) (hb3 : IsRealV b3) (hW4 : IsReal W4) (hb4 : IsRealV b4) :
    kerNet A X W1 b1 W2 b2 W3 b3 W4 b4 = refNet A X W1 b1 W2 b2 W3 b3 W4 b4 := by
  -- One layer: the reference's left-to-right product equals the kernel's projected product.
  have layer : ∀ {d e : ℕ} {H : Mat n d} {W : Mat d e} (b : Fin e → EReal), IsReal H → IsReal W →
      refLayer A H W b = kerLayer A (mm H W) b := by
    intro d e H W b hH hW
    unfold refLayer kerLayer
    rw [mm_assoc hA hH hW]
  -- Each layer's output is again real.
  have real : ∀ {d e : ℕ} {H : Mat n d} {W : Mat d e} {b : Fin e → EReal}, IsReal H → IsReal W → IsRealV b →
      IsReal (refLayer A H W b) := by
    intro d e H W b hH hW hb
    exact isReal_act (isReal_mm (isReal_mm hA hH) hW) hb
  have h1 := real hX hW1 hb1
  have h2 := real h1 hW2 hb2
  have h3 := real h2 hW3 hb3
  unfold kerNet refNet
  rw [layer b4 h3 hW4, layer b3 h2 hW3, layer b2 h1 hW2, layer b1 hX hW1]

end Cert.Spec

end
-- ==== Proof.MatIdx.lean ====
/-
  Arrays of rank two and one on the extended reals, read as matrices and vectors and back: entry `(r, s)` of the
  matrix of an array is the array at the index with coordinates `r` and `s`.  (On the extended reals every float
  format is the same set of values, so an array of any format is a function from indices to extended reals.)
-/
import Idealize.ShloMosaic.Lib.ValueIdx
import Idealize.ShloMosaic.PureOps.Ideal
import proofs.«164197_g26036091748832_cont_9to1_1945_4_alg».proof.Proof.Spec

noncomputable section

namespace Cert.MatIdx

open Idealize.ShloMosaic Idealize.ShloMosaic.ValueIdx

variable {M N : ℕ}

/-- A rank-two array of extended reals. -/
abbrev Arr2 (M N : ℕ) : Type := (⟨2, ![M, N]⟩ : Shape).Idx → EReal
/-- A rank-one array of extended reals. -/
abbrev Arr1 (N : ℕ) : Type := (⟨1, ![N]⟩ : Shape).Idx → EReal

/-- The matrix of a rank-two array. -/
def toMat (v : Arr2 M N) : Cert.Spec.Mat M N := fun r s => v (ix2 r s)
/-- The vector of a rank-one array. -/
def toVec (v : Arr1 N) : Fin N → EReal := fun s => v (ix1 s)
/-- The rank-two array of a matrix. -/
def ofMat (Z : Cert.Spec.Mat M N) : Arr2 M N := fun j => Z (j 0) (j 1)

theorem ofMat_ix2 (Z : Cert.Spec.Mat M N) (r : Fin M) (s : Fin N) : ofMat Z (ix2 r s) = Z r s := rfl
theorem toMat_apply (v : Arr2 M N) (r : Fin M) (s : Fin N) : toMat v r s = v (ix2 r s) := rfl
theorem toVec_apply (v : Arr1 N) (s : Fin N) : toVec v s = v (ix1 s) := rfl
theorem toMat_ofMat (Z : Cert.Spec.Mat M N) : toMat (ofMat Z) = Z := rfl
theorem ofMat_toMat (v : Arr2 M N) : ofMat (toMat v) = v :=
  funext fun j => (congrArg v (eq_ix2 j)).symm
/-- Two rank-two arrays are equal when they agree at every pair of coordinates. -/
theorem ext_ix2 {u v : Arr2 M N} (h : ∀ r s, u (ix2 r s) = v (ix2 r s)) : u = v :=
  funext fun j => by rw [eq_ix2 j]; exact h _ _

end Cert.MatIdx

end
-- ==== Proof.IForms.lean ====
/-
  What each of the kernel's five stages leaves in its result arrays, as a function of the arrays it reads:
  a projection `X · W`; a layer `relu (A · G + b)` followed by the next projection; the last layer alone.
  The bias arrives as a one-row matrix.
-/
import proofs.«164197_g26036091748832_cont_9to1_1945_4_alg».proof.Proof.MatIdx

noncomputable section

namespace Cert.Forms

open Idealize.ShloMosaic Idealize.ShloMosaic.ValueIdx Cert.MatIdx Cert.Spec

variable {n d e : ℕ}

/-- The one row of a `1 × d` array, as a vector. -/
def rowVec (b : Arr2 1 d) : Fin d → EReal := fun s => b (ix2 0 s)

/-- Stage 0: the projection `X · W`. -/
def proj (X : Arr2 n d) (W : Arr2 d e) : Arr2 n e := ofMat (mm (toMat X) (toMat W))

/-- Stages 1 to 3: `relu (A · G + b) · Wn`. -/
def layerProj (A : Arr2 n n) (G : Arr2 n d) (b : Arr2 1 d) (Wn : Arr2 d e) : Arr2 n e :=
  ofMat (mm (kerLayer (toMat A) (toMat G) (rowVec b)) (toMat Wn))

/-- Stage 4: `relu (A · G + b)`. -/
def layerLast (A : Arr2 n n) (G : Arr2 n d) (b : Arr2 1 d) : Arr2 n d :=
  ofMat (kerLayer (toMat A) (toMat G) (rowVec b))

end Cert.Forms

end
-- ==== Proof.LibMatmulPlain.lean ====
/-
  A plain matrix product read at one entry, on the extended reals.

  For the dimension numbers of an `[M, K]` by `[K, N]` product (contract the left operand's columns with the right
  operand's rows, no batch axis), the matrix unit's product accumulated into a zero block, and the host's
  `dot_general`, are both, at entry `(r, s)`, the sum over `k` of `lhs[r, k] · rhs[k, s]`: the contraction index
  has one coordinate, and the operand indices at `(r, s)` and `k` are `(r, k)` and `(k, s)`.
-/
import Idealize.ShloMosaic.PureOps.Ideal.Laws
import Idealize.ShloMosaic.Lib.ValueIdx

noncomputable section

open scoped BigOperators
open Idealize.ShloMosaic Idealize.ShloMosaic.ValueIdx

namespace Cert.MatmulPlain

variable {M K N : Nat}

/-- The left operand's index at output `(r, s)` and contraction coordinate `k` is `(r, k)`. -/
theorem lhsIdx_plain (r : Fin M) (s : Fin N) (k : Fin K) :
    (DotDims.plain M K N).lhsIdx (ix2 r s) ((contrEquiv1 (DotDims.plain M K N) K rfl rfl).symm k) = ix2 r k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 r s) _).trans hk

/-- The right operand's index there is `(k, s)`. -/
theorem rhsIdx_plain (r : Fin M) (s : Fin N) (k : Fin K) :
    (DotDims.plain M K N).rhsIdx (ix2 r s) ((contrEquiv1 (DotDims.plain M K N) K rfl rfl).symm k) = ix2 k s := by
  have hk := contrEquiv1_symm_val (DotDims.plain M K N) K rfl rfl k
  funext a
  refine Fin.ext ?_
  match a with
  | ⟨0, _⟩ => exact ((DotDims.plain M K N).rhsIdx_val_of_single rfl (ix2 r s) _).trans hk
  | ⟨1, _⟩ => rfl

/-- The matrix unit's product into a zero accumulator, at entry `(r, s)`: `Σ_k lhs[r, k] · rhs[k, s]`. -/
theorem matmul_zero_apply {φ₁ φ₂ : FTy} (prec : Option ContractPrecision)
    (lhs : FVec Ideal ⟨2, ![M, K]⟩ φ₁) (rhs : FVec Ideal ⟨2, ![K, N]⟩ φ₂) (r : Fin M) (s : Fin N) :
    FloatOps.matmul (DotDims.plain M K N) prec lhs rhs (constant ⟨2, ![M, N]⟩ .f32 0x00000000#32) (ix2 r s)
      = ∑ k : Fin K, lhs (ix2 r k) * rhs (ix2 k s) := by
  rw [Ideal.matmul_constant_zero_apply, ← Equiv.sum_comp (contrEquiv1 (DotDims.plain M K N) K rfl rfl).symm]
  refine Finset.sum_congr rfl fun k _ => ?_
  rw [lhsIdx_plain, rhsIdx_plain]

/-- The host's `dot_general` at entry `(r, s)`: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (s : Fin N) :
    FloatOps.dotGeneral (DotDims.plain M K N) prec sched lhs rhs (ix2 r s)
      = ∑ k : Fin K, lhs (ix2 r k) * rhs (ix2 k s) := by
  rw [Ideal.dotGeneral_apply, ← Equiv.sum_comp (contrEquiv1 (DotDims.plain M K N) K rfl rfl).symm]
  refine Finset.sum_congr rfl fun k _ => ?_
  rw [lhsIdx_plain, rhsIdx_plain]

end Cert.MatmulPlain

end
-- ==== Proof.IDat0.lean ====
/-
  Region 0 of the kernel program on the extended reals: the projection of the node features, X · W1.
  Its grid walks the 10000 rows in five blocks of 2000 rows, which tile the rows exactly: no block is cut.
  At each point the body multiplies the current 2000 × 512 block of X by the whole of W1 and writes the
  2000 × 256 block of the result.  Entry (r, s) of the block at point t is the sum over k of
  X[2000 t + r, k] · W1[k, s], which is entry (2000 t + r, s) of the product of the whole arrays: each entry of a
  matrix product reads one row of the left factor.  So every point writes back its block of the one array X · W1,
  and the five blocks cover every row.
-/
import proofs.«164197_g26036091748832_cont_9to1_1945_4_alg».proof.Proof.IBody
import proofs.«164197_g26036091748832_cont_9to1_1945_4_alg».proof.Proof.IForms
import proofs.«164197_g26036091748832_cont_9to1_1945_4_alg».proof.Proof.LibMatmulPlain
import Idealize.ShloMosaic.Lib.Pipeline.FrameBody
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.Forms Cert.MatIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

local notation "𝕄" => MT nD τ sig Unit (Elt Ideal) ℕ (UR sig nD τ) ℕ

-- The contents of every buffer of the TensorCore when region 0 is entered: the parameter the region's account is stated at.
variable (V : (c : Dev nD) → (b : Ref sig .tc) → Buf (Elt Ideal) ((c : Thread nD τ).loc b))

/-! ## The windows' blocks and the closed form -/

/-- Window `w`'s block at point `t`, read off its array as the region finds it. -/
def iblk0 (c : Dev nD) (w : Fin cfg0.W) (t : Fin cfg0.N) : ((cfg0.win w).xblock (cfg0.grid.coords t)).Idx → Elt Ideal (cfg0.win w).elt :=
  ((cfg0.win w).blk t).view.read (Elt Ideal) (V c (Pipeline.arrRef spec0 w))

/-- The projection of the two operand arrays as the region finds them: what the result array ends holding. -/
def G0 (c : Dev nD) : Arr2 10000 256 := proj (V c main_arg0) (V c main_arg2)

/-- The printed index maps over the five points: the row windows sit at block `t` of the rows and block 0 of the
    columns, the weight window at block 0 of both axes. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 5 :=
  (by decide +kernel : ∀ t : Fin grid0.N, _)

/-! ## The body's arithmetic at one entry -/

/-- The body's payload at entry `(r, s)`: the product's sum over the contracted axis (the change of float format is
    the identity on the extended reals, and the accumulator starts at zero). -/
theorem pay0_apply (x0 : FVec Ideal S2000x512 .f32) (x1 : FVec Ideal S512x256 .f32) (r : Fin 2000) (s : Fin 256) :
    k0_pay1 (F := Ideal) x0 x1 (ix2 r s) = ∑ k : Fin 512, x0 (ix2 r k) * x1 (ix2 k s) := by
  unfold k0_pay1
  rw [truncf_apply]
  simp only [matmul]
  exact Cert.MatmulPlain.matmul_zero_apply (M := 2000) (K := 512) (N := 256) none x0 x1 r s

/-- One entry of one block: if the left operand's buffer holds rows `2000 q …` of `X` and the right operand's holds
    `W`, the payload at `(r, s)` is entry `(2000 q + r, s)` of `X · W`. -/
theorem pay0_entry (X : Arr2 10000 512) (W : Arr2 512 256) (x0 : FVec Ideal S2000x512 .f32) (x1 : FVec Ideal S512x256 .f32)
    (q : Nat) (hq : q < 5)
    (h0 : ∀ (r : Fin 2000) (k : Fin 512), x0 (ix2 r k) = X (ix2 (⟨q * 2000 + r.val, by omega⟩ : Fin 10000) k))
    (h1 : ∀ (k : Fin 512) (s : Fin 256), x1 (ix2 k s) = W (ix2 k s)) (r : Fin 2000) (s : Fin 256) :
    k0_pay1 (F := Ideal) x0 x1 (ix2 r s) = proj X W (ix2 (⟨q * 2000 + r.val, by omega⟩ : Fin 10000) s) := by
  rw [pay0_apply]
  show _ = ∑ k : Fin 512, toMat X _ k * toMat W k s
  refine Finset.sum_congr rfl fun k _ => ?_
  rw [h0, h1, toMat_apply, toMat_apply]

/-- THE BLOCK: the body's payload of the two operand blocks at point `t` is block `t` of the projection. -/
theorem pay0_blk (c : Dev nD) (t : Fin cfg0.N) :
    k0_pay1 (F := Ideal) (iblk0 V c 0 t) (iblk0 V c 1 t) = ((cfg0.win 2).blk t).view.read (Elt Ideal) (G0 V c) := by
  obtain ⟨e0, e1, e2, e3, e4, e5, e6⟩ := idx_facts0 t
  funext j
  have hj0 : (j 0).val < 2000 := (j 0).isLt
  have hj1 : (j 1).val < 256 := (j 1).isLt
  have hrhs : ((cfg0.win 2).blk t).view.read (Elt Ideal) (G0 V c) j
      = G0 V c (ix2 (⟨t.val * 2000 + (j 0).val, by omega⟩ : Fin 10000) (⟨(j 1).val, hj1⟩ : Fin 256)) := by
    show G0 V c (((cfg0.win 2).blk t).view.emb j) = _
    congr 1
    funext a; apply Fin.ext
    match a with
    | ⟨0, _⟩ => show win0_2.index t (0 : Fin 2) * 2000 + 1 * (j 0).val = t.val * 2000 + (j 0).val; omega
    | ⟨1, _⟩ => show win0_2.index t (1 : Fin 2) * 256 + 1 * (j 1).val = (j 1).val; omega
  have hj : j = ix2 (⟨(j 0).val, hj0⟩ : Fin 2000) (⟨(j 1).val, hj1⟩ : Fin 256) := by
    funext a
    match a with
    | ⟨0, _⟩ => rfl
    | ⟨1, _⟩ => rfl
  rw [hrhs]
  refine (congrArg (k0_pay1 (F := Ideal) (iblk0 V c 0 t) (iblk0 V c 1 t)) hj).trans ?_
  refine pay0_entry (V c main_arg0) (V c main_arg2) (iblk0 V c 0 t) (iblk0 V c 1 t) t.val e6 ?_ ?_ _ _
  · intro r k
    show V c main_arg0 (((cfg0.win 0).blk t).view.emb (ix2 r k)) = _
    congr 1
    funext a; apply Fin.ext
    match a with
    | ⟨0, _⟩ => show win0_0.index t (0 : Fin 2) * 2000 + 1 * r.val = t.val * 2000 + r.val; omega
    | ⟨1, _⟩ => show win0_0.index t (1 : Fin 2) * 512 + 1 * k.val = k.val; omega
  · intro k s
    show V c main_arg2 (((cfg0.win 1).blk t).view.emb (ix2 k s)) = _
    congr 1
    funext a; apply Fin.ext
    match a with
    | ⟨0, _⟩ => show win0_1.index t (0 : Fin 2) * 512 + 1 * k.val = k.val; omega
    | ⟨1, _⟩ => show win0_1.index t (1 : Fin 2) * 256 + 1 * s.val = s.val; omega

/-! ## The pipeline's proof data -/

/-- Region 0's proof data on core `c`: the arrays as the region finds them; what the body leaves in each window's staging
    buffer at each grid point; the invariant that rides along untouched; nothing owed; full shares. -/
def dat0 (c : Dev nD) : Dat τ (Elt Ideal) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => ((cfg0.win 2).blk t).view.read (Elt Ideal) (G0 V c)
  Φ _ := Pipeline.ΦA spec0 c
  q _ := fullShare
  owed _ := 0

theorem A_eq0 (c : Dev nD) (w : Fin cfg0.W) : (dat0 V c).A w = V c (Pipeline.arrRef spec0 w) := by
  dsimp only [dat0]

/-- What the body leaves, window by window: each operand's block in place, the result's block of the projection. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = ((cfg0.win 2).blk t).view.read (Elt Ideal) (G0 V c) := by dsimp only [dat0]

/-- Each operand's current staging buffer holds its block at every point, fetched there or not: unfetched, the block
    index has not moved, and the body left the block in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the operands' buffers hold their blocks, so the body's triple applies, and what it leaves in
    the result's buffer is the block of the projection; the invariant and the core's debts pass through unread. -/
theorem sound_body0 (c : Dev nD) (t : Fin cfg0.N) :
    bodyPre0 V c t ⊢ wp frame (wpE (defs₀ (F := Ideal)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, ← pay0_blk]
  iintro ⟨HΦ, Ho, ⟨%d0, H0⟩, ⟨%d1, H1⟩, ⟨%d2, H2⟩⟩
  iapply (sound_kernel0 (F := Ideal) c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The exact body obligation, at every point. -/
theorem body_obligation0 (c : Dev nD) : BodyObligation (dat0 V c) (defs₀ (F := Ideal)) Variants.none () Set.univ := fun t => by
  rw [bigSep_W0, bigSep_W0]
  exact sound_body0 V c t

/-- The body obligation at every grid point, the cut windows stated on the rows inside their arrays. -/
theorem ibody0 (c : Dev nD) : BodyObligationLoose (dat0 V c) (defs₀ (F := Ideal)) Variants.none () Set.univ := by
  exact (body_obligation0 V c).loose

/-! ## From blocks to the array -/

/-- What point `t` writes back is block `t` of the projection. -/
theorem flushed0_2 (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]

/-- An index of the result array is in point `t`'s block iff each coordinate is in the block's range on its axis. -/
theorem mem_blk0_2 (t : Fin cfg0.N) (i : S10000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v0).slice (win0_2.rect t)).set ↔ _
  rw [View.set_slice_whole, Rect.mem_set_unit]
  exact Iff.rfl

/-- Every index of the result array lies in the block of the point its row falls in: row `r` in block `r / 2000`. -/
theorem cover0_2 (i : S10000x256.Idx) : ∃ t : Fin cfg0.N, (cfg0.win 2).flush t = true ∧ i ∈ ((cfg0.win 2).blk t).view.set := by
  have hi0 : (i 0).val < 10000 := (i 0).isLt
  have hi1 : (i 1).val < 256 := (i 1).isLt
  have hN : cfg0.N = 5 := N_0
  let t : Fin cfg0.N := ⟨(i 0).val / 2000, by rw [hN]; omega⟩
  have ht : t.val = (i 0).val / 2000 := rfl
  obtain ⟨e0, e1, e2, e3, e4, e5, e6⟩ := idx_facts0 t
  refine ⟨t, flush0_2 t, ?_⟩
  rw [mem_blk0_2]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- After every write-back the result array holds the projection of the two operand arrays. -/
theorem final0_2 (c : Dev nD) : (dat0 V c).arrAt (2 : Fin cfg0.W) cfg0.N = (proj (V c main_arg0) (V c main_arg2) : Arr2 10000 256) := by
  exact (dat0 V c).arrAt_eq_of_cover 2 (G0 V c) (fun t _ => flushed0_2 V c t) cover0_2

end Cert.KernelIdeal.Hand

end
-- ==== Proof.IDat1.lean ====
/-
  Region 1 of the kernel program on the extended reals: the first layer, which also copies the adjacency array at the narrower format, followed by the second projection.
  Its grid walks the rows in blocks; the last block of a 128-row window overhangs the array's 10000 rows, and what the
  staging buffer holds past the array's end is not named: the body's result on the rows inside the array depends
  only on the operand's rows inside the array, because each entry of a matrix product reads one row of the left factor.
-/
import proofs.«164197_g26036091748832_cont_9to1_1945_4_alg».proof.Proof.IBody
import proofs.«164197_g26036091748832_cont_9to1_1945_4_alg».proof.Proof.IForms
import proofs.«164197_g26036091748832_cont_9to1_1945_4_alg».proof.Proof.LibMatmulPlain
import Idealize.ShloMosaic.Lib.Pipeline.FrameBody
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.Forms Cert.MatIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

local notation "𝕄" => MT nD τ sig Unit (Elt Ideal) ℕ (UR sig nD τ) ℕ

-- The contents of every buffer of the TensorCore when region 1 is entered: the parameter the region's account is stated at.
variable (V : (c : Dev nD) → (b : Ref sig .tc) → Buf (Elt Ideal) ((c : Thread nD τ).loc b))

/-- Window `w`'s block at point `t`, read off its array as the region finds it: for a window whose last block
    overhangs the array, the block's part inside the array. -/
private def iblk1 (c : Dev nD) (w : Fin cfg1.W) (t : Fin cfg1.N) : ((cfg1.win w).xblock (cfg1.grid.coords t)).Idx → Elt Ideal (cfg1.win w).elt :=
  ((cfg1.win w).blk t).view.read (Elt Ideal) (V c (Pipeline.arrRef spec1 w))

/-- The first result array in closed form: the adjacency array (a change of float format is the identity). -/
private def adj1 (c : Dev nD) : Arr2 10000 10000 := V c main_arg1

/-- The second result array in closed form: the layer of the operand arrays followed by the next projection. -/
private def lay1 (c : Dev nD) : Arr2 10000 128 := layerProj (V c main_arg1) (V c main_v0) (V c main_v1) (V c main_arg4)

/-- Region 1's proof data on core `c`: the arrays as the region finds them; what the body leaves in each window's staging
    buffer at each grid point; the invariant that rides along untouched; nothing owed; full shares. -/
def dat1 (c : Dev nD) : Dat τ (Elt Ideal) Unit ℕ (UR sig nD τ) ℕ cfg1 c where
  A w := V c (Pipeline.arrRef spec1 w)
  after w t := match w with
    | ⟨0, _⟩ => win1_0.fill (grid1.coords t) (fun _ => (0 : EReal)) (iblk1 V c 0 t)
    | ⟨1, _⟩ => iblk1 V c 1 t
    | ⟨2, _⟩ => iblk1 V c 2 t
    | ⟨3, _⟩ => iblk1 V c 3 t
    | ⟨4, _⟩ => win1_4.fill (grid1.coords t) (fun _ => (0 : EReal)) ((win1_4.blk t).view.read (Elt Ideal) (adj1 V c))
    | ⟨5, _⟩ => win1_5.fill (grid1.coords t) (fun _ => (0 : EReal)) ((win1_5.blk t).view.read (Elt Ideal) (lay1 V c))
  Φ _ := Pipeline.ΦA spec1 c
  q _ := fullShare
  owed _ := 0

theorem A_eq1 (c : Dev nD) (w : Fin cfg1.W) : (dat1 V c).A w = V c (Pipeline.arrRef spec1 w) := by
  dsimp only [dat1]

private theorem after1_0 (c : Dev nD) (t : Fin cfg1.N) : (dat1 V c).after 0 t = win1_0.fill (grid1.coords t) (fun _ => (0 : EReal)) (iblk1 V c 0 t) := by dsimp only [dat1]
private theorem after1_1 (c : Dev nD) (t : Fin cfg1.N) : (dat1 V c).after 1 t = iblk1 V c 1 t := by dsimp only [dat1]
private theorem after1_2 (c : Dev nD) (t : Fin cfg1.N) : (dat1 V c).after 2 t = iblk1 V c 2 t := by dsimp only [dat1]
private theorem after1_3 (c : Dev nD) (t : Fin cfg1.N) : (dat1 V c).after 3 t = iblk1 V c 3 t := by dsimp only [dat1]
private theorem after1_4 (c : Dev nD) (t : Fin cfg1.N) : (dat1 V c).after 4 t = win1_4.fill (grid1.coords t) (fun _ => (0 : EReal)) ((win1_4.blk t).view.read (Elt Ideal) (adj1 V c)) := by dsimp only [dat1]
private theorem after1_5 (c : Dev nD) (t : Fin cfg1.N) : (dat1 V c).after 5 t = win1_5.fill (grid1.coords t) (fun _ => (0 : EReal)) ((win1_5.blk t).view.read (Elt Ideal) (lay1 V c)) := by dsimp only [dat1]

/-! ## The body's arithmetic at one entry -/

/-- The printed dimension numbers of the two products are the plain ones. -/
private theorem dotA_eq : dot_S128x10000_S10000x256_S128x256_1_0_0_1_n_n = DotDims.plain 128 10000 256 := rfl
private theorem dotB_eq : dot_S128x256_S256x128_S128x128_1_0_0_1_n_n = DotDims.plain 128 256 128 := rfl

/-- Entry `(r, s)` of the body's second result, from the staging buffers it loads: the product with the next weight of
    the clamped, biased product of row `r` of the first buffer with the second. Only row `r` of the first buffer is read. -/
private theorem pay2_apply (x1 : Vec Ideal S128x10000 .f32) (x2 : Vec Ideal S10000x256 .bf16) (x3 : Vec Ideal S1x256 .f32) (x4 : Vec Ideal S256x128 .f32)
    (r : Fin 128) (s : Fin 128) :
    k1_pay2 x1 x2 x3 x4 (ix2 r s)
      = ∑ k : Fin 256, max ((∑ m : Fin 10000, x1 (ix2 r m) * x2 (ix2 m k)) + x3 (ix2 0 k)) 0 * x4 (ix2 k s) := by
  unfold k1_pay2 k1_pay1
  simp only [matmul]
  rw [truncf_apply, dotB_eq, Cert.MatmulPlain.matmul_zero_apply]
  refine Finset.sum_congr rfl fun k _ => ?_
  rw [maximumf_apply, addf_apply, broadcast_apply, dotA_eq, Cert.MatmulPlain.matmul_zero_apply,
    shapeCast_self, shapeCast_self, broadcastTo_1b_ab_apply]
  show max ((∑ m : Fin 10000, x1 (ix2 r m) * x2 (ix2 m k)) + x3 (ix2 0 k)) (Ideal.ofBits .f32 0x00000000#32) * x4 (ix2 k s) = _
  rw [Ideal.ofBits_zero_f32]

/-- Entry `(r, c)` of the body's first result: the first buffer's entry (the change of format is the identity). -/
private theorem pay1_apply (x1 : Vec Ideal S128x10000 .f32) (j : S128x10000.Idx) : k1_pay1 x1 j = x1 j := rfl

/-! ## The printed index maps, decided over the grid -/

/-- The row-blocked windows (the adjacency operand and the two results) sit at block row `t`, block column `0`, and
    move `min 128 (10000 - 128 t)` rows: all 128 but at the last point, 16; the whole-array operands sit at block `(0, 0)`. -/
private theorem idx_facts1 : ∀ t : Fin cfg1.N,
    win1_0.index t (0 : Fin 2) = t.val ∧ win1_0.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_0.xsize (grid1.coords t) (0 : Fin 2) = min 128 (10000 - 128 * t.val) ∧ win1_0.xsize (grid1.coords t) (1 : Fin 2) = 10000
    ∧ win1_4.xsize (grid1.coords t) (0 : Fin 2) = min 128 (10000 - 128 * t.val) ∧ win1_4.xsize (grid1.coords t) (1 : Fin 2) = 10000
    ∧ win1_5.xsize (grid1.coords t) (0 : Fin 2) = min 128 (10000 - 128 * t.val) ∧ win1_5.xsize (grid1.coords t) (1 : Fin 2) = 128
    ∧ t.val < 79 :=
  (by decide +kernel : ∀ t : Fin grid1.N, _)

/-! ## What the body finds in the operand windows' buffers -/

/-- The adjacency window is fetched at every point: its buffer holds the block's rows inside the array, and past the
    array's end words nothing names. -/
private theorem before1_0 (c : Dev nD) (t : Fin cfg1.N) (d) :
    (dat1 V c).before 0 t d = win1_0.fill (grid1.coords t) d (iblk1 V c 0 t) := by
  unfold Dat.before; rw [if_pos (fetch1_0 t)]
  unfold Dat.fetched Dat.blockOf iblk1; rw [A_eq1]; try rfl

/-- The whole-array operands are fetched once and left in place: their buffers hold the whole array at every point. -/
private theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
private theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
private theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-! ## Blocks read at an entry -/

/-- A buffer filled by a cut fetch, read at an index the fetch moved: what was fetched there. -/
private theorem fill_apply_of_lt {G : Pipeline.Grid} (w : Window sig G) {α : Type} (i : G.Coords) (d : w.block.Idx → α)
    (g : (w.xblock i).Idx → α) (jj : w.block.Idx) (h : ∀ a, (jj a).val < w.xsize i a) :
    w.fill i d g jj = g (fun a => ⟨(jj a).val, h a⟩) := by
  unfold Window.fill; rw [dif_pos ((w.moved_iff i jj).mpr h)]

/-- Row `r` of the adjacency window's buffer at point `t`, for `r` among the rows the fetch moved, is row `128 t + r` of
    the adjacency array, whatever the rows past the array's end hold. -/
private theorem adj_row (c : Dev nD) (t : Fin cfg1.N) (d0 : S128x10000.Idx → EReal) (r : Fin 128) (R : Fin 10000)
    (hr : r.val < min 128 (10000 - 128 * t.val)) (hR : R.val = 128 * t.val + r.val) (m : Fin 10000) :
    win1_0.fill (grid1.coords t) d0 (iblk1 V c 0 t) (ix2 r m) = (V c main_arg1 : Arr2 10000 10000) (ix2 R m) := by
  obtain ⟨e00, e01, -, -, -, -, -, -, -, -, -, -, x00, x01, -, -, -, -, ht⟩ := idx_facts1 t
  rw [fill_apply_of_lt win1_0 (grid1.coords t) d0 (iblk1 V c 0 t) (ix2 r m) (fun a => by
    match a with
    | ⟨0, _⟩ => show r.val < win1_0.xsize (grid1.coords t) (0 : Fin 2); rw [x00]; exact hr
    | ⟨1, _⟩ => show m.val < win1_0.xsize (grid1.coords t) (1 : Fin 2); rw [x01]; exact m.isLt)]
  unfold iblk1
  rw [View.read_apply]
  show (V c main_arg1 : Arr2 10000 10000) _ = _
  refine congrArg _ (funext fun a => Fin.ext ?_)
  match a with
  | ⟨0, _⟩ => show win1_0.index t (0 : Fin 2) * 128 + 1 * r.val = R.val; rw [e00, hR]; omega
  | ⟨1, _⟩ => show win1_0.index t (1 : Fin 2) * 10000 + 1 * m.val = m.val; rw [e01]; omega

/-- The whole-array operands' buffers read as their arrays. -/
private theorem g_apply (c : Dev nD) (t : Fin cfg1.N) (m : Fin 10000) (k : Fin 256) :
    iblk1 V c 1 t (ix2 m k) = (V c main_v0 : Arr2 10000 256) (ix2 m k) := by
  obtain ⟨-, -, -, -, -, -, e10, e11, -, -, -, -, -, -, -, -, -, -, ht⟩ := idx_facts1 t
  unfold iblk1
  rw [View.read_apply]
  show (V c main_v0 : Arr2 10000 256) _ = _
  refine congrArg _ (funext fun a => Fin.ext ?_)
  match a with
  | ⟨0, _⟩ => show win1_1.index t (0 : Fin 2) * 10000 + 1 * m.val = m.val; rw [e10]; omega
  | ⟨1, _⟩ => show win1_1.index t (1 : Fin 2) * 256 + 1 * k.val = k.val; rw [e11]; omega
private theorem b_apply (c : Dev nD) (t : Fin cfg1.N) (k : Fin 256) :
    iblk1 V c 2 t (ix2 (0 : Fin 1) k) = (V c main_v1 : Arr2 1 256) (ix2 0 k) := by
  obtain ⟨-, -, -, -, -, -, -, -, e20, e21, -, -, -, -, -, -, -, -, ht⟩ := idx_facts1 t
  unfold iblk1
  rw [View.read_apply]
  show (V c main_v1 : Arr2 1 256) _ = _
  refine congrArg _ (funext fun a => Fin.ext ?_)
  match a with
  | ⟨0, _⟩ => show win1_2.index t (0 : Fin 2) * 1 + 1 * 0 = 0; rw [e20]
  | ⟨1, _⟩ => show win1_2.index t (1 : Fin 2) * 256 + 1 * k.val = k.val; rw [e21]; omega
private theorem w_apply (c : Dev nD) (t : Fin cfg1.N) (k : Fin 256) (s : Fin 128) :
    iblk1 V c 3 t (ix2 k s) = (V c main_arg4 : Arr2 256 128) (ix2 k s) := by
  obtain ⟨-, -, -, -, -, -, -, -, -, -, e30, e31, -, -, -, -, -, -, ht⟩ := idx_facts1 t
  unfold iblk1
  rw [View.read_apply]
  show (V c main_arg4 : Arr2 256 128) _ = _
  refine congrArg _ (funext fun a => Fin.ext ?_)
  match a with
  | ⟨0, _⟩ => show win1_3.index t (0 : Fin 2) * 256 + 1 * k.val = k.val; rw [e30]; omega
  | ⟨1, _⟩ => show win1_3.index t (1 : Fin 2) * 128 + 1 * s.val = s.val; rw [e31]; omega

/-! ## The body's results on the rows inside the array are the closed forms' blocks -/

/-- Entry `(r, s)` of the body's second result, when row `r` of its first buffer is row `R` of the adjacency array and the
    other buffers hold the operand arrays, is entry `(R, s)` of the layer followed by the projection: a matrix product's
    entry reads one row of the left factor. -/
private theorem pay2_eq_layer (A : Arr2 10000 10000) (G : Arr2 10000 256) (b : Arr2 1 256) (Wn : Arr2 256 128)
    (x1 : Vec Ideal S128x10000 .f32) (x2 : Vec Ideal S10000x256 .bf16) (x3 : Vec Ideal S1x256 .f32) (x4 : Vec Ideal S256x128 .f32)
    (r : Fin 128) (R : Fin 10000) (s : Fin 128)
    (h1 : ∀ m : Fin 10000, x1 (ix2 r m) = A (ix2 R m)) (h2 : ∀ (m : Fin 10000) (k : Fin 256), x2 (ix2 m k) = G (ix2 m k))
    (h3 : ∀ k : Fin 256, x3 (ix2 (0 : Fin 1) k) = b (ix2 0 k)) (h4 : ∀ (k : Fin 256) (s : Fin 128), x4 (ix2 k s) = Wn (ix2 k s)) :
    k1_pay2 x1 x2 x3 x4 (ix2 r s) = layerProj A G b Wn (ix2 R s) := by
  rw [pay2_apply]
  show _ = ∑ k : Fin 256, max ((∑ m : Fin 10000, A (ix2 R m) * G (ix2 m k)) + b (ix2 0 k)) 0 * Wn (ix2 k s)
  refine Finset.sum_congr rfl fun k _ => ?_
  rw [h3 k, h4 k s, Finset.sum_congr rfl fun m _ => by rw [h1 m, h2 m k]]

/-- The first result's buffer, on the rows its write-back moves, holds the adjacency array's block. -/
private theorem cut_pay1 (c : Dev nD) (t : Fin cfg1.N) (d0 : S128x10000.Idx → EReal) :
    win1_4.cut (grid1.coords t) (k1_pay1 (F := Ideal) (win1_0.fill (grid1.coords t) d0 (iblk1 V c 0 t)))
      = (win1_4.blk t).view.read (Elt Ideal) (adj1 V c) := by
  obtain ⟨-, -, e40, e41, -, -, -, -, -, -, -, -, -, -, x40, x41, -, -, ht⟩ := idx_facts1 t
  funext j
  have hm := (win1_4.moved_iff (grid1.coords t) _).mp (win1_4.moved_xinj (grid1.coords t) j)
  have hj0 : (j 0).val < win1_4.xsize (grid1.coords t) (0 : Fin 2) := hm 0
  have hj1 : (j 1).val < win1_4.xsize (grid1.coords t) (1 : Fin 2) := hm 1
  rw [x40] at hj0; rw [x41] at hj1
  have hx : win1_4.xinj (grid1.coords t) j = ix2 (⟨(j 0).val, by omega⟩ : Fin 128) (⟨(j 1).val, hj1⟩ : Fin 10000) := by
    funext a; match a with | ⟨0, _⟩ => rfl | ⟨1, _⟩ => rfl
  have he : (win1_4.blk t).view.emb j = ix2 (⟨128 * t.val + (j 0).val, by omega⟩ : Fin 10000) (⟨(j 1).val, hj1⟩ : Fin 10000) := by
    funext a; apply Fin.ext
    match a with
    | ⟨0, _⟩ => show win1_4.index t (0 : Fin 2) * 128 + 1 * (j 0).val = 128 * t.val + (j 0).val; rw [e40]; omega
    | ⟨1, _⟩ => show win1_4.index t (1 : Fin 2) * 10000 + 1 * (j 1).val = (j 1).val; rw [e41]; omega
  rw [View.read_apply]
  show k1_pay1 (F := Ideal) _ (win1_4.xinj (grid1.coords t) j) = adj1 V c ((win1_4.blk t).view.emb j)
  rw [hx, he, pay1_apply]
  unfold adj1
  exact adj_row V c t d0 _ _ hj0 rfl _

/-- The second result's buffer, on the rows its write-back moves, holds the closed form's block. -/
private theorem cut_pay2 (c : Dev nD) (t : Fin cfg1.N) (d0 : S128x10000.Idx → EReal) :
    win1_5.cut (grid1.coords t) (k1_pay2 (F := Ideal) (win1_0.fill (grid1.coords t) d0 (iblk1 V c 0 t)) (iblk1 V c 1 t) (iblk1 V c 2 t) (iblk1 V c 3 t))
      = (win1_5.blk t).view.read (Elt Ideal) (lay1 V c) := by
  obtain ⟨-, -, -, -, e50, e51, -, -, -, -, -, -, -, -, -, -, x50, x51, ht⟩ := idx_facts1 t
  funext j
  have hm := (win1_5.moved_iff (grid1.coords t) _).mp (win1_5.moved_xinj (grid1.coords t) j)
  have hj0 : (j 0).val < win1_5.xsize (grid1.coords t) (0 : Fin 2) := hm 0
  have hj1 : (j 1).val < win1_5.xsize (grid1.coords t) (1 : Fin 2) := hm 1
  rw [x50] at hj0; rw [x51] at hj1
  have hx : win1_5.xinj (grid1.coords t) j = ix2 (⟨(j 0).val, by omega⟩ : Fin 128) (⟨(j 1).val, hj1⟩ : Fin 128) := by
    funext a; match a with | ⟨0, _⟩ => rfl | ⟨1, _⟩ => rfl
  have he : (win1_5.blk t).view.emb j = ix2 (⟨128 * t.val + (j 0).val, by omega⟩ : Fin 10000) (⟨(j 1).val, hj1⟩ : Fin 128) := by
    funext a; apply Fin.ext
    match a with
    | ⟨0, _⟩ => show win1_5.index t (0 : Fin 2) * 128 + 1 * (j 0).val = 128 * t.val + (j 0).val; rw [e50]; omega
    | ⟨1, _⟩ => show win1_5.index t (1 : Fin 2) * 128 + 1 * (j 1).val = (j 1).val; rw [e51]; omega
  rw [View.read_apply]
  show k1_pay2 (F := Ideal) _ _ _ _ (win1_5.xinj (grid1.coords t) j) = lay1 V c ((win1_5.blk t).view.emb j)
  rw [hx, he]
  unfold lay1
  exact pay2_eq_layer _ _ _ _ _ _ _ _ _ _ _ (adj_row V c t d0 _ _ hj0 rfl) (g_apply V c t) (b_apply V c t) (w_apply V c t)

/-! ## The body obligation -/

/-- What the body is called with at point `t`, the windows one by one, -/
private def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns: the whole-array operands' buffers exactly, the row-blocked windows' on the rows their transfers move. -/
private def bodyPost1 (c : Dev nD) (t : Fin cfg1.N) : sProp 𝕄 :=
  iprop((dat1 V c).Φ t.succ ∗ (dat1 V c).owesAt () t.succ
    ∗ (∃ d, owns (c : Thread nD τ) (st1_0 t) fullShare ((cfg1.win 0).fill (cfg1.grid.coords t) d ((cfg1.win 0).cut (cfg1.grid.coords t) ((dat1 V c).after 0 t))))
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ (∃ d, owns (c : Thread nD τ) (st1_4 t) fullShare ((cfg1.win 4).fill (cfg1.grid.coords t) d ((cfg1.win 4).cut (cfg1.grid.coords t) ((dat1 V c).after 4 t))))
    ∗ (∃ d, owns (c : Thread nD τ) (st1_5 t) fullShare ((cfg1.win 5).fill (cfg1.grid.coords t) d ((cfg1.win 5).cut (cfg1.grid.coords t) ((dat1 V c).after 5 t)))))

/-- The body at any point: the operand buffers hold their blocks (the adjacency window's filled out past the array's end
    with whatever the fetch left), so the body's triple applies; on the rows the write-backs move, what it leaves in the
    result buffers is the closed forms' blocks. The invariant and what the core owes pass through unread. -/
private theorem sound_body1 (c : Dev nD) (t : Fin cfg1.N) :
    bodyPre1 V c t ⊢ wp frame (wpE (defs₀ (F := Ideal)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 (F := Ideal) c Set.univ _ _ _ _ _ _ _ _ _ _ _ _ _
    (win1_0.fill (grid1.coords t) d0 (iblk1 V c 0 t)) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]
  · iexists d0
    rw [Window.cut_fill]; iexact H0
  isplitl [H1]; · iexact H1
  isplitl [H2]; · iexact H2
  isplitl [H3]; · iexact H3
  isplitl [H4]
  · iexists (k1_pay1 (F := Ideal) (win1_0.fill (grid1.coords t) d0 (iblk1 V c 0 t)))
    rw [Window.cut_fill, ← cut_pay1 V c t d0, Window.fill_cut]; iexact H4
  · iexists (k1_pay2 (F := Ideal) (win1_0.fill (grid1.coords t) d0 (iblk1 V c 0 t)) (iblk1 V c 1 t) (iblk1 V c 2 t) (iblk1 V c 3 t))
    rw [Window.cut_fill, ← cut_pay2 V c t d0, Window.fill_cut]; iexact H5

/-- The body obligation at every grid point, the cut windows stated on the rows inside their arrays. -/
theorem ibody1 (c : Dev nD) : BodyObligationLoose (dat1 V c) (defs₀ (F := Ideal)) Variants.none () Set.univ := fun t => by
  rw [bigSep_W1, bigSep_W1]
  exact sound_body1 V c t

/-! ## From blocks to the result arrays -/

/-- An index of the first result array is in point `t`'s block iff each coordinate is in the block's range inside the array. -/
private theorem mem_blk4 (t : Fin cfg1.N) (i : S10000x10000.Idx) :
    i ∈ ((cfg1.win 4).blk t).view.set ↔ ∀ a : Fin 2, win1_4.index t a * S128x10000.size a ≤ (i a).val
      ∧ (i a).val < win1_4.index t a * S128x10000.size a + win1_4.xsize (grid1.coords t) a := by
  show i ∈ ((View.whole main_v2_0).slice (win1_4.rect t)).set ↔ _
  rw [View.set_slice_whole, Rect.mem_set_unit]
  exact Iff.rfl

/-- Likewise for the second result array. -/
private theorem mem_blk5 (t : Fin cfg1.N) (i : S10000x128.Idx) :
    i ∈ ((cfg1.win 5).blk t).view.set ↔ ∀ a : Fin 2, win1_5.index t a * S128x128.size a ≤ (i a).val
      ∧ (i a).val < win1_5.index t a * S128x128.size a + win1_5.xsize (grid1.coords t) a := by
  show i ∈ ((View.whole main_v2_1).slice (win1_5.rect t)).set ↔ _
  rw [View.set_slice_whole, Rect.mem_set_unit]
  exact Iff.rfl

/-- Row `R` of a result array lies in the block of point `R / 128`: the 79 blocks' rows inside the array are all its rows. -/
private theorem cover4 (i : S10000x10000.Idx) :
    ∃ t : Fin cfg1.N, (cfg1.win 4).flush t = true ∧ i ∈ ((cfg1.win 4).blk t).view.set := by
  have hi0 : (i 0).val < 10000 := (i 0).isLt
  have hi1 : (i 1).val < 10000 := (i 1).isLt
  have hN : grid1.N = 79 := N_1
  obtain ⟨t, htv⟩ : ∃ t : Fin cfg1.N, t.val = (i 0).val / 128 :=
    ⟨⟨(i 0).val / 128, by show (i 0).val / 128 < grid1.N; rw [hN]; omega⟩, rfl⟩
  obtain ⟨-, -, e40, e41, -, -, -, -, -, -, -, -, -, -, x40, x41, -, -, ht⟩ := idx_facts1 t
  refine ⟨t, flush1_4 t, ?_⟩
  rw [mem_blk4]
  intro a
  match a with
  | ⟨0, _⟩ =>
    show win1_4.index t (0 : Fin 2) * 128 ≤ (i 0).val ∧ (i 0).val < win1_4.index t (0 : Fin 2) * 128 + win1_4.xsize (grid1.coords t) (0 : Fin 2)
    rw [e40, x40]; omega
  | ⟨1, _⟩ =>
    show win1_4.index t (1 : Fin 2) * 10000 ≤ (i 1).val ∧ (i 1).val < win1_4.index t (1 : Fin 2) * 10000 + win1_4.xsize (grid1.coords t) (1 : Fin 2)
    rw [e41, x41]; omega

private theorem cover5 (i : S10000x128.Idx) :
    ∃ t : Fin cfg1.N, (cfg1.win 5).flush t = true ∧ i ∈ ((cfg1.win 5).blk t).view.set := by
  have hi0 : (i 0).val < 10000 := (i 0).isLt
  have hi1 : (i 1).val < 128 := (i 1).isLt
  have hN : grid1.N = 79 := N_1
  obtain ⟨t, htv⟩ : ∃ t : Fin cfg1.N, t.val = (i 0).val / 128 :=
    ⟨⟨(i 0).val / 128, by show (i 0).val / 128 < grid1.N; rw [hN]; omega⟩, rfl⟩
  obtain ⟨-, -, -, -, e50, e51, -, -, -, -, -, -, -, -, -, -, x50, x51, ht⟩ := idx_facts1 t
  refine ⟨t, flush1_5 t, ?_⟩
  rw [mem_blk5]
  intro a
  match a with
  | ⟨0, _⟩ =>
    show win1_5.index t (0 : Fin 2) * 128 ≤ (i 0).val ∧ (i 0).val < win1_5.index t (0 : Fin 2) * 128 + win1_5.xsize (grid1.coords t) (0 : Fin 2)
    rw [e50, x50]; omega
  | ⟨1, _⟩ =>
    show win1_5.index t (1 : Fin 2) * 128 ≤ (i 1).val ∧ (i 1).val < win1_5.index t (1 : Fin 2) * 128 + win1_5.xsize (grid1.coords t) (1 : Fin 2)
    rw [e51, x51]; omega

/-- After every write-back the first result array holds the adjacency array, at the narrower format. -/
theorem final1_4 (c : Dev nD) : (dat1 V c).arrAt (4 : Fin cfg1.W) cfg1.N = (V c main_arg1 : Arr2 10000 10000) :=
  ((dat1 V c).arrAt_eq_of_cover 4 (adj1 V c) (fun t _ => by
    show (cfg1.win 4).cut (grid1.coords t) ((dat1 V c).after 4 t) = _
    rw [after1_4]; exact Window.cut_fill _ _ _ _) cover4).trans (by unfold adj1; rfl)

/-- After every write-back the second result array holds the layer of the operand arrays followed by the next projection. -/
theorem final1_5 (c : Dev nD) : (dat1 V c).arrAt (5 : Fin cfg1.W) cfg1.N = (layerProj (V c main_arg1) (V c main_v0) (V c main_v1) (V c main_arg4) : Arr2 10000 128) :=
  ((dat1 V c).arrAt_eq_of_cover 5 (lay1 V c) (fun t _ => by
    show (cfg1.win 5).cut (grid1.coords t) ((dat1 V c).after 5 t) = _
    rw [after1_5]; exact Window.cut_fill _ _ _ _) cover5).trans (by unfold lay1; rfl)

end Cert.KernelIdeal.Hand

end
-- ==== Proof.IDat2.lean ====
/-
  Region 2 of the kernel program on the extended reals: the second layer followed by the third projection.
  Its grid walks the rows in blocks; the last block of a 128-row window overhangs the array's 10000 rows, and what the
  staging buffer holds past the array's end is not named: the body's result on the rows inside the array depends
  only on the operand's rows inside the array, because each entry of a matrix product reads one row of the left factor.
-/
import proofs.«164197_g26036091748832_cont_9to1_1945_4_alg».proof.Proof.IBody
import proofs.«164197_g26036091748832_cont_9to1_1945_4_alg».proof.Proof.IForms
import proofs.«164197_g26036091748832_cont_9to1_1945_4_alg».proof.Proof.LibMatmulPlain
import Idealize.ShloMosaic.Lib.Pipeline.FrameBody
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.Forms Cert.MatIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

local notation "𝕄" => MT nD τ sig Unit (Elt Ideal) ℕ (UR sig nD τ) ℕ

/-- The body's arithmetic at one entry: the second product, into zero, of the clamped sum of the first product, into zero,
    and the bias row; rounding to a narrower format is the identity on the extended reals. -/
theorem k2_pay_apply (x1 : Vec Ideal S128x10000 .bf16) (x2 : Vec Ideal S10000x128 .bf16) (x3 : Vec Ideal S1x128 .f32)
    (x4 : Vec Ideal S128x64 .f32) (r : Fin 128) (s : Fin 64) :
    k2_pay1 x1 x2 x3 x4 (ix2 r s)
      = ∑ k' : Fin 128, max ((∑ k : Fin 10000, x1 (ix2 r k) * x2 (ix2 k k')) + x3 (ix2 0 k')) 0 * x4 (ix2 k' s) := by
  unfold k2_pay1
  simp only [matmul]
  rw [truncf_apply]
  refine (Cert.MatmulPlain.matmul_zero_apply (M := 128) (K := 128) (N := 64) none _ _ r s).trans ?_
  refine Finset.sum_congr rfl fun k' _ => ?_
  rw [maximumf_apply, broadcast_apply, addf_apply]
  have hz : (FloatOps.ofBits FTy.f32 0x00000000#32 : Ideal .f32) = 0 := Ideal.ofBits_zero_f32
  rw [hz, shapeCast_self, shapeCast_self, shapeCast_self, broadcastTo_1b_ab_apply]
  refine congrArg (fun z => max (z + x3 (ix2 0 k')) 0 * x4 (ix2 k' s)) ?_
  exact Cert.MatmulPlain.matmul_zero_apply (M := 128) (K := 10000) (N := 128) none _ _ r k'

/-- One entry of the body's result is the closed form's entry in the array's row `R`, as soon as row `r` of the left
    operand's buffer is row `R` of the adjacency array: entry `(r, s)` of a product reads only row `r` of the left factor. -/
theorem k2_block (A : Arr2 10000 10000) (G : Arr2 10000 128) (b : Arr2 1 128) (Wn : Arr2 128 64)
    (x1 : Vec Ideal S128x10000 .bf16) (x2 : Vec Ideal S10000x128 .bf16) (x3 : Vec Ideal S1x128 .f32) (x4 : Vec Ideal S128x64 .f32)
    (r : Fin 128) (R : Fin 10000) (s : Fin 64)
    (h1 : ∀ k : Fin 10000, x1 (ix2 r k) = A (ix2 R k)) (h2 : ∀ y, x2 y = G y) (h3 : ∀ y, x3 y = b y) (h4 : ∀ y, x4 y = Wn y) :
    k2_pay1 x1 x2 x3 x4 (ix2 r s) = layerProj A G b Wn (ix2 R s) := by
  rw [k2_pay_apply]
  unfold layerProj
  rw [ofMat_ix2]
  unfold Cert.Spec.mm Cert.Spec.kerLayer Cert.Spec.act Cert.Spec.mm rowVec toMat
  refine Finset.sum_congr rfl fun k' _ => ?_
  rw [h3, h4]
  refine congrArg (fun z => max (z + b (ix2 0 k')) 0 * Wn (ix2 k' s)) ?_
  refine Finset.sum_congr rfl fun k _ => ?_
  rw [h1, h2]

-- The contents of every buffer of the TensorCore when region 2 is entered: the parameter the region's account is stated at.
variable (V : (c : Dev nD) → (b : Ref sig .tc) → Buf (Elt Ideal) ((c : Thread nD τ).loc b))

/-- Window `w`'s block at point `t`, read off its array as the region finds it: its part inside the array. -/
def iblk2 (c : Dev nD) (w : Fin cfg2.W) (t : Fin cfg2.N) : ((cfg2.win w).xblock (cfg2.grid.coords t)).Idx → Elt Ideal (cfg2.win w).elt :=
  ((cfg2.win w).blk t).view.read (Elt Ideal) (V c (Pipeline.arrRef spec2 w))

/-- The result array in closed form: the layer of the operand arrays followed by the next projection. -/
def res2 (c : Dev nD) : Arr2 10000 64 :=
  layerProj (V c main_v2_0) (V c main_v2_1) (V c main_v3) (V c main_arg6)

/-- The closed form's block at point `t`, its part inside the array. -/
def oblk2 (c : Dev nD) (t : Fin cfg2.N) : ((cfg2.win 4).xblock (cfg2.grid.coords t)).Idx → Elt Ideal (cfg2.win 4).elt :=
  ((cfg2.win 4).blk t).view.read (Elt Ideal) (res2 V c)

/-- Region 2's proof data on core `c`: the arrays as the region finds them; what the body leaves in each window's staging
    buffer at each grid point — each operand's block as it was handed (the cut one filled out past the array's end with
    zeros, which nothing reads), the result's buffer at the closed form's block filled out likewise —; the invariant that
    rides along untouched; nothing owed; full shares. -/
def dat2 (c : Dev nD) : Dat τ (Elt Ideal) Unit ℕ (UR sig nD τ) ℕ cfg2 c where
  A w := V c (Pipeline.arrRef spec2 w)
  after w t := match w with
    | ⟨0, _⟩ => (cfg2.win 0).fill (cfg2.grid.coords t) (fun _ => (0 : EReal)) (iblk2 V c 0 t)
    | ⟨1, _⟩ => iblk2 V c 1 t
    | ⟨2, _⟩ => iblk2 V c 2 t
    | ⟨3, _⟩ => iblk2 V c 3 t
    | ⟨4, _⟩ => (cfg2.win 4).fill (cfg2.grid.coords t) (fun _ => (0 : EReal)) (oblk2 V c t)
  Φ _ := Pipeline.ΦA spec2 c
  q _ := fullShare
  owed _ := 0

theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = (cfg2.win 0).fill (cfg2.grid.coords t) (fun _ => (0 : EReal)) (iblk2 V c 0 t) := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (cfg2.win 4).fill (cfg2.grid.coords t) (fun _ => (0 : EReal)) (oblk2 V c t) := by dsimp only [dat2]

/-- What the body finds. The adjacency window is fetched at every point: its buffer holds the block's part inside the
    array, and past the array's end whatever was there (`d`). -/
theorem before2_0 (c : Dev nD) (t : Fin cfg2.N) (d) :
    (dat2 V c).before 0 t d = (cfg2.win 0).fill (cfg2.grid.coords t) d (iblk2 V c 0 t) := by
  unfold Dat.before; rw [if_pos (fetch2_0 t)]; unfold Dat.fetched Dat.blockOf iblk2; rw [A_eq2]

/-- A whole-array operand, fetched once and left in place by the body, holds its block at every point. -/
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]) t d).trans
    (by unfold Dat.fetched Dat.blockOf iblk2; rw [A_eq2]; try rfl)

/-- The result's buffer, written back at every point, holds contents nothing names. -/
theorem before2_4 (c : Dev nD) (t : Fin cfg2.N) (d) : (dat2 V c).before 4 t d = d :=
  (dat2 V c).before_out_reset 4 rfl t
    (by by_cases h : t.val = 0
        · exact .inl h
        · exact .inr ⟨h, flush2_4 _⟩) d

/-- The index maps and cuts of the row-blocked windows, decided over the grid: the row-blocked windows sit at block row `t`, column block 0;
    they are cut alike on the rows and not at all on the columns; a block is whole or reaches the array's end. -/
theorem idx_facts2 : ∀ t : Fin cfg2.N,
    win2_0.index t (0 : Fin 2) = t.val ∧ win2_0.index t (1 : Fin 2) = 0
    ∧ win2_4.index t (0 : Fin 2) = t.val ∧ win2_4.index t (1 : Fin 2) = 0
    ∧ win2_0.xsize (grid2.coords t) (0 : Fin 2) = win2_4.xsize (grid2.coords t) (0 : Fin 2)
    ∧ win2_0.xsize (grid2.coords t) (1 : Fin 2) = 10000
    ∧ win2_4.xsize (grid2.coords t) (1 : Fin 2) = 64
    ∧ (win2_4.xsize (grid2.coords t) (0 : Fin 2) = 128 ∨ 10000 ≤ t.val * 128 + win2_4.xsize (grid2.coords t) (0 : Fin 2)) :=
  (by decide +kernel : ∀ t : Fin grid2.N, _)

/-- The whole-array windows sit at block 0 on both axes. -/
theorem idx_whole2 : ∀ t : Fin cfg2.N,
    win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- A buffer filled at an index inside the moved part holds the fetched block's entry there. -/
private theorem fill_of_lt2 {G : Pipeline.Grid} (w : Window sig G) {α : Type} (i : G.Coords) (d : w.block.Idx → α)
    (g : (w.xblock i).Idx → α) (jj : w.block.Idx) (h : ∀ a, (jj a).val < w.xsize i a) :
    w.fill i d g jj = g (fun a => ⟨(jj a).val, h a⟩) := by
  unfold Window.fill; rw [dif_pos ((w.moved_iff i jj).mpr h)]

/-- A whole-array window's one block sits at the origin: its block is its array. -/
theorem iblk2_1 (c : Dev nD) (t : Fin cfg2.N) (y : S10000x128.Idx) : iblk2 V c 1 t y = V c main_v2_1 y := by
  obtain ⟨e0, e1, -⟩ := idx_whole2 t
  show V c main_v2_1 (((cfg2.win 1).blk t).view.emb y) = V c main_v2_1 y
  refine congrArg _ (funext fun a => Fin.ext ?_)
  match a with
  | ⟨0, _⟩ => exact win2_1.rect_emb_val_of_index_zero t 0 e0 y
  | ⟨1, _⟩ => exact win2_1.rect_emb_val_of_index_zero t 1 e1 y
theorem iblk2_2 (c : Dev nD) (t : Fin cfg2.N) (y : S1x128.Idx) : iblk2 V c 2 t y = V c main_v3 y := by
  obtain ⟨-, -, e0, e1, -⟩ := idx_whole2 t
  show V c main_v3 (((cfg2.win 2).blk t).view.emb y) = V c main_v3 y
  refine congrArg _ (funext fun a => Fin.ext ?_)
  match a with
  | ⟨0, _⟩ => exact win2_2.rect_emb_val_of_index_zero t 0 e0 y
  | ⟨1, _⟩ => exact win2_2.rect_emb_val_of_index_zero t 1 e1 y
theorem iblk2_3 (c : Dev nD) (t : Fin cfg2.N) (y : S128x64.Idx) : iblk2 V c 3 t y = V c main_arg6 y := by
  obtain ⟨-, -, -, -, e0, e1⟩ := idx_whole2 t
  show V c main_arg6 (((cfg2.win 3).blk t).view.emb y) = V c main_arg6 y
  refine congrArg _ (funext fun a => Fin.ext ?_)
  match a with
  | ⟨0, _⟩ => exact win2_3.rect_emb_val_of_index_zero t 0 e0 y
  | ⟨1, _⟩ => exact win2_3.rect_emb_val_of_index_zero t 1 e1 y

/-- THE BLOCK LEMMA. On the rows inside the array, the body's result of the handed buffers — the adjacency block filled out
    past the array's end with anything, the other operands whole — is the closed form's block. -/
theorem cut_pay2 (c : Dev nD) (t : Fin cfg2.N) (d0 : S128x10000.Idx → Elt Ideal .bf16) :
    (cfg2.win 4).cut (cfg2.grid.coords t)
      (k2_pay1 ((cfg2.win 0).fill (cfg2.grid.coords t) d0 (iblk2 V c 0 t)) (iblk2 V c 1 t) (iblk2 V c 2 t) (iblk2 V c 3 t))
      = oblk2 V c t := by
  obtain ⟨i00, i01, i40, i41, x00, x01, x41, -⟩ := idx_facts2 t
  funext j
  have hj0 : (j 0).val < win2_4.xsize (grid2.coords t) 0 := (j 0).isLt
  have hj1 : (j 1).val < win2_4.xsize (grid2.coords t) 1 := (j 1).isLt
  have hx0 : win2_4.xsize (grid2.coords t) 0 ≤ 128 := win2_4.xsize_le (grid2.coords t) 0
  have hr : (j 0).val < 128 := by omega
  have hs : (j 1).val < 64 := by omega
  have e0 : ((((cfg2.win 4).blk t).view.emb j) 0).val = win2_4.index t 0 * 128 + (j 0).val := win2_4.rect_emb_val t j 0
  have e1 : ((((cfg2.win 4).blk t).view.emb j) 1).val = win2_4.index t 1 * 64 + (j 1).val := win2_4.rect_emb_val t j 1
  show k2_pay1 (F := Ideal) _ _ _ _ ((cfg2.win 4).xinj (cfg2.grid.coords t) j) = res2 V c (((cfg2.win 4).blk t).view.emb j)
  refine Eq.trans ?_ (congrArg (res2 V c) (eq_ix2 (((cfg2.win 4).blk t).view.emb j)).symm)
  rw [show (cfg2.win 4).xinj (cfg2.grid.coords t) j = ix2 (⟨(j 0).val, hr⟩ : Fin 128) (⟨(j 1).val, hs⟩ : Fin 64) from
        funext fun a => Fin.ext (by match a with | ⟨0, _⟩ => rfl | ⟨1, _⟩ => rfl)]
  unfold res2
  refine (k2_block (V c main_v2_0) (V c main_v2_1) (V c main_v3) (V c main_arg6) _ _ _ _ _
    ((((cfg2.win 4).blk t).view.emb j) 0) _ ?_ (iblk2_1 V c t) (iblk2_2 V c t) (iblk2_3 V c t)).trans ?_
  · intro k
    have hm : ∀ a : Fin 2, ((ix2 (⟨(j 0).val, hr⟩ : Fin 128) k : S128x10000.Idx) a).val < win2_0.xsize (grid2.coords t) a := fun a => by
      match a with
      | ⟨0, _⟩ => show (j 0).val < win2_0.xsize (grid2.coords t) 0; omega
      | ⟨1, _⟩ => show k.val < win2_0.xsize (grid2.coords t) 1; rw [x01]; exact k.isLt
    rw [fill_of_lt2 win2_0 (grid2.coords t) d0 (iblk2 V c 0 t) _ hm]
    show V c main_v2_0 ((win2_0.blk t).view.emb _) = V c main_v2_0 _
    refine congrArg _ (funext fun a => Fin.ext ?_)
    match a with
    | ⟨0, _⟩ =>
      refine (win2_0.rect_emb_val t _ 0).trans ?_
      show win2_0.index t 0 * 128 + (j 0).val = ((((cfg2.win 4).blk t).view.emb j) 0).val
      rw [e0, i00, i40]
    | ⟨1, _⟩ =>
      refine (win2_0.rect_emb_val t _ 1).trans ?_
      show win2_0.index t 1 * 10000 + k.val = k.val
      rw [i01]; omega
  · refine congrArg (fun s => layerProj (V c main_v2_0) (V c main_v2_1) (V c main_v3) (V c main_arg6) (ix2 ((((cfg2.win 4).blk t).view.emb j) 0) s)) (Fin.ext ?_)
    show (j 1).val = ((((cfg2.win 4).blk t).view.emb j) 1).val
    rw [e1, i41]; omega

/-- The body obligation at every grid point, the cut windows stated on the rows inside their arrays. -/
theorem ibody2 (c : Dev nD) : BodyObligationLoose (dat2 V c) (defs₀ (F := Ideal)) Variants.none () Set.univ := fun t => by
  rw [bigSep_W2, bigSep_W2]
  simp only
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩, ⟨%d4, H4⟩⟩
  rw [before2_0 V c t d0, before2_1 V c t d1, before2_2 V c t d2, before2_3 V c t d3, before2_4 V c t d4]
  iapply (sound_kernel2 (F := Ideal) c Set.univ (grid2.coords t)
    (win2_0.stage (cfg2.slots t 0)) (hstage2_0 ((cfg2.slots t 0).cast nbuf2_0))
    (win2_1.stage (cfg2.slots t 1)) (hstage2_1 ((cfg2.slots t 1).cast nbuf2_1))
    (win2_2.stage (cfg2.slots t 2)) (hstage2_2 ((cfg2.slots t 2).cast nbuf2_2))
    (win2_3.stage (cfg2.slots t 3)) (hstage2_3 ((cfg2.slots t 3).cast nbuf2_3))
    (win2_4.stage (cfg2.slots t 4)) (hstage2_4 ((cfg2.slots t 4).cast nbuf2_4))
    ((cfg2.win 0).fill (cfg2.grid.coords t) d0 (iblk2 V c 0 t)) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists d4; iexact H4
  iintro ⟨H0, H1, H2, H3, H4⟩
  isplitl [HΦ]; · iexact HΦ
  isplitl [Ho]; · iexact Ho
  -- the operands' buffers are as they were: the cut one is its block filled out with what it was handed, the whole ones
  -- their arrays; the result's buffer is, on the rows inside the array, the closed form's block
  have h0 : (cfg2.win 0).cut (cfg2.grid.coords t) ((dat2 V c).after 0 t) = iblk2 V c 0 t := by
    rw [after2_0]; exact Window.cut_fill _ _ _ _
  have h4 : (cfg2.win 4).fill (cfg2.grid.coords t)
        (k2_pay1 ((cfg2.win 0).fill (cfg2.grid.coords t) d0 (iblk2 V c 0 t)) (iblk2 V c 1 t) (iblk2 V c 2 t) (iblk2 V c 3 t))
        ((cfg2.win 4).cut (cfg2.grid.coords t) ((dat2 V c).after 4 t))
      = k2_pay1 ((cfg2.win 0).fill (cfg2.grid.coords t) d0 (iblk2 V c 0 t)) (iblk2 V c 1 t) (iblk2 V c 2 t) (iblk2 V c 3 t) := by
    rw [after2_4, Window.cut_fill, ← cut_pay2 V c t d0]; exact Window.fill_cut _ _ _
  isplitl [H0]
  · iexists d0
    change _ ⊢ owns (c : Thread nD τ) (stage2_0 (cfg2.slots t 0)) fullShare ((cfg2.win 0).fill (cfg2.grid.coords t) d0 ((cfg2.win 0).cut (cfg2.grid.coords t) ((dat2 V c).after 0 t)))
    rw [h0]; try iexact H0
  isplitl [H1]; · rw [after2_1]; iexact H1
  isplitl [H2]; · rw [after2_2]; iexact H2
  isplitl [H3]; · rw [after2_3]; iexact H3
  iexists (k2_pay1 ((cfg2.win 0).fill (cfg2.grid.coords t) d0 (iblk2 V c 0 t)) (iblk2 V c 1 t) (iblk2 V c 2 t) (iblk2 V c 3 t))
  change _ ⊢ owns (c : Thread nD τ) (stage2_4 (cfg2.slots t 4)) fullShare ((cfg2.win 4).fill (cfg2.grid.coords t) _ ((cfg2.win 4).cut (cfg2.grid.coords t) ((dat2 V c).after 4 t)))
  rw [h4]; try iexact H4

/-- What point `t` writes back is block `t` of the closed form. -/
theorem flushed2_4 (c : Dev nD) (t : Fin cfg2.N) :
    (dat2 V c).flushed 4 t = ((cfg2.win 4).blk t).view.read (Elt Ideal) (res2 V c) := by
  show (cfg2.win 4).cut (cfg2.grid.coords t) ((dat2 V c).after 4 t) = _
  rw [after2_4]; exact Window.cut_fill _ _ _ _

/-- An index of the result array is in point `t`'s block iff each coordinate is in the block's range, cut at the array's end. -/
theorem mem_blk2_4 (t : Fin cfg2.N) (i : S10000x64.Idx) :
    i ∈ ((cfg2.win 4).blk t).view.set ↔ ∀ a : Fin 2, win2_4.index t a * S128x64.size a ≤ (i a).val
      ∧ (i a).val < win2_4.index t a * S128x64.size a + win2_4.xsize (grid2.coords t) a := by
  show i ∈ ((View.whole main_v4).slice (win2_4.rect t)).set ↔ _
  rw [View.set_slice_whole, Rect.mem_set_unit]
  exact Iff.rfl

/-- After every write-back the result array holds the layer of the operand arrays followed by the next projection. -/
theorem final2_4 (c : Dev nD) : (dat2 V c).arrAt (4 : Fin cfg2.W) cfg2.N = (layerProj (V c main_v2_0) (V c main_v2_1) (V c main_v3) (V c main_arg6) : Arr2 10000 64) := by
  refine (dat2 V c).arrAt_eq_of_cover 4 (res2 V c) (fun t _ => flushed2_4 V c t) fun i => ?_
  -- row `r` lies in the block of point `r / 128`: that block is whole, or reaches the array's end
  have hi0 : (i 0).val < 10000 := (i 0).isLt
  have hi1 : (i 1).val < 64 := (i 1).isLt
  have ht : (i 0).val / 128 < cfg2.N := by show _ < grid2.N; rw [N_2]; omega
  obtain ⟨-, -, i40, i41, -, -, x41, hx⟩ := idx_facts2 ⟨(i 0).val / 128, ht⟩
  refine ⟨⟨(i 0).val / 128, ht⟩, flush2_4 _, ?_⟩
  rw [mem_blk2_4]
  intro a
  match a with
  | ⟨0, _⟩ =>
    show win2_4.index ⟨(i 0).val / 128, ht⟩ 0 * 128 ≤ (i 0).val
      ∧ (i 0).val < win2_4.index ⟨(i 0).val / 128, ht⟩ 0 * 128 + win2_4.xsize (grid2.coords ⟨(i 0).val / 128, ht⟩) 0
    rw [i40]
    show (i 0).val / 128 * 128 ≤ (i 0).val ∧ (i 0).val < (i 0).val / 128 * 128 + win2_4.xsize (grid2.coords ⟨(i 0).val / 128, ht⟩) 0
    have hx' : win2_4.xsize (grid2.coords ⟨(i 0).val / 128, ht⟩) 0 = 128
        ∨ 10000 ≤ (i 0).val / 128 * 128 + win2_4.xsize (grid2.coords ⟨(i 0).val / 128, ht⟩) 0 := hx
    omega
  | ⟨1, _⟩ =>
    show win2_4.index ⟨(i 0).val / 128, ht⟩ 1 * 64 ≤ (i 1).val
      ∧ (i 1).val < win2_4.index ⟨(i 0).val / 128, ht⟩ 1 * 64 + win2_4.xsize (grid2.coords ⟨(i 0).val / 128, ht⟩) 1
    rw [i41, x41]; omega

end Cert.KernelIdeal.Hand

end
-- ==== Proof.IDat3.lean ====
/-
  Region 3 of the kernel program on the extended reals: the third layer followed by the fourth projection.
  Its grid walks the rows in blocks; the last block of a 128-row window overhangs the array's 10000 rows, and what the
  staging buffer holds past the array's end is not named: the body's result on the rows inside the array depends
  only on the operand's rows inside the array, because each entry of a matrix product reads one row of the left factor.
-/
import proofs.«164197_g26036091748832_cont_9to1_1945_4_alg».proof.Proof.IBody
import proofs.«164197_g26036091748832_cont_9to1_1945_4_alg».proof.Proof.IForms
import proofs.«164197_g26036091748832_cont_9to1_1945_4_alg».proof.Proof.LibMatmulPlain
import Idealize.ShloMosaic.Lib.Pipeline.FrameBody
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.Forms Cert.MatIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

local notation "𝕄" => MT nD τ sig Unit (Elt Ideal) ℕ (UR sig nD τ) ℕ

/-- The body's arithmetic at one entry: the second product, into zero, of the clamped sum of the first product, into zero,
    and the bias row; rounding to a narrower format is the identity on the extended reals. -/
theorem k3_pay_apply (x1 : Vec Ideal S128x10000 .bf16) (x2 : Vec Ideal S10000x64 .bf16) (x3 : Vec Ideal S1x64 .f32)
    (x4 : Vec Ideal S64x32 .f32) (r : Fin 128) (s : Fin 32) :
    k3_pay1 x1 x2 x3 x4 (ix2 r s)
      = ∑ k' : Fin 64, max ((∑ k : Fin 10000, x1 (ix2 r k) * x2 (ix2 k k')) + x3 (ix2 0 k')) 0 * x4 (ix2 k' s) := by
  unfold k3_pay1
  simp only [matmul]
  rw [truncf_apply]
  refine (Cert.MatmulPlain.matmul_zero_apply (M := 128) (K := 64) (N := 32) none _ _ r s).trans ?_
  refine Finset.sum_congr rfl fun k' _ => ?_
  rw [maximumf_apply, broadcast_apply, addf_apply]
  have hz : (FloatOps.ofBits FTy.f32 0x00000000#32 : Ideal .f32) = 0 := Ideal.ofBits_zero_f32
  rw [hz, shapeCast_self, shapeCast_self, shapeCast_self, broadcastTo_1b_ab_apply]
  refine congrArg (fun z => max (z + x3 (ix2 0 k')) 0 * x4 (ix2 k' s)) ?_
  exact Cert.MatmulPlain.matmul_zero_apply (M := 128) (K := 10000) (N := 64) none _ _ r k'

/-- One entry of the body's result is the closed form's entry in the array's row `R`, as soon as row `r` of the left
    operand's buffer is row `R` of the adjacency array: entry `(r, s)` of a product reads only row `r` of the left factor. -/
theorem k3_block (A : Arr2 10000 10000) (G : Arr2 10000 64) (b : Arr2 1 64) (Wn : Arr2 64 32)
    (x1 : Vec Ideal S128x10000 .bf16) (x2 : Vec Ideal S10000x64 .bf16) (x3 : Vec Ideal S1x64 .f32) (x4 : Vec Ideal S64x32 .f32)
    (r : Fin 128) (R : Fin 10000) (s : Fin 32)
    (h1 : ∀ k : Fin 10000, x1 (ix2 r k) = A (ix2 R k)) (h2 : ∀ y, x2 y = G y) (h3 : ∀ y, x3 y = b y) (h4 : ∀ y, x4 y = Wn y) :
    k3_pay1 x1 x2 x3 x4 (ix2 r s) = layerProj A G b Wn (ix2 R s) := by
  rw [k3_pay_apply]
  unfold layerProj
  rw [ofMat_ix2]
  unfold Cert.Spec.mm Cert.Spec.kerLayer Cert.Spec.act Cert.Spec.mm rowVec toMat
  refine Finset.sum_congr rfl fun k' _ => ?_
  rw [h3, h4]
  refine congrArg (fun z => max (z + b (ix2 0 k')) 0 * Wn (ix2 k' s)) ?_
  refine Finset.sum_congr rfl fun k _ => ?_
  rw [h1, h2]

-- The contents of every buffer of the TensorCore when region 3 is entered: the parameter the region's account is stated at.
variable (V : (c : Dev nD) → (b : Ref sig .tc) → Buf (Elt Ideal) ((c : Thread nD τ).loc b))

/-- Window `w`'s block at point `t`, read off its array as the region finds it: its part inside the array. -/
def iblk3 (c : Dev nD) (w : Fin cfg3.W) (t : Fin cfg3.N) : ((cfg3.win w).xblock (cfg3.grid.coords t)).Idx → Elt Ideal (cfg3.win w).elt :=
  ((cfg3.win w).blk t).view.read (Elt Ideal) (V c (Pipeline.arrRef spec3 w))

/-- The result array in closed form: the layer of the operand arrays followed by the next projection. -/
def res3 (c : Dev nD) : Arr2 10000 32 :=
  layerProj (V c main_v2_0) (V c main_v4) (V c main_v5) (V c main_arg8)

/-- The closed form's block at point `t`, its part inside the array. -/
def oblk3 (c : Dev nD) (t : Fin cfg3.N) : ((cfg3.win 4).xblock (cfg3.grid.coords t)).Idx → Elt Ideal (cfg3.win 4).elt :=
  ((cfg3.win 4).blk t).view.read (Elt Ideal) (res3 V c)

/-- Region 3's proof data on core `c`: the arrays as the region finds them; what the body leaves in each window's staging
    buffer at each grid point — each operand's block as it was handed (the cut one filled out past the array's end with
    zeros, which nothing reads), the result's buffer at the closed form's block filled out likewise —; the invariant that
    rides along untouched; nothing owed; full shares. -/
def dat3 (c : Dev nD) : Dat τ (Elt Ideal) Unit ℕ (UR sig nD τ) ℕ cfg3 c where
  A w := V c (Pipeline.arrRef spec3 w)
  after w t := match w with
    | ⟨0, _⟩ => (cfg3.win 0).fill (cfg3.grid.coords t) (fun _ => (0 : EReal)) (iblk3 V c 0 t)
    | ⟨1, _⟩ => iblk3 V c 1 t
    | ⟨2, _⟩ => iblk3 V c 2 t
    | ⟨3, _⟩ => iblk3 V c 3 t
    | ⟨4, _⟩ => (cfg3.win 4).fill (cfg3.grid.coords t) (fun _ => (0 : EReal)) (oblk3 V c t)
  Φ _ := Pipeline.ΦA spec3 c
  q _ := fullShare
  owed _ := 0

theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = (cfg3.win 0).fill (cfg3.grid.coords t) (fun _ => (0 : EReal)) (iblk3 V c 0 t) := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (cfg3.win 4).fill (cfg3.grid.coords t) (fun _ => (0 : EReal)) (oblk3 V c t) := by dsimp only [dat3]

/-- What the body finds. The adjacency window is fetched at every point: its buffer holds the block's part inside the
    array, and past the array's end whatever was there (`d`). -/
theorem before3_0 (c : Dev nD) (t : Fin cfg3.N) (d) :
    (dat3 V c).before 0 t d = (cfg3.win 0).fill (cfg3.grid.coords t) d (iblk3 V c 0 t) := by
  unfold Dat.before; rw [if_pos (fetch3_0 t)]; unfold Dat.fetched Dat.blockOf iblk3; rw [A_eq3]

/-- A whole-array operand, fetched once and left in place by the body, holds its block at every point. -/
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]) t d).trans
    (by unfold Dat.fetched Dat.blockOf iblk3; rw [A_eq3]; try rfl)

/-- The result's buffer, written back at every point, holds contents nothing names. -/
theorem before3_4 (c : Dev nD) (t : Fin cfg3.N) (d) : (dat3 V c).before 4 t d = d :=
  (dat3 V c).before_out_reset 4 rfl t
    (by by_cases h : t.val = 0
        · exact .inl h
        · exact .inr ⟨h, flush3_4 _⟩) d

/-- The index maps and cuts of the row-blocked windows, decided over the grid: the row-blocked windows sit at block row `t`, column block 0;
    they are cut alike on the rows and not at all on the columns; a block is whole or reaches the array's end. -/
theorem idx_facts3 : ∀ t : Fin cfg3.N,
    win3_0.index t (0 : Fin 2) = t.val ∧ win3_0.index t (1 : Fin 2) = 0
    ∧ win3_4.index t (0 : Fin 2) = t.val ∧ win3_4.index t (1 : Fin 2) = 0
    ∧ win3_0.xsize (grid3.coords t) (0 : Fin 2) = win3_4.xsize (grid3.coords t) (0 : Fin 2)
    ∧ win3_0.xsize (grid3.coords t) (1 : Fin 2) = 10000
    ∧ win3_4.xsize (grid3.coords t) (1 : Fin 2) = 32
    ∧ (win3_4.xsize (grid3.coords t) (0 : Fin 2) = 128 ∨ 10000 ≤ t.val * 128 + win3_4.xsize (grid3.coords t) (0 : Fin 2)) :=
  (by decide +kernel : ∀ t : Fin grid3.N, _)

/-- The whole-array windows sit at block 0 on both axes. -/
theorem idx_whole3 : ∀ t : Fin cfg3.N,
    win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- A buffer filled at an index inside the moved part holds the fetched block's entry there. -/
private theorem fill_of_lt3 {G : Pipeline.Grid} (w : Window sig G) {α : Type} (i : G.Coords) (d : w.block.Idx → α)
    (g : (w.xblock i).Idx → α) (jj : w.block.Idx) (h : ∀ a, (jj a).val < w.xsize i a) :
    w.fill i d g jj = g (fun a => ⟨(jj a).val, h a⟩) := by
  unfold Window.fill; rw [dif_pos ((w.moved_iff i jj).mpr h)]

/-- A whole-array window's one block sits at the origin: its block is its array. -/
theorem iblk3_1 (c : Dev nD) (t : Fin cfg3.N) (y : S10000x64.Idx) : iblk3 V c 1 t y = V c main_v4 y := by
  obtain ⟨e0, e1, -⟩ := idx_whole3 t
  show V c main_v4 (((cfg3.win 1).blk t).view.emb y) = V c main_v4 y
  refine congrArg _ (funext fun a => Fin.ext ?_)
  match a with
  | ⟨0, _⟩ => exact win3_1.rect_emb_val_of_index_zero t 0 e0 y
  | ⟨1, _⟩ => exact win3_1.rect_emb_val_of_index_zero t 1 e1 y
theorem iblk3_2 (c : Dev nD) (t : Fin cfg3.N) (y : S1x64.Idx) : iblk3 V c 2 t y = V c main_v5 y := by
  obtain ⟨-, -, e0, e1, -⟩ := idx_whole3 t
  show V c main_v5 (((cfg3.win 2).blk t).view.emb y) = V c main_v5 y
  refine congrArg _ (funext fun a => Fin.ext ?_)
  match a with
  | ⟨0, _⟩ => exact win3_2.rect_emb_val_of_index_zero t 0 e0 y
  | ⟨1, _⟩ => exact win3_2.rect_emb_val_of_index_zero t 1 e1 y
theorem iblk3_3 (c : Dev nD) (t : Fin cfg3.N) (y : S64x32.Idx) : iblk3 V c 3 t y = V c main_arg8 y := by
  obtain ⟨-, -, -, -, e0, e1⟩ := idx_whole3 t
  show V c main_arg8 (((cfg3.win 3).blk t).view.emb y) = V c main_arg8 y
  refine congrArg _ (funext fun a => Fin.ext ?_)
  match a with
  | ⟨0, _⟩ => exact win3_3.rect_emb_val_of_index_zero t 0 e0 y
  | ⟨1, _⟩ => exact win3_3.rect_emb_val_of_index_zero t 1 e1 y

/-- THE BLOCK LEMMA. On the rows inside the array, the body's result of the handed buffers — the adjacency block filled out
    past the array's end with anything, the other operands whole — is the closed form's block. -/
theorem cut_pay3 (c : Dev nD) (t : Fin cfg3.N) (d0 : S128x10000.Idx → Elt Ideal .bf16) :
    (cfg3.win 4).cut (cfg3.grid.coords t)
      (k3_pay1 ((cfg3.win 0).fill (cfg3.grid.coords t) d0 (iblk3 V c 0 t)) (iblk3 V c 1 t) (iblk3 V c 2 t) (iblk3 V c 3 t))
      = oblk3 V c t := by
  obtain ⟨i00, i01, i40, i41, x00, x01, x41, -⟩ := idx_facts3 t
  funext j
  have hj0 : (j 0).val < win3_4.xsize (grid3.coords t) 0 := (j 0).isLt
  have hj1 : (j 1).val < win3_4.xsize (grid3.coords t) 1 := (j 1).isLt
  have hx0 : win3_4.xsize (grid3.coords t) 0 ≤ 128 := win3_4.xsize_le (grid3.coords t) 0
  have hr : (j 0).val < 128 := by omega
  have hs : (j 1).val < 32 := by omega
  have e0 : ((((cfg3.win 4).blk t).view.emb j) 0).val = win3_4.index t 0 * 128 + (j 0).val := win3_4.rect_emb_val t j 0
  have e1 : ((((cfg3.win 4).blk t).view.emb j) 1).val = win3_4.index t 1 * 32 + (j 1).val := win3_4.rect_emb_val t j 1
  show k3_pay1 (F := Ideal) _ _ _ _ ((cfg3.win 4).xinj (cfg3.grid.coords t) j) = res3 V c (((cfg3.win 4).blk t).view.emb j)
  refine Eq.trans ?_ (congrArg (res3 V c) (eq_ix2 (((cfg3.win 4).blk t).view.emb j)).symm)
  rw [show (cfg3.win 4).xinj (cfg3.grid.coords t) j = ix2 (⟨(j 0).val, hr⟩ : Fin 128) (⟨(j 1).val, hs⟩ : Fin 32) from
        funext fun a => Fin.ext (by match a with | ⟨0, _⟩ => rfl | ⟨1, _⟩ => rfl)]
  unfold res3
  refine (k3_block (V c main_v2_0) (V c main_v4) (V c main_v5) (V c main_arg8) _ _ _ _ _
    ((((cfg3.win 4).blk t).view.emb j) 0) _ ?_ (iblk3_1 V c t) (iblk3_2 V c t) (iblk3_3 V c t)).trans ?_
  · intro k
    have hm : ∀ a : Fin 2, ((ix2 (⟨(j 0).val, hr⟩ : Fin 128) k : S128x10000.Idx) a).val < win3_0.xsize (grid3.coords t) a := fun a => by
      match a with
      | ⟨0, _⟩ => show (j 0).val < win3_0.xsize (grid3.coords t) 0; omega
      | ⟨1, _⟩ => show k.val < win3_0.xsize (grid3.coords t) 1; rw [x01]; exact k.isLt
    rw [fill_of_lt3 win3_0 (grid3.coords t) d0 (iblk3 V c 0 t) _ hm]
    show V c main_v2_0 ((win3_0.blk t).view.emb _) = V c main_v2_0 _
    refine congrArg _ (funext fun a => Fin.ext ?_)
    match a with
    | ⟨0, _⟩ =>
      refine (win3_0.rect_emb_val t _ 0).trans ?_
      show win3_0.index t 0 * 128 + (j 0).val = ((((cfg3.win 4).blk t).view.emb j) 0).val
      rw [e0, i00, i40]
    | ⟨1, _⟩ =>
      refine (win3_0.rect_emb_val t _ 1).trans ?_
      show win3_0.index t 1 * 10000 + k.val = k.val
      rw [i01]; omega
  · refine congrArg (fun s => layerProj (V c main_v2_0) (V c main_v4) (V c main_v5) (V c main_arg8) (ix2 ((((cfg3.win 4).blk t).view.emb j) 0) s)) (Fin.ext ?_)
    show (j 1).val = ((((cfg3.win 4).blk t).view.emb j) 1).val
    rw [e1, i41]; omega

/-- The body obligation at every grid point, the cut windows stated on the rows inside their arrays. -/
theorem ibody3 (c : Dev nD) : BodyObligationLoose (dat3 V c) (defs₀ (F := Ideal)) Variants.none () Set.univ := fun t => by
  rw [bigSep_W3, bigSep_W3]
  simp only
  rw [show (dat3 V c).Φ t.succ = (dat3 V c).Φ t.castSucc from rfl,
    show (dat3 V c).owesAt () t.succ = (dat3 V c).owesAt () t.castSucc from rfl]
  iintro ⟨HΦ, Ho, ⟨%d0, H0⟩, ⟨%d1, H1⟩, ⟨%d2, H2⟩, ⟨%d3, H3⟩, ⟨%d4, H4⟩⟩
  rw [before3_0 V c t d0, before3_1 V c t d1, before3_2 V c t d2, before3_3 V c t d3, before3_4 V c t d4]
  iapply (sound_kernel3 (F := Ideal) c Set.univ (grid3.coords t)
    (win3_0.stage (cfg3.slots t 0)) (hstage3_0 ((cfg3.slots t 0).cast nbuf3_0))
    (win3_1.stage (cfg3.slots t 1)) (hstage3_1 ((cfg3.slots t 1).cast nbuf3_1))
    (win3_2.stage (cfg3.slots t 2)) (hstage3_2 ((cfg3.slots t 2).cast nbuf3_2))
    (win3_3.stage (cfg3.slots t 3)) (hstage3_3 ((cfg3.slots t 3).cast nbuf3_3))
    (win3_4.stage (cfg3.slots t 4)) (hstage3_4 ((cfg3.slots t 4).cast nbuf3_4))
    ((cfg3.win 0).fill (cfg3.grid.coords t) d0 (iblk3 V c 0 t)) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists d4; iexact H4
  iintro ⟨H0, H1, H2, H3, H4⟩
  isplitl [HΦ]; · iexact HΦ
  isplitl [Ho]; · iexact Ho
  -- the operands' buffers are as they were: the cut one is its block filled out with what it was handed, the whole ones
  -- their arrays; the result's buffer is, on the rows inside the array, the closed form's block
  have h0 : (cfg3.win 0).cut (cfg3.grid.coords t) ((dat3 V c).after 0 t) = iblk3 V c 0 t := by
    rw [after3_0]; exact Window.cut_fill _ _ _ _
  have h4 : (cfg3.win 4).fill (cfg3.grid.coords t)
        (k3_pay1 ((cfg3.win 0).fill (cfg3.grid.coords t) d0 (iblk3 V c 0 t)) (iblk3 V c 1 t) (iblk3 V c 2 t) (iblk3 V c 3 t))
        ((cfg3.win 4).cut (cfg3.grid.coords t) ((dat3 V c).after 4 t))
      = k3_pay1 ((cfg3.win 0).fill (cfg3.grid.coords t) d0 (iblk3 V c 0 t)) (iblk3 V c 1 t) (iblk3 V c 2 t) (iblk3 V c 3 t) := by
    rw [after3_4, Window.cut_fill, ← cut_pay3 V c t d0]; exact Window.fill_cut _ _ _
  isplitl [H0]
  · iexists d0
    change _ ⊢ owns (c : Thread nD τ) (stage3_0 (cfg3.slots t 0)) fullShare ((cfg3.win 0).fill (cfg3.grid.coords t) d0 ((cfg3.win 0).cut (cfg3.grid.coords t) ((dat3 V c).after 0 t)))
    rw [h0]; try iexact H0
  isplitl [H1]; · rw [after3_1]; iexact H1
  isplitl [H2]; · rw [after3_2]; iexact H2
  isplitl [H3]; · rw [after3_3]; iexact H3
  iexists (k3_pay1 ((cfg3.win 0).fill (cfg3.grid.coords t) d0 (iblk3 V c 0 t)) (iblk3 V c 1 t) (iblk3 V c 2 t) (iblk3 V c 3 t))
  change _ ⊢ owns (c : Thread nD τ) (stage3_4 (cfg3.slots t 4)) fullShare ((cfg3.win 4).fill (cfg3.grid.coords t) _ ((cfg3.win 4).cut (cfg3.grid.coords t) ((dat3 V c).after 4 t)))
  rw [h4]; try iexact H4

/-- What point `t` writes back is block `t` of the closed form. -/
theorem flushed3_4 (c : Dev nD) (t : Fin cfg3.N) :
    (dat3 V c).flushed 4 t = ((cfg3.win 4).blk t).view.read (Elt Ideal) (res3 V c) := by
  show (cfg3.win 4).cut (cfg3.grid.coords t) ((dat3 V c).after 4 t) = _
  rw [after3_4]; exact Window.cut_fill _ _ _ _

/-- An index of the result array is in point `t`'s block iff each coordinate is in the block's range, cut at the array's end. -/
theorem mem_blk3_4 (t : Fin cfg3.N) (i : S10000x32.Idx) :
    i ∈ ((cfg3.win 4).blk t).view.set ↔ ∀ a : Fin 2, win3_4.index t a * S128x32.size a ≤ (i a).val
      ∧ (i a).val < win3_4.index t a * S128x32.size a + win3_4.xsize (grid3.coords t) a := by
  show i ∈ ((View.whole main_v6).slice (win3_4.rect t)).set ↔ _
  rw [View.set_slice_whole, Rect.mem_set_unit]
  exact Iff.rfl

/-- After every write-back the result array holds the layer of the operand arrays followed by the next projection. -/
theorem final3_4 (c : Dev nD) : (dat3 V c).arrAt (4 : Fin cfg3.W) cfg3.N = (layerProj (V c main_v2_0) (V c main_v4) (V c main_v5) (V c main_arg8) : Arr2 10000 32) := by
  refine (dat3 V c).arrAt_eq_of_cover 4 (res3 V c) (fun t _ => flushed3_4 V c t) fun i => ?_
  -- row `r` lies in the block of point `r / 128`: that block is whole, or reaches the array's end
  have hi0 : (i 0).val < 10000 := (i 0).isLt
  have hi1 : (i 1).val < 32 := (i 1).isLt
  have ht : (i 0).val / 128 < cfg3.N := by show _ < grid3.N; rw [N_3]; omega
  obtain ⟨-, -, i40, i41, -, -, x41, hx⟩ := idx_facts3 ⟨(i 0).val / 128, ht⟩
  refine ⟨⟨(i 0).val / 128, ht⟩, flush3_4 _, ?_⟩
  rw [mem_blk3_4]
  intro a
  match a with
  | ⟨0, _⟩ =>
    show win3_4.index ⟨(i 0).val / 128, ht⟩ 0 * 128 ≤ (i 0).val
      ∧ (i 0).val < win3_4.index ⟨(i 0).val / 128, ht⟩ 0 * 128 + win3_4.xsize (grid3.coords ⟨(i 0).val / 128, ht⟩) 0
    rw [i40]
    show (i 0).val / 128 * 128 ≤ (i 0).val ∧ (i 0).val < (i 0).val / 128 * 128 + win3_4.xsize (grid3.coords ⟨(i 0).val / 128, ht⟩) 0
    have hx' : win3_4.xsize (grid3.coords ⟨(i 0).val / 128, ht⟩) 0 = 128
        ∨ 10000 ≤ (i 0).val / 128 * 128 + win3_4.xsize (grid3.coords ⟨(i 0).val / 128, ht⟩) 0 := hx
    omega
  | ⟨1, _⟩ =>
    show win3_4.index ⟨(i 0).val / 128, ht⟩ 1 * 32 ≤ (i 1).val
      ∧ (i 1).val < win3_4.index ⟨(i 0).val / 128, ht⟩ 1 * 32 + win3_4.xsize (grid3.coords ⟨(i 0).val / 128, ht⟩) 1
    rw [i41, x41]; omega

end Cert.KernelIdeal.Hand

end
-- ==== Proof.IDat4.lean ====
/-
  Region 4 of the kernel program on the extended reals: the last layer.
  Its grid walks the rows in blocks; the last block of a 128-row window overhangs the array's 10000 rows, and what the
  staging buffer holds past the array's end is not named: the body's result on the rows inside the array depends
  only on the operand's rows inside the array, because each entry of a matrix product reads one row of the left factor.
-/
import proofs.«164197_g26036091748832_cont_9to1_1945_4_alg».proof.Proof.IBody
import proofs.«164197_g26036091748832_cont_9to1_1945_4_alg».proof.Proof.IForms
import proofs.«164197_g26036091748832_cont_9to1_1945_4_alg».proof.Proof.LibMatmulPlain
import Idealize.ShloMosaic.Lib.Pipeline.FrameBody
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.Forms Cert.MatIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

local notation "𝕄" => MT nD τ sig Unit (Elt Ideal) ℕ (UR sig nD τ) ℕ

/-- One entry of the body's arithmetic: the row of the left operand against the column of the right, the bias entry
    added, the maximum with zero. -/
private theorem pay4_apply (x1 : Vec Ideal S128x10000 .bf16) (x2 : Vec Ideal S10000x32 .bf16) (x3 : Vec Ideal S1x32 .f32)
    (r : Fin 128) (s : Fin 32) :
    k4_pay1 x1 x2 x3 (ix2 r s) = max ((∑ k : Fin 10000, x1 (ix2 r k) * x2 (ix2 k s)) + x3 (ix2 0 s)) 0 := by
  unfold k4_pay1
  rw [maximumf_apply, addf_apply, broadcast_apply, shapeCast_self, shapeCast_self, shapeCast_self]
  simp only [matmul]
  have hmm : FloatOps.matmul (F := Ideal) (φ₁ := FTy.bf16) (φ₂ := FTy.bf16) dot_S128x10000_S10000x32_S128x32_1_0_0_1_n_n none x1 x2 (constant (F := Ideal) S128x32 FTy.f32 0x00000000#32) (ix2 r s)
      = ∑ k : Fin 10000, x1 (ix2 r k) * x2 (ix2 k s) := Cert.MatmulPlain.matmul_zero_apply (φ₁ := FTy.bf16) (φ₂ := FTy.bf16) none x1 x2 r s
  have hb : broadcastTo S128x32 x3 broadcasts_S1x32_S128x32 (ix2 r s) = x3 (ix2 0 s) :=
    broadcastTo_apply x3 broadcasts_S1x32_S128x32 (ix2 r s) (ix2 0 s) (fun a => by
      match a with
      | ⟨0, _⟩ => rfl
      | ⟨1, _⟩ => rfl)
  have hz : (FloatOps.ofBits FTy.f32 0x00000000#32 : Ideal .f32) = 0 := Ideal.ofBits_zero_f32
  rw [hmm, hb, hz]

/-- Where the left operand's buffer holds row `R` of the adjacency array on its row `r`, and the other two buffers hold
    their arrays, the body's entry `(r, s)` is the closed form's entry `(R, s)`: a product's entry reads one row of
    the left factor. -/
private theorem pay4_eq_layer (A : Arr2 10000 10000) (G : Arr2 10000 32) (b : Arr2 1 32)
    (x1 : Vec Ideal S128x10000 .bf16) (x2 : Vec Ideal S10000x32 .bf16) (x3 : Vec Ideal S1x32 .f32)
    (r : Fin 128) (R : Fin 10000) (s : Fin 32)
    (h1 : ∀ k : Fin 10000, x1 (ix2 r k) = A (ix2 R k)) (h2 : ∀ k : Fin 10000, x2 (ix2 k s) = G (ix2 k s))
    (h3 : x3 (ix2 0 s) = b (ix2 0 s)) :
    k4_pay1 x1 x2 x3 (ix2 r s) = layerLast A G b (ix2 R s) := by
  rw [pay4_apply, h3]
  unfold layerLast
  rw [ofMat_ix2]
  unfold Cert.Spec.kerLayer Cert.Spec.act Cert.Spec.mm rowVec
  simp only [toMat_apply]
  congr 2
  exact Finset.sum_congr rfl fun k _ => by rw [h1, h2]

-- The contents of every buffer of the TensorCore when region 4 is entered: the parameter the region's account is stated at.
variable (V : (c : Dev nD) → (b : Ref sig .tc) → Buf (Elt Ideal) ((c : Thread nD τ).loc b))

/-- The region's result in closed form: the last layer of the operand arrays as the region finds them. -/
def res4 (c : Dev nD) : Arr2 10000 32 := layerLast (V c main_v2_0) (V c main_v6) (V c main_v7)

/-- Region 4's proof data on core `c`: the arrays as the region finds them; what the body leaves in each window's staging
    buffer at each grid point; the invariant that rides along untouched; nothing owed; full shares. -/
def dat4 (c : Dev nD) : Dat τ (Elt Ideal) Unit ℕ (UR sig nD τ) ℕ cfg4 c where
  A w := V c (Pipeline.arrRef spec4 w)
  after w t := match w with
    | ⟨0, _⟩ => (cfg4.win 0).fill (cfg4.grid.coords t) (fun _ => (0 : EReal)) (((cfg4.win 0).blk t).view.read (Elt Ideal) (V c main_v2_0))
    | ⟨1, _⟩ => ((cfg4.win 1).blk t).view.read (Elt Ideal) (V c main_v6)
    | ⟨2, _⟩ => ((cfg4.win 2).blk t).view.read (Elt Ideal) (V c main_v7)
    | ⟨3, _⟩ => (cfg4.win 3).fill (cfg4.grid.coords t) (fun _ => (0 : EReal)) (((cfg4.win 3).blk t).view.read (Elt Ideal) (res4 V c))
  Φ _ := Pipeline.ΦA spec4 c
  q _ := fullShare
  owed _ := 0

theorem A_eq4 (c : Dev nD) (w : Fin cfg4.W) : (dat4 V c).A w = V c (Pipeline.arrRef spec4 w) := by
  dsimp only [dat4]

/-- What the body leaves, window by window. -/
private theorem after4_0 (c : Dev nD) (t : Fin cfg4.N) : (dat4 V c).after 0 t
    = (cfg4.win 0).fill (cfg4.grid.coords t) (fun _ => (0 : EReal)) (((cfg4.win 0).blk t).view.read (Elt Ideal) (V c main_v2_0)) := by
  dsimp only [dat4]
private theorem after4_1 (c : Dev nD) (t : Fin cfg4.N) : (dat4 V c).after 1 t = ((cfg4.win 1).blk t).view.read (Elt Ideal) (V c main_v6) := by
  dsimp only [dat4]
private theorem after4_2 (c : Dev nD) (t : Fin cfg4.N) : (dat4 V c).after 2 t = ((cfg4.win 2).blk t).view.read (Elt Ideal) (V c main_v7) := by
  dsimp only [dat4]
private theorem after4_3 (c : Dev nD) (t : Fin cfg4.N) : (dat4 V c).after 3 t
    = (cfg4.win 3).fill (cfg4.grid.coords t) (fun _ => (0 : EReal)) (((cfg4.win 3).blk t).view.read (Elt Ideal) (res4 V c)) := by
  dsimp only [dat4]

/-- The adjacency window is fetched at every point: the body finds the block's rows inside the array, and past them
    whatever the buffer held. -/
private theorem before4_0 (c : Dev nD) (t : Fin cfg4.N) (d) : (dat4 V c).before 0 t d
    = (cfg4.win 0).fill (cfg4.grid.coords t) d (((cfg4.win 0).blk t).view.read (Elt Ideal) (V c main_v2_0)) := by
  unfold Dat.before; rw [if_pos (fetch4_0 t)]; rfl

/-- The right operand's window holds its one block, the whole array, at every point, fetched there or not. -/
private theorem before4_1 (c : Dev nD) (t : Fin cfg4.N) (d) : (dat4 V c).before 1 t d
    = ((cfg4.win 1).blk t).view.read (Elt Ideal) (V c main_v6) :=
  ((dat4 V c).before_in_eq_fetched 1 rfl (fun _ => rfl) (fun _ _ _ => rfl)
      (fun t => by rw [after4_1]; unfold Dat.blockOf; rw [A_eq4]; try rfl) t d).trans
    (by unfold Dat.fetched Dat.blockOf; rw [A_eq4]; try rfl)

/-- So does the bias row's. -/
private theorem before4_2 (c : Dev nD) (t : Fin cfg4.N) (d) : (dat4 V c).before 2 t d
    = ((cfg4.win 2).blk t).view.read (Elt Ideal) (V c main_v7) :=
  ((dat4 V c).before_in_eq_fetched 2 rfl (fun _ => rfl) (fun _ _ _ => rfl)
      (fun t => by rw [after4_2]; unfold Dat.blockOf; rw [A_eq4]; try rfl) t d).trans
    (by unfold Dat.fetched Dat.blockOf; rw [A_eq4]; try rfl)

/-- The result window is written back at every point: the body finds its buffer at contents nothing names. -/
private theorem before4_3 (c : Dev nD) (t : Fin cfg4.N) (d) : (dat4 V c).before 3 t d = d :=
  (dat4 V c).before_out_reset 3 rfl t (by
    by_cases h : t.val = 0
    · exact .inl h
    · exact .inr ⟨h, flush4_3 _⟩) d

/-- The printed index maps over the grid: the two row-blocked windows sit at the point's own block of rows and are cut
    alike, at the array's last row; the other two stay at the origin. -/
private theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_0.xsize (grid4.coords t) (0 : Fin 2) = win4_3.xsize (grid4.coords t) (0 : Fin 2)
    ∧ win4_0.xsize (grid4.coords t) (1 : Fin 2) = 10000
    ∧ win4_3.xsize (grid4.coords t) (1 : Fin 2) = 32
    ∧ t.val * 128 + win4_3.xsize (grid4.coords t) (0 : Fin 2) = min (t.val * 128 + 128) 10000 :=
  (by decide +kernel : ∀ t : Fin grid4.N, _)

/-- THE BLOCK. On the rows inside the array, the body's arithmetic of the buffers it is handed — the adjacency block
    filled out past the array's end with anything, the right operand, the bias row — is the closed form's block:
    entry `(r, s)` of the product reads row `r` of the left factor only, and row `r` of the buffer is row
    `128 t + r` of the array. -/
private theorem block4 (c : Dev nD) (t : Fin cfg4.N) (d0 : (cfg4.win 0).block.Idx → Elt Ideal (cfg4.win 0).elt) :
    (cfg4.win 3).cut (cfg4.grid.coords t)
        (k4_pay1 ((cfg4.win 0).fill (cfg4.grid.coords t) d0 (((cfg4.win 0).blk t).view.read (Elt Ideal) (V c main_v2_0)))
          (((cfg4.win 1).blk t).view.read (Elt Ideal) (V c main_v6)) (((cfg4.win 2).blk t).view.read (Elt Ideal) (V c main_v7)))
      = ((cfg4.win 3).blk t).view.read (Elt Ideal) (res4 V c) := by
  obtain ⟨e00, e01, e10, e11, e20, e21, e30, e31, ex0, ex01, ex31, ex30⟩ := idx_facts4 t
  funext j
  have hj0 : (j 0).val < win4_3.xsize (grid4.coords t) (0 : Fin 2) := (j 0).isLt
  have hj1 : (j 1).val < win4_3.xsize (grid4.coords t) (1 : Fin 2) := (j 1).isLt
  have hr : (j 0).val < 128 := by omega
  have hR : t.val * 128 + (j 0).val < 10000 := by omega
  have hs : (j 1).val < 32 := by omega
  -- the entry's coordinates: in the buffer, and in the array
  have hx : (cfg4.win 3).xinj (cfg4.grid.coords t) j = ix2 (⟨(j 0).val, hr⟩ : Fin 128) (⟨(j 1).val, hs⟩ : Fin 32) := by
    funext a
    match a with
    | ⟨0, _⟩ => rfl
    | ⟨1, _⟩ => rfl
  have hemb : ((cfg4.win 3).blk t).view.emb j = ix2 (⟨t.val * 128 + (j 0).val, hR⟩ : Fin 10000) (⟨(j 1).val, hs⟩ : Fin 32) := by
    funext a; apply Fin.ext
    match a with
    | ⟨0, _⟩ => show win4_3.index t (0 : Fin 2) * 128 + 1 * (j 0).val = t.val * 128 + (j 0).val; omega
    | ⟨1, _⟩ => show win4_3.index t (1 : Fin 2) * 32 + 1 * (j 1).val = (j 1).val; omega
  show k4_pay1 (F := Ideal) _ _ _ ((cfg4.win 3).xinj (cfg4.grid.coords t) j) = res4 V c (((cfg4.win 3).blk t).view.emb j)
  rw [hx, hemb]
  unfold res4
  refine pay4_eq_layer (V c main_v2_0) (V c main_v6) (V c main_v7) _ _ _ _ _ _ (fun k => ?_) (fun k => ?_) ?_
  · -- the left operand: the row lies in the part the fetch filled
    have hm : (cfg4.win 0).moved (cfg4.grid.coords t) (ix2 (⟨(j 0).val, hr⟩ : Fin 128) k) = true :=
      ((cfg4.win 0).moved_iff _ _).mpr fun a => by
        match a with
        | ⟨0, _⟩ => show (j 0).val < win4_0.xsize (grid4.coords t) (0 : Fin 2); omega
        | ⟨1, _⟩ => show k.val < win4_0.xsize (grid4.coords t) (1 : Fin 2); have := k.isLt; omega
    unfold Window.fill
    rw [dif_pos hm]
    show V c main_v2_0 (((cfg4.win 0).blk t).view.emb _) = _
    refine congrArg _ ?_
    funext a; apply Fin.ext
    match a with
    | ⟨0, _⟩ => show win4_0.index t (0 : Fin 2) * 128 + 1 * (j 0).val = t.val * 128 + (j 0).val; omega
    | ⟨1, _⟩ => show win4_0.index t (1 : Fin 2) * 10000 + 1 * k.val = k.val; omega
  · -- the right operand: its block is the array
    show V c main_v6 (((cfg4.win 1).blk t).view.emb _) = _
    refine congrArg _ ?_
    funext a; apply Fin.ext
    match a with
    | ⟨0, _⟩ => show win4_1.index t (0 : Fin 2) * 10000 + 1 * k.val = k.val; omega
    | ⟨1, _⟩ => show win4_1.index t (1 : Fin 2) * 32 + 1 * (j 1).val = (j 1).val; omega
  · -- the bias row likewise
    show V c main_v7 (((cfg4.win 2).blk t).view.emb _) = _
    refine congrArg _ ?_
    funext a; apply Fin.ext
    match a with
    | ⟨0, _⟩ => show win4_2.index t (0 : Fin 2) * 1 + 1 * 0 = 0; omega
    | ⟨1, _⟩ => show win4_2.index t (1 : Fin 2) * 32 + 1 * (j 1).val = (j 1).val; omega

/-- The body obligation at every grid point, the cut windows stated on the rows inside their arrays. -/
theorem ibody4 (c : Dev nD) : BodyObligationLoose (dat4 V c) (defs₀ (F := Ideal)) Variants.none () Set.univ := by
  intro t
  rw [bigSep_W4, bigSep_W4]
  -- no point is idle; windows 0 and 3 are stated on the rows inside their arrays
  simp only
  rw [show (dat4 V c).Φ t.succ = (dat4 V c).Φ t.castSucc from rfl,
    show (dat4 V c).owesAt () t.succ = (dat4 V c).owesAt () t.castSucc from rfl]
  iintro ⟨HΦ, Ho, ⟨%d0, H0⟩, ⟨%d1, H1⟩, ⟨%d2, H2⟩, ⟨%d3, H3⟩⟩
  rw [before4_0 V c t d0, before4_1 V c t d1, before4_2 V c t d2, before4_3 V c t d3]
  -- the body runs on the handed buffers and leaves its arithmetic of them in the result's
  iapply (sound_kernel4 (F := Ideal) c Set.univ (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3))
    ((cfg4.win 0).fill (cfg4.grid.coords t) d0 (((cfg4.win 0).blk t).view.read (Elt Ideal) (V c main_v2_0)))
    (((cfg4.win 1).blk t).view.read (Elt Ideal) (V c main_v6)) (((cfg4.win 2).blk t).view.read (Elt Ideal) (V c main_v7)) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  isplitl [H0]
  · -- the adjacency buffer is as it was handed: its block on the rows inside the array, `d0` past them
    iexists d0
    rw [after4_0, Window.cut_fill]
    iexact H0
  isplitl [H1]
  · rw [after4_1]; iexact H1
  isplitl [H2]
  · rw [after4_2]; iexact H2
  · -- the result buffer holds the body's arithmetic, which on the rows inside the array is the closed form's block
    iexists k4_pay1 ((cfg4.win 0).fill (cfg4.grid.coords t) d0 (((cfg4.win 0).blk t).view.read (Elt Ideal) (V c main_v2_0)))
      (((cfg4.win 1).blk t).view.read (Elt Ideal) (V c main_v6)) (((cfg4.win 2).blk t).view.read (Elt Ideal) (V c main_v7))
    rw [after4_3, Window.cut_fill, ← block4 V c t d0, Window.fill_cut]
    iexact H3

/-- What point `t` writes back is its block of the closed form. -/
private theorem flushed4_3 (c : Dev nD) (t : Fin cfg4.N) :
    (dat4 V c).flushed 3 t = ((cfg4.win 3).blk t).view.read (Elt Ideal) (res4 V c) := by
  show (cfg4.win 3).cut (cfg4.grid.coords t) ((dat4 V c).after 3 t) = _
  rw [after4_3]
  exact (cfg4.win 3).cut_fill _ _ _

/-- An index of the result array is in point `t`'s block iff each coordinate is in the block's range inside the array. -/
private theorem mem_blk4_3 (t : Fin cfg4.N) (i : S10000x32.Idx) :
    i ∈ ((cfg4.win 3).blk t).view.set ↔ ∀ a : Fin 2, win4_3.index t a * S128x32.size a ≤ (i a).val
      ∧ (i a).val < win4_3.index t a * S128x32.size a + win4_3.xsize (grid4.coords t) a := by
  show i ∈ ((View.whole main_v8).slice (win4_3.rect t)).set ↔ _
  rw [View.set_slice_whole, Rect.mem_set_unit]
  exact Iff.rfl

/-- Every row of the result lies in the block of the point its row number divided by 128 names. -/
private theorem cover4_3 (i : S10000x32.Idx) : ∃ t : Fin cfg4.N, (cfg4.win 3).flush t = true ∧ i ∈ ((cfg4.win 3).blk t).view.set := by
  have hi0 : (i 0).val < 10000 := (i 0).isLt
  have hi1 : (i 1).val < 32 := (i 1).isLt
  have hN : cfg4.N = 79 := N_4
  refine ⟨⟨(i 0).val / 128, by rw [hN]; omega⟩, flush4_3 _, ?_⟩
  obtain ⟨e00, e01, e10, e11, e20, e21, e30, e31, ex0, ex01, ex31, ex30⟩ := idx_facts4 ⟨(i 0).val / 128, by rw [hN]; omega⟩
  rw [mem_blk4_3]
  intro a
  match a with
  | ⟨0, _⟩ =>
    show win4_3.index _ (0 : Fin 2) * 128 ≤ (i 0).val ∧ (i 0).val < win4_3.index _ (0 : Fin 2) * 128 + win4_3.xsize _ (0 : Fin 2)
    simp only at e30 ex30
    omega
  | ⟨1, _⟩ =>
    show win4_3.index _ (1 : Fin 2) * 32 ≤ (i 1).val ∧ (i 1).val < win4_3.index _ (1 : Fin 2) * 32 + win4_3.xsize _ (1 : Fin 2)
    omega

/-- After every write-back the result array holds the last layer of the operand arrays. -/
theorem final4_3 (c : Dev nD) : (dat4 V c).arrAt (3 : Fin cfg4.W) cfg4.N = (layerLast (V c main_v2_0) (V c main_v6) (V c main_v7) : Arr2 10000 32) := by
  exact (dat4 V c).arrAt_eq_of_cover 3 (res4 V c) (fun t _ => flushed4_3 V c t) cover4_3

end Cert.KernelIdeal.Hand

end
-- ==== Proof.IChain.lean ====
/-
  What every buffer of the TensorCore holds at each boundary between two items of the kernel program, on the extended
  reals: the launch contents; after a region, its arrays at what its pipeline's write-backs leave and every other
  buffer as it was; after a host stretch (a bias reshaped into one row), the stretch's result of what was there.
-/
import proofs.«164197_g26036091748832_cont_9to1_1945_4_alg».proof.Proof.IDat0
import proofs.«164197_g26036091748832_cont_9to1_1945_4_alg».proof.Proof.IDat1
import proofs.«164197_g26036091748832_cont_9to1_1945_4_alg».proof.Proof.IDat2
import proofs.«164197_g26036091748832_cont_9to1_1945_4_alg».proof.Proof.IDat3
import proofs.«164197_g26036091748832_cont_9to1_1945_4_alg».proof.Proof.IDat4
import Idealize.ShloMosaic.Lib.Pipeline.FrameSuffix
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

/-- Core `c`'s buffers at launch. -/
abbrev W0 : Dev nD → Valuation τ sig (Elt Ideal) := fun c b => m (c, b)
/-- The same read at the TensorCore's references (what region 0's proof data take). -/
abbrev V0 : (c : Dev nD) → (b : Ref sig .tc) → Buf (Elt Ideal) ((c : Thread nD τ).loc b) := fun c b => W0 m c b

/-- At region 0's exit: its arrays at what the pipeline leaves, every other buffer as entered. -/
def W1 (c : Dev nD) : Valuation τ sig (Elt Ideal) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references. -/
abbrev V1 : (c : Dev nD) → (b : Ref sig .tc) → Buf (Elt Ideal) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the host stretch `hostOps1` (region 1's entry). -/
abbrev W2 : Dev nD → Valuation τ sig (Elt Ideal) := fun c => StableHlo.after hostOps1 (W1 m c)
/-- The same read at the TensorCore's references (what region 1's proof data take). -/
abbrev V2 : (c : Dev nD) → (b : Ref sig .tc) → Buf (Elt Ideal) ((c : Thread nD τ).loc b) := fun c b => W2 m c b

/-- At region 1's exit: its arrays at what the pipeline leaves, every other buffer as entered. -/
def W3 (c : Dev nD) : Valuation τ sig (Elt Ideal) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev V3 : (c : Dev nD) → (b : Ref sig .tc) → Buf (Elt Ideal) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the host stretch `hostOps2` (region 2's entry). -/
abbrev W4 : Dev nD → Valuation τ sig (Elt Ideal) := fun c => StableHlo.after hostOps2 (W3 m c)
/-- The same read at the TensorCore's references (what region 2's proof data take). -/
abbrev V4 : (c : Dev nD) → (b : Ref sig .tc) → Buf (Elt Ideal) ((c : Thread nD τ).loc b) := fun c b => W4 m c b

/-- At region 2's exit: its arrays at what the pipeline leaves, every other buffer as entered. -/
def W5 (c : Dev nD) : Valuation τ sig (Elt Ideal) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- The same read at the TensorCore's references. -/
abbrev V5 : (c : Dev nD) → (b : Ref sig .tc) → Buf (Elt Ideal) ((c : Thread nD τ).loc b) := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-- After the host stretch `hostOps3` (region 3's entry). -/
abbrev W6 : Dev nD → Valuation τ sig (Elt Ideal) := fun c => StableHlo.after hostOps3 (W5 m c)
/-- The same read at the TensorCore's references (what region 3's proof data take). -/
abbrev V6 : (c : Dev nD) → (b : Ref sig .tc) → Buf (Elt Ideal) ((c : Thread nD τ).loc b) := fun c b => W6 m c b

/-- At region 3's exit: its arrays at what the pipeline leaves, every other buffer as entered. -/
def W7 (c : Dev nD) : Valuation τ sig (Elt Ideal) :=
  Pipeline.withArrays spec3 c (W6 m c) fun w => (dat3 (V6 m) c).arrAt w cfg3.N
theorem W7_arr (c : Dev nD) (w : Fin cfg3.W) :
    W7 m c (Proc.devRef .tc (Pipeline.arrRef spec3 w)) = (dat3 (V6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
/-- The same read at the TensorCore's references. -/
abbrev V7 : (c : Dev nD) → (b : Ref sig .tc) → Buf (Elt Ideal) ((c : Thread nD τ).loc b) := fun c b => W7 m c b
theorem hF3 (c : Dev nD) (w : Fin cfg3.W) : (dat3 (V6 m) c).arrAt w cfg3.N = V7 m c (Pipeline.arrRef spec3 w) :=
  (W7_arr m c w).symm
theorem hrest3 (c : Dev nD) : ∀ b, b ∉ Finset.univ.image (Pipeline.arrRef spec3) → V7 m c b = V6 m c b :=
  fun b hb => W7_of_ne m c b fun w e => hb (Finset.mem_image.mpr ⟨w, Finset.mem_univ _, e⟩)

/-- After the host stretch `hostOps4` (region 4's entry). -/
abbrev W8 : Dev nD → Valuation τ sig (Elt Ideal) := fun c => StableHlo.after hostOps4 (W7 m c)
/-- The same read at the TensorCore's references (what region 4's proof data take). -/
abbrev V8 : (c : Dev nD) → (b : Ref sig .tc) → Buf (Elt Ideal) ((c : Thread nD τ).loc b) := fun c b => W8 m c b

/-- At region 4's exit: its arrays at what the pipeline leaves, every other buffer as entered. -/
def W9 (c : Dev nD) : Valuation τ sig (Elt Ideal) :=
  Pipeline.withArrays spec4 c (W8 m c) fun w => (dat4 (V8 m) c).arrAt w cfg4.N
theorem W9_arr (c : Dev nD) (w : Fin cfg4.W) :
    W9 m c (Proc.devRef .tc (Pipeline.arrRef spec4 w)) = (dat4 (V8 m) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m c (Proc.devRef .tc b) = W8 m c (Proc.devRef .tc b) := by
  unfold W9; exact Pipeline.withArrays_of_ne spec4 c _ _ b hb
/-- The same read at the TensorCore's references. -/
abbrev V9 : (c : Dev nD) → (b : Ref sig .tc) → Buf (Elt Ideal) ((c : Thread nD τ).loc b) := fun c b => W9 m c b
theorem hF4 (c : Dev nD) (w : Fin cfg4.W) : (dat4 (V8 m) c).arrAt w cfg4.N = V9 m c (Pipeline.arrRef spec4 w) :=
  (W9_arr m c w).symm
theorem hrest4 (c : Dev nD) : ∀ b, b ∉ Finset.univ.image (Pipeline.arrRef spec4) → V9 m c b = V8 m c b :=
  fun b hb => W9_of_ne m c b fun w e => hb (Finset.mem_image.mpr ⟨w, Finset.mem_univ _, e⟩)

end Cert.KernelIdeal.Hand

end
-- ==== Proof.IRun.lean ====
/-
  The kernel program's run on the extended reals: its nine items in order — five regions, each from exact data at the
  contents it is entered with, and four host stretches between them — from the launch to the return, ending with every
  buffer that outlives a region at the last boundary's contents.
-/
import proofs.«164197_g26036091748832_cont_9to1_1945_4_alg».proof.Proof.IChain
import proofs.«164197_g26036091748832_cont_9to1_1945_4_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- Every pipeline's proof data, each at its region's entry contents — a literal match, so that at a numeral it reduces
    to that region's data. -/
def pdats : (p : Fin 5) → (c : Dev nD) → Dat τ (Elt Ideal) Unit ℕ (UR sig nD τ) ℕ (Pipeline.pin (pcfgs (F := Ideal)) adm p) c
  | ⟨0, _⟩ => fun c => dat0 (V0 m) c
  | ⟨1, _⟩ => fun c => dat1 (V2 m) c
  | ⟨2, _⟩ => fun c => dat2 (V4 m) c
  | ⟨3, _⟩ => fun c => dat3 (V6 m) c
  | ⟨4, _⟩ => fun c => dat4 (V8 m) c

/-- No core owes another anything, so no level is assigned. -/
abbrev runL : GSem nD τ sig → Finset Unit := fun _ => ∅
abbrev runLv : GSem nD τ sig → Unit → ℕ := fun _ _ => 0

/-- What rides beside the buffers through every item: the core's generator register at some state, and what the core
    owes, which is nothing. -/
abbrev runSide (c : Dev nD) : sProp 𝕄 :=
  iprop((∃ r, prngReg c r) ∗ ∃ W, owes (c : Thread nD τ) (0 : CellTallies nD τ sig Unit) W)

/-- A host stretch as an item: its operations run over the buffers that outlive a region, from the contents `W` to the
    stretch's result of them, `runSide` riding along. -/
abbrev runHost (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ Variants.none runL runLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W runSide

/-- The last state, without what is owed: every buffer that outlives a region at the last boundary's contents, the
    generator register at some state. -/
abbrev runLast (c : Dev nD) : sProp 𝕄 :=
  iprop(StableHlo.held (c : Thread nD τ) (Pipeline.ucRefs τ sig) (W9 m c) ∗ ∃ r, prngReg c r)

/-- A core that owes nothing, as proof data that owe nothing at point `t` hold it (any recorded set is within the
    bound `Set.univ`), -/
theorem dues_in {cfg : Cfg sig Λ₀} {c : Dev nD} (dat : Dat τ (Elt Ideal) Unit ℕ (UR sig nD τ) ℕ cfg c) (t : Fin (cfg.N + 1))
    (h0 : dat.owed t = 0) (hr : dat.recorded t = Set.univ) :
    iprop(∃ W, owes (c : Thread nD τ) (0 : CellTallies nD τ sig Unit) W) ⊢ (dat.owesAt () t : sProp 𝕄) := by
  unfold Pipeline.Dat.owesAt Pipeline.owesWithin
  rw [h0]
  iintro ⟨%W, HO⟩; iexists W; isplitr
  · ipureintro; intro x _; exact Or.inl (by rw [hr]; trivial)
  iexact HO

/-- and back: the bound is dropped. -/
theorem dues_out {cfg : Cfg sig Λ₀} {c : Dev nD} (dat : Dat τ (Elt Ideal) Unit ℕ (UR sig nD τ) ℕ cfg c) (t : Fin (cfg.N + 1))
    (h0 : dat.owed t = 0) :
    (dat.owesAt () t : sProp 𝕄) ⊢ iprop(∃ W, owes (c : Thread nD τ) (0 : CellTallies nD τ sig Unit) W) := by
  unfold Pipeline.Dat.owesAt Pipeline.owesWithin
  rw [h0]
  iintro ⟨%W, -, HO⟩; iexists W; iexact HO

/-! ## The regions as items -/

set_option backward.isDefEq.respectTransparency.types false in
/-- Region 0 as an item of the run: entered with every buffer that outlives a region at `W0`, left with them at `W1`.
    At entry its windows' arrays are split off those buffers; at exit they are put back at what the write-backs left, every
    other buffer as entered. The generator register passes into the region's invariant and out again; nothing is owed;
    the kernel has no semaphore of its own. -/
def runReg0 : Pipeline.RegionSeg (pcfgs (F := Ideal)) adm (pdats m) () defs₀ Variants.none runL runLv 0 where
  win := launch0.win.to₀
  block_pos := launch0.block_pos
  stage_whole := launch0.stage_whole
  K := PEmpty
  osem k := k.elim
  ho := Pipeline.OwnSemFacts.none _
  hbody c := ibody0 (V0 m) c
  hwaits := Pipeline.hwaits_of_owed_zero _ _ _ _ runL runLv 0 fun _ _ => rfl
  pre c := iprop(StableHlo.held (c : Thread nD τ) (Pipeline.ucRefs τ sig) (W0 m c) ∗ runSide c)
  post c := iprop(StableHlo.held (c : Thread nD τ) (Pipeline.ucRefs τ sig) (W1 m c) ∗ runSide c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := Ideal)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (dues_in (pdats m 0 c) 0 rfl rfl); iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (dues_out (pdats m 0 c) (Fin.last _) rfl); iexact HO

set_option backward.isDefEq.respectTransparency.types false in
/-- Region 1 as an item of the run: entered with every buffer that outlives a region at `W2`, left with them at `W3`.
    At entry its windows' arrays are split off those buffers; at exit they are put back at what the write-backs left, every
    other buffer as entered. The generator register passes into the region's invariant and out again; nothing is owed;
    the kernel has no semaphore of its own. -/
def runReg1 : Pipeline.RegionSeg (pcfgs (F := Ideal)) adm (pdats m) () defs₀ Variants.none runL runLv 1 where
  win := launch1.win.to₀
  block_pos := launch1.block_pos
  stage_whole := launch1.stage_whole
  K := PEmpty
  osem k := k.elim
  ho := Pipeline.OwnSemFacts.none _
  hbody c := ibody1 (V2 m) c
  hwaits := Pipeline.hwaits_of_owed_zero _ _ _ _ runL runLv 1 fun _ _ => rfl
  pre c := iprop(StableHlo.held (c : Thread nD τ) (Pipeline.ucRefs τ sig) (W2 m c) ∗ runSide c)
  post c := iprop(StableHlo.held (c : Thread nD τ) (Pipeline.ucRefs τ sig) (W3 m c) ∗ runSide c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := Ideal)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (dues_in (pdats m 1 c) 0 rfl rfl); iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (dues_out (pdats m 1 c) (Fin.last _) rfl); iexact HO

set_option backward.isDefEq.respectTransparency.types false in
/-- Region 2 as an item of the run: entered with every buffer that outlives a region at `W4`, left with them at `W5`.
    At entry its windows' arrays are split off those buffers; at exit they are put back at what the write-backs left, every
    other buffer as entered. The generator register passes into the region's invariant and out again; nothing is owed;
    the kernel has no semaphore of its own. -/
def runReg2 : Pipeline.RegionSeg (pcfgs (F := Ideal)) adm (pdats m) () defs₀ Variants.none runL runLv 2 where
  win := launch2.win.to₀
  block_pos := launch2.block_pos
  stage_whole := launch2.stage_whole
  K := PEmpty
  osem k := k.elim
  ho := Pipeline.OwnSemFacts.none _
  hbody c := ibody2 (V4 m) c
  hwaits := Pipeline.hwaits_of_owed_zero _ _ _ _ runL runLv 2 fun _ _ => rfl
  pre c := iprop(StableHlo.held (c : Thread nD τ) (Pipeline.ucRefs τ sig) (W4 m c) ∗ runSide c)
  post c := iprop(StableHlo.held (c : Thread nD τ) (Pipeline.ucRefs τ sig) (W5 m c) ∗ runSide c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := Ideal)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (dues_in (pdats m 2 c) 0 rfl rfl); iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := Ideal)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (dues_out (pdats m 2 c) (Fin.last _) rfl); iexact HO

set_option backward.isDefEq.respectTransparency.types false in
/-- Region 3 as an item of the run: entered with every buffer that outlives a region at `W6`, left with them at `W7`.
    At entry its windows' arrays are split off those buffers; at exit they are put back at what the write-backs left, every
    other buffer as entered. The generator register passes into the region's invariant and out again; nothing is owed;
    the kernel has no semaphore of its own. -/
def runReg3 : Pipeline.RegionSeg (pcfgs (F := Ideal)) adm (pdats m) () defs₀ Variants.none runL runLv 3 where
  win := launch3.win.to₀
  block_pos := launch3.block_pos
  stage_whole := launch3.stage_whole
  K := PEmpty
  osem k := k.elim
  ho := Pipeline.OwnSemFacts.none _
  hbody c := ibody3 (V6 m) c
  hwaits := Pipeline.hwaits_of_owed_zero _ _ _ _ runL runLv 3 fun _ _ => rfl
  pre c := iprop(StableHlo.held (c : Thread nD τ) (Pipeline.ucRefs τ sig) (W6 m c) ∗ runSide c)
  post c := iprop(StableHlo.held (c : Thread nD τ) (Pipeline.ucRefs τ sig) (W7 m c) ∗ runSide c)
  X c := iprop(∃ r, prngReg c r)
  Y c := iprop(∃ r, prngReg c r)
  Z c := Pipeline.unscopedRest (Ix := Unit) (Name := ℕ) (U := UR sig nD τ) (Lvl := ℕ) spec3 c (V6 m c)
  hentry c := by
    rw [Pipeline.ownSems0_none]
    have hsplit := Pipeline.arrays_of_unscopedBufs (p := 3) (pcfgs (F := Ideal)) adm (pdats m) launch3.win launch3.arr_whole c
      ((pdats m 3 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (dues_in (pdats m 3 c) 0 rfl rfl); iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := Ideal)) adm (Ix := Unit) (Name := ℕ) (U := UR sig nD τ) (Lvl := ℕ)
      launch3.win launch3.arr_whole c (pdats m) ((pdats m 3 c).share_full fun _ => rfl)
      (V6 m c) (V7 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (dues_out (pdats m 3 c) (Fin.last _) rfl); iexact HO

set_option backward.isDefEq.respectTransparency.types false in
/-- Region 4 as an item of the run: entered with every buffer that outlives a region at `W8`, left with them at `W9`.
    At entry its windows' arrays are split off those buffers; at exit they are put back at what the write-backs left, every
    other buffer as entered. The generator register passes into the region's invariant and out again; nothing is owed;
    the kernel has no semaphore of its own. -/
def runReg4 : Pipeline.RegionSeg (pcfgs (F := Ideal)) adm (pdats m) () defs₀ Variants.none runL runLv 4 where
  win := launch4.win.to₀
  block_pos := launch4.block_pos
  stage_whole := launch4.stage_whole
  K := PEmpty
  osem k := k.elim
  ho := Pipeline.OwnSemFacts.none _
  hbody c := ibody4 (V8 m) c
  hwaits := Pipeline.hwaits_of_owed_zero _ _ _ _ runL runLv 4 fun _ _ => rfl
  pre c := iprop(StableHlo.held (c : Thread nD τ) (Pipeline.ucRefs τ sig) (W8 m c) ∗ runSide c)
  post c := iprop(runLast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V8 m c)
  hentry c := by
    rw [Pipeline.ownSems0_none]
    have hsplit := Pipeline.arrays_of_unscopedBufs (p := 4) (pcfgs (F := Ideal)) adm (pdats m) launch4.win launch4.arr_whole c
      ((pdats m 4 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (dues_in (pdats m 4 c) 0 rfl rfl); iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := Ideal)) adm (Ix := Unit) (Name := ℕ) (U := UR sig nD τ) (Lvl := ℕ)
      launch4.win launch4.arr_whole c (pdats m) ((pdats m 4 c).share_full fun _ => rfl)
      (V8 m c) (V9 m c) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    iapply (dues_out (pdats m 4 c) (Fin.last _) rfl); iexact HO

/-! ## The program as its items, and the launch -/

/-- The program's nine items in order. -/
abbrev runItems : List (Pipeline.Seg (pcfgs (F := Ideal)) adm (pdats m) () defs₀ Variants.none runL runLv) :=
  [ .region (runReg0 m),
    .host (runHost hostOps1 hostOps1_sub hostOps1_fresh (W1 m)),
    .region (runReg1 m),
    .host (runHost hostOps2 hostOps2_sub hostOps2_fresh (W3 m)),
    .region (runReg2 m),
    .host (runHost hostOps3 hostOps3_sub hostOps3_fresh (W5 m)),
    .region (runReg3 m),
    .host (runHost hostOps4 hostOps4_sub hostOps4_fresh (W7 m)),
    .region (runReg4 m) ]

/-- The program is the run of its items. -/
theorem main_runItems (c : Dev nD) : main (F := Ideal) c = Pipeline.Seg.run (runItems m) :=
  (main_chain c).trans (by chain_rfl)

set_option backward.isDefEq.respectTransparency.types false in
/-- THE RUN: from any memory with zero counters every weakly fair execution of the program terminates, nothing faulting,
    and every final memory holds each buffer that outlives a region at the last boundary's contents `W9`. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := Ideal)) adm (pdats m) () cellOf_inj emb₁ defs₀ Variants.none runL runLv m ρ main (runItems m)
    (fun c Q => by rw [main_runItems m c])
    (by simp only [runItems, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ runSide c)) (Tₙ := runLast m)
    (hch := ⟨fun _ => .rfl, fun _ => .rfl, fun _ => .rfl, fun _ => .rfl, fun _ => .rfl, fun _ => .rfl, fun _ => .rfl,
      fun _ => .rfl, fun _ => .rfl, fun _ => .rfl⟩)
    (hinit := by
      refine Pipeline.initEach runL runLv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

end Cert.KernelIdeal.Hand

end
-- ==== Proof.IVal.lean ====
/-
  What the kernel program's buffers hold at the return, on the extended reals: the result array is the kernel's five
  stages of the argument arrays — each region's result array read through the closed form of what it was entered with,
  each bias read through its reshape into one row — and every argument array is as launched, no item writing one.
-/
import proofs.«164197_g26036091748832_cont_9to1_1945_4_alg».proof.Proof.IRun
import Idealize.ShloMosaic.Lib.StableHlo.Run

set_option maxRecDepth 16384

noncomputable section

namespace Cert.KernelIdeal.Hand

open Cert.KernelIdeal Cert.KernelIdeal.Gen Cert.Forms Cert.MatIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-! ## What a step leaves alone -/

/-- A host stretch leaves every buffer it does not write. -/
private theorem W2_of (c : Dev nD) (r : Ref sig .tc) (h : r ∉ (hostOps1_W : List (Ref sig .tc))) :
    W2 m c (Proc.devRef .tc r) = W1 m c (Proc.devRef .tc r) :=
  StableHlo.after_of_writes_sub hostOps1 _ hostOps1_writes h
private theorem W4_of (c : Dev nD) (r : Ref sig .tc) (h : r ∉ (hostOps2_W : List (Ref sig .tc))) :
    W4 m c (Proc.devRef .tc r) = W3 m c (Proc.devRef .tc r) :=
  StableHlo.after_of_writes_sub hostOps2 _ hostOps2_writes h
private theorem W6_of (c : Dev nD) (r : Ref sig .tc) (h : r ∉ (hostOps3_W : List (Ref sig .tc))) :
    W6 m c (Proc.devRef .tc r) = W5 m c (Proc.devRef .tc r) :=
  StableHlo.after_of_writes_sub hostOps3 _ hostOps3_writes h
private theorem W8_of (c : Dev nD) (r : Ref sig .tc) (h : r ∉ (hostOps4_W : List (Ref sig .tc))) :
    W8 m c (Proc.devRef .tc r) = W7 m c (Proc.devRef .tc r) :=
  StableHlo.after_of_writes_sub hostOps4 _ hostOps4_writes h

/-- A region leaves every buffer that is not one of its result arrays: a buffer it does not stage is untouched, and
    an operand window's array is never written. -/
private theorem W1_keep (c : Dev nD) (b : Ref sig .tc) (h : ∀ w, Pipeline.arrRef spec0 w = b → (cfg0.win w).isOut = false) :
    W1 m c (Proc.devRef .tc b) = W0 m c (Proc.devRef .tc b) := by
  by_cases hb : ∃ w, Pipeline.arrRef spec0 w = b
  · obtain ⟨w, rfl⟩ := hb
    exact (W1_arr m c w).trans (((dat0 (V0 m) c).arrAt_in w (h w rfl) _).trans (A_eq0 (V0 m) c w))
  · exact W1_of_ne m c b fun w e => hb ⟨w, e⟩
private theorem W3_keep (c : Dev nD) (b : Ref sig .tc) (h : ∀ w, Pipeline.arrRef spec1 w = b → (cfg1.win w).isOut = false) :
    W3 m c (Proc.devRef .tc b) = W2 m c (Proc.devRef .tc b) := by
  by_cases hb : ∃ w, Pipeline.arrRef spec1 w = b
  · obtain ⟨w, rfl⟩ := hb
    exact (W3_arr m c w).trans (((dat1 (V2 m) c).arrAt_in w (h w rfl) _).trans (A_eq1 (V2 m) c w))
  · exact W3_of_ne m c b fun w e => hb ⟨w, e⟩
private theorem W5_keep (c : Dev nD) (b : Ref sig .tc) (h : ∀ w, Pipeline.arrRef spec2 w = b → (cfg2.win w).isOut = false) :
    W5 m c (Proc.devRef .tc b) = W4 m c (Proc.devRef .tc b) := by
  by_cases hb : ∃ w, Pipeline.arrRef spec2 w = b
  · obtain ⟨w, rfl⟩ := hb
    exact (W5_arr m c w).trans (((dat2 (V4 m) c).arrAt_in w (h w rfl) _).trans (A_eq2 (V4 m) c w))
  · exact W5_of_ne m c b fun w e => hb ⟨w, e⟩
private theorem W7_keep (c : Dev nD) (b : Ref sig .tc) (h : ∀ w, Pipeline.arrRef spec3 w = b → (cfg3.win w).isOut = false) :
    W7 m c (Proc.devRef .tc b) = W6 m c (Proc.devRef .tc b) := by
  by_cases hb : ∃ w, Pipeline.arrRef spec3 w = b
  · obtain ⟨w, rfl⟩ := hb
    exact (W7_arr m c w).trans (((dat3 (V6 m) c).arrAt_in w (h w rfl) _).trans (A_eq3 (V6 m) c w))
  · exact W7_of_ne m c b fun w e => hb ⟨w, e⟩
private theorem W9_keep (c : Dev nD) (b : Ref sig .tc) (h : ∀ w, Pipeline.arrRef spec4 w = b → (cfg4.win w).isOut = false) :
    W9 m c (Proc.devRef .tc b) = W8 m c (Proc.devRef .tc b) := by
  by_cases hb : ∃ w, Pipeline.arrRef spec4 w = b
  · obtain ⟨w, rfl⟩ := hb
    exact (W9_arr m c w).trans (((dat4 (V8 m) c).arrAt_in w (h w rfl) _).trans (A_eq4 (V8 m) c w))
  · exact W9_of_ne m c b fun w e => hb ⟨w, e⟩

/-! ## The buffers nothing writes -/

/-- A buffer that no host stretch writes and that is no region's result array. -/
private abbrev Kept (b : Ref sig .tc) : Prop :=
  (∀ w, Pipeline.arrRef spec0 w = b → (cfg0.win w).isOut = false) ∧ b ∉ (hostOps1_W : List (Ref sig .tc)) ∧
  (∀ w, Pipeline.arrRef spec1 w = b → (cfg1.win w).isOut = false) ∧ b ∉ (hostOps2_W : List (Ref sig .tc)) ∧
  (∀ w, Pipeline.arrRef spec2 w = b → (cfg2.win w).isOut = false) ∧ b ∉ (hostOps3_W : List (Ref sig .tc)) ∧
  (∀ w, Pipeline.arrRef spec3 w = b → (cfg3.win w).isOut = false) ∧ b ∉ (hostOps4_W : List (Ref sig .tc)) ∧
  (∀ w, Pipeline.arrRef spec4 w = b → (cfg4.win w).isOut = false)

/-- Such a buffer holds its launch contents at every boundary. -/
private theorem W1_kept (c : Dev nD) {b : Ref sig .tc} (h : Kept b) : W1 m c (Proc.devRef .tc b) = m ((c : Thread nD τ).loc b) :=
  W1_keep m c b h.1
private theorem W2_kept (c : Dev nD) {b : Ref sig .tc} (h : Kept b) : W2 m c (Proc.devRef .tc b) = m ((c : Thread nD τ).loc b) :=
  (W2_of m c b h.2.1).trans (W1_kept m c h)
private theorem W3_kept (c : Dev nD) {b : Ref sig .tc} (h : Kept b) : W3 m c (Proc.devRef .tc b) = m ((c : Thread nD τ).loc b) :=
  (W3_keep m c b h.2.2.1).trans (W2_kept m c h)
private theorem W4_kept (c : Dev nD) {b : Ref sig .tc} (h : Kept b) : W4 m c (Proc.devRef .tc b) = m ((c : Thread nD τ).loc b) :=
  (W4_of m c b h.2.2.2.1).trans (W3_kept m c h)
private theorem W5_kept (c : Dev nD) {b : Ref sig .tc} (h : Kept b) : W5 m c (Proc.devRef .tc b) = m ((c : Thread nD τ).loc b) :=
  (W5_keep m c b h.2.2.2.2.1).trans (W4_kept m c h)
private theorem W6_kept (c : Dev nD) {b : Ref sig .tc} (h : Kept b) : W6 m c (Proc.devRef .tc b) = m ((c : Thread nD τ).loc b) :=
  (W6_of m c b h.2.2.2.2.2.1).trans (W5_kept m c h)
private theorem W7_kept (c : Dev nD) {b : Ref sig .tc} (h : Kept b) : W7 m c (Proc.devRef .tc b) = m ((c : Thread nD τ).loc b) :=
  (W7_keep m c b h.2.2.2.2.2.2.1).trans (W6_kept m c h)
private theorem W8_kept (c : Dev nD) {b : Ref sig .tc} (h : Kept b) : W8 m c (Proc.devRef .tc b) = m ((c : Thread nD τ).loc b) :=
  (W8_of m c b h.2.2.2.2.2.2.2.1).trans (W7_kept m c h)
private theorem W9_kept (c : Dev nD) {b : Ref sig .tc} (h : Kept b) : W9 m c (Proc.devRef .tc b) = m ((c : Thread nD τ).loc b) :=
  (W9_keep m c b h.2.2.2.2.2.2.2.2).trans (W8_kept m c h)

private theorem kept_arg0 : Kept main_arg0 := by decide
private theorem kept_arg1 : Kept main_arg1 := by decide
private theorem kept_arg2 : Kept main_arg2 := by decide
private theorem kept_arg3 : Kept main_arg3 := by decide
private theorem kept_arg4 : Kept main_arg4 := by decide
private theorem kept_arg5 : Kept main_arg5 := by decide
private theorem kept_arg6 : Kept main_arg6 := by decide
private theorem kept_arg7 : Kept main_arg7 := by decide
private theorem kept_arg8 : Kept main_arg8 := by decide
private theorem kept_arg9 : Kept main_arg9 := by decide

/-! ## A bias reshaped into one row -/

/-- A vector reshaped into a one-row matrix, read as that row, is the vector: the row-major position of entry `(0, s)`
    of a `1 × d` array is `s`. -/
private theorem rowVec_shapeCast {d : ℕ} (v : Arr1 d) (h : (⟨1, ![d]⟩ : Shape).ShapeCasts ⟨2, ![1, d]⟩) :
    rowVec (shapeCast ⟨2, ![1, d]⟩ v h : Arr2 1 d) = toVec v := by
  funext s
  show shapeCast _ v h (ValueIdx.ix2 0 s) = v (ValueIdx.ix1 s)
  refine shapeCast_apply v h (ValueIdx.ix2 0 s) (ValueIdx.ix1 s) ?_
  rw [Shape.rowMajor_val_one, Shape.rowMajor_val_two]
  show s.val = (0 : Fin 1).val * _ + s.val
  simp

/-- Region 1's bias row is the first bias. -/
private theorem W2_row (c : Dev nD) :
    rowVec (W2 m c (Proc.devRef .tc main_v1) : Arr2 1 256) = toVec (m ((c : Thread nD τ).loc main_arg3) : Arr1 256) := by
  have e : (W2 m c (Proc.devRef .tc main_v1) : Arr2 1 256)
      = shapeCast S1x256 (W1 m c (Proc.devRef .tc main_arg3) : Arr1 256) Gen.shapeCasts_S256_S1x256 := by
    show StableHlo.after (hostOps1 (F := Ideal)) (W1 m c) (Proc.devRef .tc main_v1) = _
    after_results
    rfl
  rw [e, W1_kept m c kept_arg3]
  exact rowVec_shapeCast _ _

private theorem W4_row (c : Dev nD) :
    rowVec (W4 m c (Proc.devRef .tc main_v3) : Arr2 1 128) = toVec (m ((c : Thread nD τ).loc main_arg5) : Arr1 128) := by
  have e : (W4 m c (Proc.devRef .tc main_v3) : Arr2 1 128)
      = shapeCast S1x128 (W3 m c (Proc.devRef .tc main_arg5) : Arr1 128) Gen.shapeCasts_S128_S1x128 := by
    show StableHlo.after (hostOps2 (F := Ideal)) (W3 m c) (Proc.devRef .tc main_v3) = _
    after_results
    rfl
  rw [e, W3_kept m c kept_arg5]
  exact rowVec_shapeCast _ _
private theorem W6_row (c : Dev nD) :
    rowVec (W6 m c (Proc.devRef .tc main_v5) : Arr2 1 64) = toVec (m ((c : Thread nD τ).loc main_arg7) : Arr1 64) := by
  have e : (W6 m c (Proc.devRef .tc main_v5) : Arr2 1 64)
      = shapeCast S1x64 (W5 m c (Proc.devRef .tc main_arg7) : Arr1 64) Gen.shapeCasts_S64_S1x64 := by
    show StableHlo.after (hostOps3 (F := Ideal)) (W5 m c) (Proc.devRef .tc main_v5) = _
    after_results
    rfl
  rw [e, W5_kept m c kept_arg7]
  exact rowVec_shapeCast _ _
private theorem W8_row (c : Dev nD) :
    rowVec (W8 m c (Proc.devRef .tc main_v7) : Arr2 1 32) = toVec (m ((c : Thread nD τ).loc main_arg9) : Arr1 32) := by
  have e : (W8 m c (Proc.devRef .tc main_v7) : Arr2 1 32)
      = shapeCast S1x32 (W7 m c (Proc.devRef .tc main_arg9) : Arr1 32) Gen.shapeCasts_S32_S1x32 := by
    show StableHlo.after (hostOps4 (F := Ideal)) (W7 m c) (Proc.devRef .tc main_v7) = _
    after_results
    rfl
  rw [e, W7_kept m c kept_arg9]
  exact rowVec_shapeCast _ _

/-! ## The adjacency array's copy -/

/-- Region 1 copies the adjacency array; regions 2 to 4 only read the copy, and no host stretch writes it. -/
private theorem W3_adj (c : Dev nD) : W3 m c (Proc.devRef .tc main_v2_0) = (m ((c : Thread nD τ).loc main_arg1) : Arr2 10000 10000) :=
  (W3_arr m c 4).trans ((final1_4 (V2 m) c).trans (W2_kept m c kept_arg1))
private theorem W4_adj (c : Dev nD) : W4 m c (Proc.devRef .tc main_v2_0) = (m ((c : Thread nD τ).loc main_arg1) : Arr2 10000 10000) :=
  (W4_of m c main_v2_0 (by decide)).trans (W3_adj m c)
private theorem W6_adj (c : Dev nD) : W6 m c (Proc.devRef .tc main_v2_0) = (m ((c : Thread nD τ).loc main_arg1) : Arr2 10000 10000) :=
  (W6_of m c main_v2_0 (by decide)).trans ((W5_keep m c main_v2_0 (by decide)).trans (W4_adj m c))
private theorem W8_adj (c : Dev nD) : W8 m c (Proc.devRef .tc main_v2_0) = (m ((c : Thread nD τ).loc main_arg1) : Arr2 10000 10000) :=
  (W8_of m c main_v2_0 (by decide)).trans ((W7_keep m c main_v2_0 (by decide)).trans (W6_adj m c))

/-! ## The stages' results, as matrices of the argument arrays -/

/-- Stage 0's result: `X · W₁`. -/
private def stage0 (c : Dev nD) : Cert.Spec.Mat 10000 256 :=
  Cert.Spec.mm (toMat (m ((c : Thread nD τ).loc main_arg0) : Arr2 10000 512)) (toMat (m ((c : Thread nD τ).loc main_arg2) : Arr2 512 256))
/-- Stage 1's second result: `relu (A · (X · W₁) + b₁) · W₂`. -/
private def stage1 (c : Dev nD) : Cert.Spec.Mat 10000 128 :=
  Cert.Spec.mm (Cert.Spec.kerLayer (toMat (m ((c : Thread nD τ).loc main_arg1) : Arr2 10000 10000)) (stage0 m c) (toVec (m ((c : Thread nD τ).loc main_arg3) : Arr1 256))) (toMat (m ((c : Thread nD τ).loc main_arg4) : Arr2 256 128))
/-- Stage 2's result. -/
private def stage2 (c : Dev nD) : Cert.Spec.Mat 10000 64 :=
  Cert.Spec.mm (Cert.Spec.kerLayer (toMat (m ((c : Thread nD τ).loc main_arg1) : Arr2 10000 10000)) (stage1 m c) (toVec (m ((c : Thread nD τ).loc main_arg5) : Arr1 128))) (toMat (m ((c : Thread nD τ).loc main_arg6) : Arr2 128 64))
/-- Stage 3's result. -/
private def stage3 (c : Dev nD) : Cert.Spec.Mat 10000 32 :=
  Cert.Spec.mm (Cert.Spec.kerLayer (toMat (m ((c : Thread nD τ).loc main_arg1) : Arr2 10000 10000)) (stage2 m c) (toVec (m ((c : Thread nD τ).loc main_arg7) : Arr1 64))) (toMat (m ((c : Thread nD τ).loc main_arg8) : Arr2 64 32))

/-- Region 0's result array, as region 1 is entered. -/
private theorem W2_stage0 (c : Dev nD) : W2 m c (Proc.devRef .tc main_v0) = (ofMat (stage0 m c) : Arr2 10000 256) :=
  (W2_of m c main_v0 (by decide)).trans ((W1_arr m c 2).trans (final0_2 (V0 m) c))

/-- Region 1's second result array, as region 2 is entered. -/
private theorem W4_stage1 (c : Dev nD) : W4 m c (Proc.devRef .tc main_v2_1) = (ofMat (stage1 m c) : Arr2 10000 128) := by
  refine (W4_of m c main_v2_1 (by decide)).trans ((W3_arr m c 5).trans ((final1_5 (V2 m) c).trans ?_))
  show layerProj (W2 m c (Proc.devRef .tc main_arg1)) (W2 m c (Proc.devRef .tc main_v0)) (W2 m c (Proc.devRef .tc main_v1))
    (W2 m c (Proc.devRef .tc main_arg4)) = _
  unfold layerProj
  rw [W2_kept m c kept_arg1, W2_stage0, W2_row, W2_kept m c kept_arg4, toMat_ofMat]
  rfl

/-- Region 2's result array, as region 3 is entered. -/
private theorem W6_stage2 (c : Dev nD) : W6 m c (Proc.devRef .tc main_v4) = (ofMat (stage2 m c) : Arr2 10000 64) := by
  refine (W6_of m c main_v4 (by decide)).trans ((W5_arr m c 4).trans ((final2_4 (V4 m) c).trans ?_))
  show layerProj (W4 m c (Proc.devRef .tc main_v2_0)) (W4 m c (Proc.devRef .tc main_v2_1)) (W4 m c (Proc.devRef .tc main_v3))
    (W4 m c (Proc.devRef .tc main_arg6)) = _
  unfold layerProj
  rw [W4_adj, W4_stage1, W4_row, W4_kept m c kept_arg6, toMat_ofMat]
  rfl

/-- Region 3's result array, as region 4 is entered. -/
private theorem W8_stage3 (c : Dev nD) : W8 m c (Proc.devRef .tc main_v6) = (ofMat (stage3 m c) : Arr2 10000 32) := by
  refine (W8_of m c main_v6 (by decide)).trans ((W7_arr m c 4).trans ((final3_4 (V6 m) c).trans ?_))
  show layerProj (W6 m c (Proc.devRef .tc main_v2_0)) (W6 m c (Proc.devRef .tc main_v4)) (W6 m c (Proc.devRef .tc main_v5))
    (W6 m c (Proc.devRef .tc main_arg8)) = _
  unfold layerProj
  rw [W6_adj, W6_stage2, W6_row, W6_kept m c kept_arg8, toMat_ofMat]
  rfl

/-! ## The theorems -/

/-- The result array at the last boundary: the kernel's network of the argument arrays. -/
theorem W9_result (c : Dev nD) : W9 m c (Proc.devRef .tc main_v8) = (ofMat (Cert.Spec.kerNet (toMat (m ((c.tc : Thread nD τ).loc main_arg1))) (toMat (m ((c.tc : Thread nD τ).loc main_arg0))) (toMat (m ((c.tc : Thread nD τ).loc main_arg2))) (toVec (m ((c.tc : Thread nD τ).loc main_arg3))) (toMat (m ((c.tc : Thread nD τ).loc main_arg4))) (toVec (m ((c.tc : Thread nD τ).loc main_arg5))) (toMat (m ((c.tc : Thread nD τ).loc main_arg6))) (toVec (m ((c.tc : Thread nD τ).loc main_arg7))) (toMat (m ((c.tc : Thread nD τ).loc main_arg8))) (toVec (m ((c.tc : Thread nD τ).loc main_arg9)))) : Arr2 10000 32) := by
  refine (W9_arr m c 3).trans ((final4_3 (V8 m) c).trans ?_)
  show layerLast (W8 m c (Proc.devRef .tc main_v2_0)) (W8 m c (Proc.devRef .tc main_v6)) (W8 m c (Proc.devRef .tc main_v7)) = _
  unfold layerLast
  rw [W8_adj, W8_stage3, W8_row, toMat_ofMat]
  rfl

/-- Argument 0 reaches the last boundary as launched. -/
theorem W9_main_arg0 (c : Dev nD) : W9 m c (Proc.devRef .tc main_arg0) = m ((c : Thread nD τ).loc main_arg0) := by
  exact W9_kept m c kept_arg0
/-- Argument 1 reaches the last boundary as launched. -/
theorem W9_main_arg1 (c : Dev nD) : W9 m c (Proc.devRef .tc main_arg1) = m ((c : Thread nD τ).loc main_arg1) := by
  exact W9_kept m c kept_arg1
/-- Argument 2 reaches the last boundary as launched. -/
theorem W9_main_arg2 (c : Dev nD) : W9 m c (Proc.devRef .tc main_arg2) = m ((c : Thread nD τ).loc main_arg2) := by
  exact W9_kept m c kept_arg2
/-- Argument 3 reaches the last boundary as launched. -/
theorem W9_main_arg3 (c : Dev nD) : W9 m c (Proc.devRef .tc main_arg3) = m ((c : Thread nD τ).loc main_arg3) := by
  exact W9_kept m c kept_arg3
/-- Argument 4 reaches the last boundary as launched. -/
theorem W9_main_arg4 (c : Dev nD) : W9 m c (Proc.devRef .tc main_arg4) = m ((c : Thread nD τ).loc main_arg4) := by
  exact W9_kept m c kept_arg4
/-- Argument 5 reaches the last boundary as launched. -/
theorem W9_main_arg5 (c : Dev nD) : W9 m c (Proc.devRef .tc main_arg5) = m ((c : Thread nD τ).loc main_arg5) := by
  exact W9_kept m c kept_arg5
/-- Argument 6 reaches the last boundary as launched. -/
theorem W9_main_arg6 (c : Dev nD) : W9 m c (Proc.devRef .tc main_arg6) = m ((c : Thread nD τ).loc main_arg6) := by
  exact W9_kept m c kept_arg6
/-- Argument 7 reaches the last boundary as launched. -/
theorem W9_main_arg7 (c : Dev nD) : W9 m c (Proc.devRef .tc main_arg7) = m ((c : Thread nD τ).loc main_arg7) := by
  exact W9_kept m c kept_arg7
/-- Argument 8 reaches the last boundary as launched. -/
theorem W9_main_arg8 (c : Dev nD) : W9 m c (Proc.devRef .tc main_arg8) = m ((c : Thread nD τ).loc main_arg8) := by
  exact W9_kept m c kept_arg8
/-- Argument 9 reaches the last boundary as launched. -/
theorem W9_main_arg9 (c : Dev nD) : W9 m c (Proc.devRef .tc main_arg9) = m ((c : Thread nD τ).loc main_arg9) := by
  exact W9_kept m c kept_arg9

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run, read at the result and the arguments. -/
theorem run_main : θ_run defs (onTc (τ := τ) (main (F := Ideal))) ⟨m, fun _ => 0, ρ⟩ (fun r => ∀ c : Dev nD,
      r.2.mem ((c.tc : Thread nD τ).loc main_v8) = (ofMat (Cert.Spec.kerNet (toMat (m ((c.tc : Thread nD τ).loc main_arg1))) (toMat (m ((c.tc : Thread nD τ).loc main_arg0))) (toMat (m ((c.tc : Thread nD τ).loc main_arg2))) (toVec (m ((c.tc : Thread nD τ).loc main_arg3))) (toMat (m ((c.tc : Thread nD τ).loc main_arg4))) (toVec (m ((c.tc : Thread nD τ).loc main_arg5))) (toMat (m ((c.tc : Thread nD τ).loc main_arg6))) (toVec (m ((c.tc : Thread nD τ).loc main_arg7))) (toMat (m ((c.tc : Thread nD τ).loc main_arg8))) (toVec (m ((c.tc : Thread nD τ).loc main_arg9)))) : Arr2 10000 32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_v8 (by decide))).trans (W9_result m c),
      (h c _ (mem_uc main_arg0 (by decide))).trans (W9_main_arg0 m c),
      (h c _ (mem_uc main_arg1 (by decide))).trans (W9_main_arg1 m c),
      (h c _ (mem_uc main_arg2 (by decide))).trans (W9_main_arg2 m c),
      (h c _ (mem_uc main_arg3 (by decide))).trans (W9_main_arg3 m c),
      (h c _ (mem_uc main_arg4 (by decide))).trans (W9_main_arg4 m c),
      (h c _ (mem_uc main_arg5 (by decide))).trans (W9_main_arg5 m c),
      (h c _ (mem_uc main_arg6 (by decide))).trans (W9_main_arg6 m c),
      (h c _ (mem_uc main_arg7 (by decide))).trans (W9_main_arg7 m c),
      (h c _ (mem_uc main_arg8 (by decide))).trans (W9_main_arg8 m c),
      (h c _ (mem_uc main_arg9 (by decide))).trans (W9_main_arg9 m c)⟩)
    (run_all m ρ)

end Cert.KernelIdeal.Hand

end
-- ==== Proof.RefValue.lean ====
/-
  The reference program's result as a function of its arguments, on the extended reals: four layers, each
  `relu ((A · H) · W + b)` — two matrix products, the bias copied into every row, and the maximum with zero.
-/
import proofs.«164197_g26036091748832_cont_9to1_1945_4_alg».proof.Defs
import proofs.«164197_g26036091748832_cont_9to1_1945_4_alg».proof.Proof.Gen.ReferenceIdeal.Run
import proofs.«164197_g26036091748832_cont_9to1_1945_4_alg».proof.Proof.Gen.ReferenceIdeal.Read
import proofs.«164197_g26036091748832_cont_9to1_1945_4_alg».proof.Proof.MatIdx
import proofs.«164197_g26036091748832_cont_9to1_1945_4_alg».proof.Proof.LibMatmulPlain
import Idealize.ShloMosaic.Lib.ValueLayout
import Idealize.ShloMosaic.Lib.Pipeline.Value

noncomputable section

namespace Cert.RefValue

open Cert.ReferenceIdeal Cert.ReferenceIdeal.Gen Cert.MatIdx
open Idealize.ShloMosaic Idealize.ShloMosaic.TcCoe Idealize.ShloMosaic.ValueIdx Idealize.SL.Sem

section Layer

variable {n d e : ℕ}

/-- A vector laid out as a one-row matrix, read at `(r, s)`, is the vector at `s`. -/
private theorem bcast_row_apply (h1 : (⟨1, ![e]⟩ : Shape).BroadcastsInDim ⟨2, ![1, e]⟩ ![1])
    (b : FVec Ideal ⟨1, ![e]⟩ .f32) (r : Fin 1) (s : Fin e) :
    broadcastInDim ⟨2, ![1, e]⟩ ![1] h1 b (ix2 r s) = b (ix1 s) := by
  refine broadcastInDim_apply ![1] h1 b (ix2 r s) (ix1 s) ?_
  intro a
  match a with
  | ⟨0, _⟩ =>
    show s.val = if e = 1 then 0 else s.val
    split
    · have := s.isLt; omega
    · rfl

/-- A one-row matrix copied down `n` rows, read at `(r, s)`, is the row at `(0, s)`. -/
private theorem bcast_rows_apply (h2 : (⟨2, ![1, e]⟩ : Shape).BroadcastsInDim ⟨2, ![n, e]⟩ ![0, 1])
    (y : FVec Ideal ⟨2, ![1, e]⟩ .f32) (r : Fin n) (s : Fin e) :
    broadcastInDim ⟨2, ![n, e]⟩ ![0, 1] h2 y (ix2 r s) = y (ix2 (0 : Fin 1) s) := by
  refine broadcastInDim_apply ![0, 1] h2 y (ix2 r s) (ix2 (0 : Fin 1) s) ?_
  intro a
  match a with
  | ⟨0, _⟩ =>
    show (0 : ℕ) = if (1 : ℕ) = 1 then 0 else r.val
    rw [if_pos rfl]
  | ⟨1, _⟩ =>
    show s.val = if e = 1 then 0 else s.val
    split
    · have := s.isLt; omega
    · rfl

/-- The zero scalar copied to every entry is zero at every entry. -/
private theorem bcast_zero_apply (h0 : (⟨0, ![]⟩ : Shape).BroadcastsInDim ⟨2, ![n, e]⟩ ![]) (j : (⟨2, ![n, e]⟩ : Shape).Idx) :
    broadcastInDim ⟨2, ![n, e]⟩ ![] h0 (constant (F := Ideal) ⟨0, ![]⟩ .f32 0x00000000#32) j = (0 : EReal) := by
  unfold broadcastInDim
  rw [constant_apply, Ideal.ofBits_zero_f32]

/-- One layer of the reference: two plain matrix products, the bias row added to every row, and the maximum with zero,
    read entry by entry. -/
private theorem layer_eq
    (dd1 : DotDims ⟨2, ![n, n]⟩ ⟨2, ![n, d]⟩ ⟨2, ![n, d]⟩) (hd1 : dd1 = DotDims.plain n n d)
    (dd2 : DotDims ⟨2, ![n, d]⟩ ⟨2, ![d, e]⟩ ⟨2, ![n, e]⟩) (hd2 : dd2 = DotDims.plain n d e)
    (h1 : (⟨1, ![e]⟩ : Shape).BroadcastsInDim ⟨2, ![1, e]⟩ ![1])
    (h2 : (⟨2, ![1, e]⟩ : Shape).BroadcastsInDim ⟨2, ![n, e]⟩ ![0, 1])
    (h0 : (⟨0, ![]⟩ : Shape).BroadcastsInDim ⟨2, ![n, e]⟩ ![])
    (A : FVec Ideal ⟨2, ![n, n]⟩ .f32) (H : FVec Ideal ⟨2, ![n, d]⟩ .f32) (W : FVec Ideal ⟨2, ![d, e]⟩ .f32)
    (b : FVec Ideal ⟨1, ![e]⟩ .f32) :
    (maximumf (addf (Host.dotGeneral dd2 none (Host.dotGeneral dd1 none A H) W)
        (broadcastInDim ⟨2, ![n, e]⟩ ![0, 1] h2 (broadcastInDim ⟨2, ![1, e]⟩ ![1] h1 b)))
      (broadcastInDim ⟨2, ![n, e]⟩ ![] h0 (constant ⟨0, ![]⟩ .f32 0x00000000#32)) : FVec Ideal ⟨2, ![n, e]⟩ .f32)
    = ofMat (Cert.Spec.refLayer (toMat A) (toMat H) (toMat W) (toVec b)) := by
  subst hd1 hd2
  refine ext_ix2 fun r s => ?_
  rw [ofMat_ix2, maximumf_apply, addf_apply, bcast_zero_apply, bcast_rows_apply, bcast_row_apply]
  simp only [Host.dotGeneral]
  rw [Cert.MatmulPlain.dotGeneral_apply]
  unfold Cert.Spec.refLayer Cert.Spec.act Cert.Spec.mm
  refine congrArg (fun z => max (z + toVec b s) 0) ?_
  refine Finset.sum_congr rfl fun k _ => ?_
  rw [Cert.MatmulPlain.dotGeneral_apply]
  rfl

end Layer

/-- The reference's result term is the four reference layers of the arguments' matrices. -/
theorem ref_result (X : FVec Ideal S10000x512 .f32) (A : FVec Ideal S10000x10000 .f32) (W1 : FVec Ideal S512x256 .f32) (b1 : FVec Ideal S256 .f32)
    (W2 : FVec Ideal S256x128 .f32) (b2 : FVec Ideal S128 .f32) (W3 : FVec Ideal S128x64 .f32) (b3 : FVec Ideal S64 .f32)
    (W4 : FVec Ideal S64x32 .f32) (b4 : FVec Ideal S32 .f32) :
    (maximumf (addf (Host.dotGeneral dot_S10000x64_S64x32_S10000x32_1_0_0_1_n_n none (Host.dotGeneral dot_S10000x10000_S10000x64_S10000x64_1_0_0_1_n_n none A (maximumf (addf (Host.dotGeneral dot_S10000x128_S128x64_S10000x64_1_0_0_1_n_n none (Host.dotGeneral dot_S10000x10000_S10000x128_S10000x128_1_0_0_1_n_n none A (maximumf (addf (Host.dotGeneral dot_S10000x256_S256x128_S10000x128_1_0_0_1_n_n none (Host.dotGeneral dot_S10000x10000_S10000x256_S10000x256_1_0_0_1_n_n none A (maximumf (addf (Host.dotGeneral dot_S10000x512_S512x256_S10000x256_1_0_0_1_n_n none (Host.dotGeneral dot_S10000x10000_S10000x512_S10000x512_1_0_0_1_n_n none A X) W1) (broadcastInDim S10000x256 ![0, 1] bcast_S1x256_S10000x256_0_1 (broadcastInDim S1x256 ![1] bcast_S256_S1x256_1 b1))) (broadcastInDim S10000x256 ![] bcast_S_S10000x256 (constant S_ .f32 0x00000000#32)))) W2) (broadcastInDim S10000x128 ![0, 1] bcast_S1x128_S10000x128_0_1 (broadcastInDim S1x128 ![1] bcast_S128_S1x128_1 b2))) (broadcastInDim S10000x128 ![] bcast_S_S10000x128 (constant S_ .f32 0x00000000#32)))) W3) (broadcastInDim S10000x64 ![0, 1] bcast_S1x64_S10000x64_0_1 (broadcastInDim S1x64 ![1] bcast_S64_S1x64_1 b3))) (broadcastInDim S10000x64 ![] bcast_S_S10000x64 (constant S_ .f32 0x00000000#32)))) W4) (broadcastInDim S10000x32 ![0, 1] bcast_S1x32_S10000x32_0_1 (broadcastInDim S1x32 ![1] bcast_S32_S1x32_1 b4))) (broadcastInDim S10000x32 ![] bcast_S_S10000x32 (constant S_ .f32 0x00000000#32)) : FVec Ideal S10000x32 .f32)
      = ofMat (Cert.Spec.refNet (toMat A) (toMat X) (toMat W1) (toVec b1) (toMat W2) (toVec b2) (toMat W3) (toVec b3) (toMat W4) (toVec b4)) := by
  -- Each layer of the term is the reference layer of the matrices of its operands; the layers are chained through the
  -- matrix of the previous layer's array, which is the previous layer's matrix.
  rw [layer_eq dot_S10000x10000_S10000x512_S10000x512_1_0_0_1_n_n rfl dot_S10000x512_S512x256_S10000x256_1_0_0_1_n_n rfl
      bcast_S256_S1x256_1 bcast_S1x256_S10000x256_0_1 bcast_S_S10000x256 A X W1 b1,
    layer_eq dot_S10000x10000_S10000x256_S10000x256_1_0_0_1_n_n rfl dot_S10000x256_S256x128_S10000x128_1_0_0_1_n_n rfl
      bcast_S128_S1x128_1 bcast_S1x128_S10000x128_0_1 bcast_S_S10000x128 A _ W2 b2,
    layer_eq dot_S10000x10000_S10000x128_S10000x128_1_0_0_1_n_n rfl dot_S10000x128_S128x64_S10000x64_1_0_0_1_n_n rfl
      bcast_S64_S1x64_1 bcast_S1x64_S10000x64_0_1 bcast_S_S10000x64 A _ W3 b3,
    layer_eq dot_S10000x10000_S10000x64_S10000x64_1_0_0_1_n_n rfl dot_S10000x64_S64x32_S10000x32_1_0_0_1_n_n rfl
      bcast_S32_S1x32_1 bcast_S1x32_S10000x32_0_1 bcast_S_S10000x32 A _ W4 b4]
  simp only [toMat_ofMat]
  rfl

end Cert.RefValue

end
-- ==== Proof.Finite.lean ====
/-
  The precondition, read: it says of each of the ten arguments that every entry's absolute value is below plus infinity,
  all these facts conjoined.  On the extended reals an entry whose absolute value is below plus infinity is a real number.
-/
import proofs.«164197_g26036091748832_cont_9to1_1945_4_alg».proof.Pre_finite_inputs
import proofs.«164197_g26036091748832_cont_9to1_1945_4_alg».proof.Proof.Gen.Pre_finite_inputs
import proofs.«164197_g26036091748832_cont_9to1_1945_4_alg».proof.Proof.MatIdx
import Idealize.ShloMosaic.Lib.ReduceAll
import Idealize.ShloMosaic.PureOps.Ideal.Laws

noncomputable section

namespace Cert.Finite

open Cert.Pre_finite_inputs Cert.MatIdx Cert.Spec
open Idealize.ShloMosaic Idealize.ShloMosaic.ValueIdx

/-- The scalar shape has one index. -/
private instance : Subsingleton S_.Idx := ⟨fun a b => funext fun d => d.elim0⟩

/-- The f32 pattern of plus infinity denotes plus infinity. -/
private theorem ofBits_inf : Ideal.ofBits .f32 0x7F800000#32 = (⊤ : EReal) := by
  simp [Ideal.ofBits, Ideal.ieee]

/-- An extended real whose absolute value `max x (-x)` is below plus infinity is a real number: the absolute value of
    either infinity is plus infinity. -/
private theorem real_of_abs_lt_top (x : EReal) (h : max x (-x) < ⊤) : ∃ r : ℝ, x = (r : EReal) := by
  induction x with
  | bot => simp at h
  | coe r => exact ⟨r, rfl⟩
  | top => simp at h

/-- The conjunction over a whole array of "the entry's absolute value is below plus infinity" being 1 says every entry
    is a real number. -/
private theorem real_of_all {S : Shape} {axes : List (Fin S.rank)} (x : FVec Ideal S .f32)
    (hb : S_.BroadcastsInDim S (![] : Fin 0 → Fin S.rank)) (hr : S.ReducesTo axes S_) (hu : 0 < S_.numel)
    (e : Host.reduce IntOp.andi (cmpf .olt (Host.absf x) (broadcastInDim S ![] hb (constant S_ .f32 0x7F800000#32)))
      (constantI S_ 1 1#1) hr hu ix0 = 1#1)
    (i : S.Idx) : ∃ r : ℝ, x i = (r : EReal) := by
  have h1 := Host.reduce_andi_all _ _ hr hu ix0 e i
  -- the comparison on the extended reals is the order's, as a bit
  have h2 : BitVec.ofBool (decide (max (x i) (-(x i)) < Ideal.ofBits .f32 0x7F800000#32)) = 1#1 := h1
  rw [ofBits_inf] at h2
  have h3 : max (x i) (-(x i)) < ⊤ := by
    by_contra hn
    rw [decide_eq_false hn] at h2
    exact absurd h2 (by decide)
  exact real_of_abs_lt_top _ h3

/-- If the precondition's predicate is all ones at the ten arguments, every entry of every argument is a real number. -/
theorem real_of_pre [hP : Cert.Pre_finite_inputs.Facts]
    (X : FVec Ideal S10000x512 .f32) (A : FVec Ideal S10000x10000 .f32) (W1 : FVec Ideal S512x256 .f32) (b1 : FVec Ideal S256 .f32)
    (W2 : FVec Ideal S256x128 .f32) (b2 : FVec Ideal S128 .f32) (W3 : FVec Ideal S128x64 .f32) (b3 : FVec Ideal S64 .f32)
    (W4 : FVec Ideal S64x32 .f32) (b4 : FVec Ideal S32 .f32)
    (h : Cert.Pre_finite_inputs.fn (F := Ideal) X A W1 b1 W2 b2 W3 b3 W4 b4 = fun _ => 1#1) :
    IsReal (toMat X) ∧ IsReal (toMat A) ∧ IsReal (toMat W1) ∧ IsRealV (toVec b1) ∧ IsReal (toMat W2) ∧ IsRealV (toVec b2)
      ∧ IsReal (toMat W3) ∧ IsRealV (toVec b3) ∧ IsReal (toMat W4) ∧ IsRealV (toVec b4) := by
  -- the predicate at its one index, its operations in view
  have h0 := congrFun h ix0
  dsimp only [fn, fn_part1, fn_part2] at h0
  -- a conjunction of bits is 1 exactly when both are: the ten arguments' facts, last first
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun r s => real_of_all X _ _ _ e0 (ix2 r s), fun r s => real_of_all A _ _ _ e1 (ix2 r s),
    fun r s => real_of_all W1 _ _ _ e2 (ix2 r s), fun s => real_of_all b1 _ _ _ e3 (ix1 s),
    fun r s => real_of_all W2 _ _ _ e4 (ix2 r s), fun s => real_of_all b2 _ _ _ e5 (ix1 s),
    fun r s => real_of_all W3 _ _ _ e6 (ix2 r s), fun s => real_of_all b3 _ _ _ e7 (ix1 s),
    fun r s => real_of_all W4 _ _ _ e8 (ix2 r s), fun s => real_of_all b4 _ _ _ e9 (ix1 s)⟩

end Cert.Finite

end
-- ==== Proof.lean ====
/-
  A four-layer graph-convolution encoder, `H ← relu (A · H · W + b)` over 10000 nodes with widths 512, 256, 128, 64, 32.
  The reference multiplies left to right, `(A · H) · W`.  The kernel reassociates: it first projects, `G = H · W`, then
  computes `relu (A · G + b)` for a block of rows and at once the next projection of those rows, in five row-blocked
  stages, keeping a narrower-format copy of `A`.  On the extended reals a change of float format is the identity and a
  matrix product is the exact sum of products, so the two programs differ only by the association of the products; the
  precondition makes every argument entry a real number, all intermediate entries are then real, and over the reals the
  matrix product is associative.  The stages' last row block overhangs the arrays; the overhanging rows of a staging
  buffer hold words nothing names, and they never reach a kept entry because entry `(r, s)` of a product reads only row
  `r` of its left factor.

  The five claims: the word-level kernel program, the idealized kernel program and the idealized reference each run to
  the end, fault nowhere and leave their arguments unchanged; the idealization rewrote no operation; and the two
  idealized programs, run from memories that agree on the arguments, end with equal results.
-/
import proofs.«164197_g26036091748832_cont_9to1_1945_4_alg».proof.Defs
import proofs.«164197_g26036091748832_cont_9to1_1945_4_alg».proof.Proof.Gen.Kernel
import proofs.«164197_g26036091748832_cont_9to1_1945_4_alg».proof.Proof.Gen.KernelIdeal
import proofs.«164197_g26036091748832_cont_9to1_1945_4_alg».proof.Proof.Gen.ReferenceIdeal
import proofs.«164197_g26036091748832_cont_9to1_1945_4_alg».proof.Proof.Gen.Pre_finite_inputs
import proofs.«164197_g26036091748832_cont_9to1_1945_4_alg».proof.Proof.Gen.ReferenceIdeal.Run
import proofs.«164197_g26036091748832_cont_9to1_1945_4_alg».proof.Proof.KFrame
import proofs.«164197_g26036091748832_cont_9to1_1945_4_alg».proof.Proof.IVal
import proofs.«164197_g26036091748832_cont_9to1_1945_4_alg».proof.Proof.RefValue
import proofs.«164197_g26036091748832_cont_9to1_1945_4_alg».proof.Proof.Finite

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Hand.frame m ρ

/-- The idealized kernel program runs and leaves its arguments unchanged: its run with the result dropped. -/
theorem frame_ki : Cert.frame_KernelIdeal := fun m ρ _ =>
  (θ_run Cert.KernelIdeal.defs _ _).mono (fun _ h c => (h c).2) (Cert.KernelIdeal.Hand.run_main m ρ)

/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both idealized programs end at the kernel's network of the arguments: the
    reference's four left-associated layers are the kernel's five stages because every argument entry is real. -/
theorem algebraic : Cert.algebraic_KernelIdeal_ReferenceIdeal := by
  intro m ρ m' ρ' hpre hagree
  refine ⟨_, Cert.KernelIdeal.Hand.run_main m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  obtain ⟨rX, rA, rW1, rb1, rW2, rb2, rW3, rb3, rW4, rb4⟩ := Cert.Finite.real_of_pre _ _ _ _ _ _ _ _ _ _ (hpre c)
  rw [e0, e1, e2, e3, e4, e5, e6, e7, e8, e9, Cert.RefValue.ref_result, Cert.Spec.kerNet_eq_refNet rA rX rW1 rb1 rW2 rb2 rW3 rb3 rW4 rb4]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
